-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1553 : Shape := ⟨2, ![100000, 1553]⟩
abbrev S2x1600000 : Shape := ⟨2, ![2, 1600000]⟩
abbrev S1600000 : Shape := ⟨1, ![1600000]⟩
abbrev S768x128 : Shape := ⟨2, ![768, 128]⟩
abbrev S128 : Shape := ⟨1, ![128]⟩
abbrev S6x128 : Shape := ⟨2, ![6, 128]⟩
abbrev S11x128 : Shape := ⟨2, ![11, 128]⟩
abbrev S512x128 : Shape := ⟨2, ![512, 128]⟩
abbrev S128x128 : Shape := ⟨2, ![128, 128]⟩
abbrev S2x128x128 : Shape := ⟨3, ![2, 128, 128]⟩
abbrev S_ : Shape := ⟨0, ![]⟩
abbrev S1x1600000 : Shape := ⟨2, ![1, 1600000]⟩

class Facts : Prop where
  bcast_S_S100000x1553 : S_.BroadcastsInDim S100000x1553 (![] : Fin 0 → Fin S100000x1553.rank)
  reducesTo_S100000x1553_S_d0_1 : S100000x1553.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S6x128 : S_.BroadcastsInDim S6x128 (![] : Fin 0 → Fin S6x128.rank)
  reducesTo_S6x128_S_d0_1 : S6x128.ReducesTo [0, 1] S_
  bcast_S_S11x128 : S_.BroadcastsInDim S11x128 (![] : Fin 0 → Fin S11x128.rank)
  reducesTo_S11x128_S_d0_1 : S11x128.ReducesTo [0, 1] S_
  bcast_S_S512x128 : S_.BroadcastsInDim S512x128 (![] : Fin 0 → Fin S512x128.rank)
  reducesTo_S512x128_S_d0_1 : S512x128.ReducesTo [0, 1] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg1 : IVec S2x1600000 32) (main_arg2 : IVec S1600000 32) (main_v98 : IVec S_ 1) (main_v102 : IVec S1600000 1) : IVec S_ 1 :=
  let main_v103 : IVec S1x1600000 32 := (extractStridedSlice S1x1600000 ![1, 0] · slices_S2x1600000_S1x1600000_1_0) main_arg1
  let main_v104 : IVec S1600000 32 := shapeCast S1600000 main_v103 shapeCasts_S1x1600000_S1600000
  let main_c_39 : IVec S_ 32 := constantI S_ 32 100000#32
  let main_v105 : IVec S1600000 32 := broadcastInDim S1600000 ![] bcast_S_S1600000 main_c_39
  let main_v106 : IVec S1600000 1 := cmpi .slt main_v104 main_v105
  let main_v107 : IVec S1600000 1 := andi main_v102 main_v106
  let main_c_40 : IVec S_ 1 := constantI S_ 1 1#1
  let main_v108 : IVec S_ 1 := (fun x v => Host.reduce IntOp.andi x v reducesTo_S1600000_S_d0 h_S_) main_v107 main_c_40
  let main_v109 : IVec S_ 1 := andi main_v98 main_v108
  let main_c_41 : IVec S_ 32 := constantI S_ 32 0#32
  let main_v110 : IVec S1600000 32 := broadcastInDim S1600000 ![] bcast_S_S1600000 main_c_41
  let main_v111 : IVec S1600000 1 := cmpi .sge main_arg2 main_v110
  let main_c_42 : IVec S_ 32 := constantI S_ 32 2#32
  let main_v112 : IVec S1600000 32 := broadcastInDim S1600000 ![] bcast_S_S1600000 main_c_42
  let main_v113 : IVec S1600000 1 := cmpi .slt main_arg2 main_v112
  let main_v114 : IVec S1600000 1 := andi main_v111 main_v113
  let main_c_43 : IVec S_ 1 := constantI S_ 1 1#1
  let main_v115 : IVec S_ 1 := (fun x v => Host.reduce IntOp.andi x v reducesTo_S1600000_S_d0 h_S_) main_v114 main_c_43
  let main_v116 : IVec S_ 1 := andi main_v109 main_v115
  main_v116

def fn_part5 {F : FTy → Type} [FloatOps F] (main_arg1 : IVec S2x1600000 32) (main_arg2 : IVec S1600000 32) (main_arg20 : FVec F S128x128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : IVec S1x1600000 32 := (extractStridedSlice S1x1600000 ![1, 0] · slices_S2x1600000_S1x1600000_1_0) main_arg1
  let main_v100 : IVec S1600000 32 := shapeCast S1600000 main_v99 shapeCasts_S1x1600000_S1600000
  let main_c_38 : IVec S_ 32 := constantI S_ 32 0#32
  let main_v101 : IVec S1600000 32 := broadcastInDim S1600000 ![] bcast_S_S1600000 main_c_38
  let main_v102 : IVec S1600000 1 := cmpi .sge main_v100 main_v101
  fn_part6 (F := F) main_arg1 main_arg2 main_v98 main_v102

def fn_part4 {F : FTy → Type} [FloatOps F] (main_arg1 : IVec S2x1600000 32) (main_arg2 : IVec S1600000 32) (main_arg16 : FVec F S128 .f32) (main_arg17 : FVec F S128x128 .f32) (main_arg18 : FVec F S2x128x128 .f32) (main_arg19 : FVec F S128 .f32) (main_arg20 : FVec F S128x128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S2x128x128 .f32 := Host.absf main_arg18
  let main_cst_30 : FVec F S_ .f32 := constant S_ .f32 0x7F800000#32
  let main_v80 : FVec F S2x128x128 .f32 := broadcastInDim S2x128x128 ![] bcast_S_S2x128x128 main_cst_30
  let main_v81 : IVec S2x128x128 1 := cmpf .olt main_v79 main_v80
  let main_c_31 : IVec S_ 1 := constantI S_ 1 1#1
  let main_v82 : IVec S_ 1 := (fun x v => Host.reduce IntOp.andi x v reducesTo_S2x128x128_S_d0_1_2 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg1 main_arg2 main_arg20 main_arg21 main_v83 main_v84 main_cst_32

def fn_part3 {F : FTy → Type} [FloatOps F] (main_arg1 : IVec S2x1600000 32) (main_arg2 : IVec S1600000 32) (main_arg13 : FVec F S128 .f32) (main_arg14 : FVec F S128x128 .f32) (main_arg15 : FVec F S2x128x128 .f32) (main_arg16 : FVec F S128 .f32) (main_arg17 : FVec F S128x128 .f32) (main_arg18 : FVec F S2x128x128 .f32) (main_arg19 : FVec F S128 .f32) (main_arg20 : FVec F S128x128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S2x128x128 .f32 := Host.absf main_arg15
  let main_cst_24 : FVec F S_ .f32 := constant S_ .f32 0x7F800000#32
  let main_v65 : FVec F S2x128x128 .f32 := broadcastInDim S2x128x128 ![] bcast_S_S2x128x128 main_cst_24
  let main_v66 : IVec S2x128x128 1 := cmpf .olt main_v64 main_v65
  let main_c_25 : IVec S_ 1 := constantI S_ 1 1#1
  let main_v67 : IVec S_ 1 := (fun x v => Host.reduce IntOp.andi x v reducesTo_S2x128x128_S_d0_1_2 h_S_) main_v66 main_c_25
  fn_part4 (F := F) main_arg1 main_arg2 main_arg16 main_arg17 main_arg18 main_arg19 main_arg20 main_arg21 main_v63 main_v67

def fn_part2 {F : FTy → Type} [FloatOps F] (main_arg1 : IVec S2x1600000 32) (main_arg2 : IVec S1600000 32) (main_arg9 : FVec F S11x128 .f32) (main_arg10 : FVec F S128 .f32) (main_arg11 : FVec F S512x128 .f32) (main_arg12 : FVec F S128 .f32) (main_arg13 : FVec F S128 .f32) (main_arg14 : FVec F S128x128 .f32) (main_arg15 : FVec F S2x128x128 .f32) (main_arg16 : FVec F S128 .f32) (main_arg17 : FVec F S128x128 .f32) (main_arg18 : FVec F S2x128x128 .f32) (main_arg19 : FVec F S128 .f32) (main_arg20 : FVec F S128x128 .f32) (main_arg21 : FVec F S128 .f32) (main_v33 : IVec S_ 1) : IVec S_ 1 :=
  let main_v34 : FVec F S11x128 .f32 := Host.absf main_arg9
  let main_cst_12 : FVec F S_ .f32 := constant S_ .f32 0x7F800000#32
  let main_v35 : FVec F S11x128 .f32 := broadcastInDim S11x128 ![] bcast_S_S11x128 main_cst_12
  let main_v36 : IVec S11x128 1 := cmpf .olt main_v34 main_v35
  let main_c_13 : IVec S_ 1 := constantI S_ 1 1#1
  let main_v37 : IVec S_ 1 := (fun x v => Host.reduce IntOp.andi x v reducesTo_S11x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x128 .f32 := Host.absf main_arg11
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_arg13 main_arg14 main_arg15 main_arg16 main_arg17 main_arg18 main_arg19 main_arg20 main_arg21 main_v48 main_v49 main_v50

def fn_part1 {F : FTy → Type} [FloatOps F] (main_arg1 : IVec S2x1600000 32) (main_arg2 : IVec S1600000 32) (main_arg6 : FVec F S128 .f32) (main_arg7 : FVec F S6x128 .f32) (main_arg8 : FVec F S128 .f32) (main_arg9 : FVec F S11x128 .f32) (main_arg10 : FVec F S128 .f32) (main_arg11 : FVec F S512x128 .f32) (main_arg12 : FVec F S128 .f32) (main_arg13 : FVec F S128 .f32) (main_arg14 : FVec F S128x128 .f32) (main_arg15 : FVec F S2x128x128 .f32) (main_arg16 : FVec F S128 .f32) (main_arg17 : FVec F S128x128 .f32) (main_arg18 : FVec F S2x128x128 .f32) (main_arg19 : FVec F S128 .f32) (main_arg20 : FVec F S128x128 .f32) (main_arg21 : FVec F S128 .f32) (main_v13 : IVec S_ 1) (main_v16 : IVec S768x128 1) : IVec S_ 1 :=
  let main_c_5 : IVec S_ 1 := constantI S_ 1 1#1
  let main_v17 : IVec S_ 1 := (fun x v => Host.reduce IntOp.andi x v reducesTo_S768x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S6x128 .f32 := Host.absf main_arg7
  let main_cst_8 : FVec F S_ .f32 := constant S_ .f32 0x7F800000#32
  let main_v25 : FVec F S6x128 .f32 := broadcastInDim S6x128 ![] bcast_S_S6x128 main_cst_8
  let main_v26 : IVec S6x128 1 := cmpf .olt main_v24 main_v25
  let main_c_9 : IVec S_ 1 := constantI S_ 1 1#1
  let main_v27 : IVec S_ 1 := (fun x v => Host.reduce IntOp.andi x v reducesTo_S6x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_arg11 main_arg12 main_arg13 main_arg14 main_arg15 main_arg16 main_arg17 main_arg18 main_arg19 main_arg20 main_arg21 main_v33

def fn {F : FTy → Type} [FloatOps F] (main_arg0 : FVec F S100000x1553 .f32) (main_arg1 : IVec S2x1600000 32) (main_arg2 : IVec S1600000 32) (main_arg3 : FVec F S768x128 .f32) (main_arg4 : FVec F S128 .f32) (main_arg5 : FVec F S768x128 .f32) (main_arg6 : FVec F S128 .f32) (main_arg7 : FVec F S6x128 .f32) (main_arg8 : FVec F S128 .f32) (main_arg9 : FVec F S11x128 .f32) (main_arg10 : FVec F S128 .f32) (main_arg11 : FVec F S512x128 .f32) (main_arg12 : FVec F S128 .f32) (main_arg13 : FVec F S128 .f32) (main_arg14 : FVec F S128x128 .f32) (main_arg15 : FVec F S2x128x128 .f32) (main_arg16 : FVec F S128 .f32) (main_arg17 : FVec F S128x128 .f32) (main_arg18 : FVec F S2x128x128 .f32) (main_arg19 : FVec F S128 .f32) (main_arg20 : FVec F S128x128 .f32) (main_arg21 : FVec F S128 .f32) : IVec S_ 1 :=
  let main_v0 : FVec F S100000x1553 .f32 := Host.absf main_arg0
  let main_cst : FVec F S_ .f32 := constant S_ .f32 0x7F800000#32
  let main_v1 : FVec F S100000x1553 .f32 := broadcastInDim S100000x1553 ![] bcast_S_S100000x1553 main_cst
  let main_v2 : IVec S100000x1553 1 := cmpf .olt main_v0 main_v1
  let main_c : IVec S_ 1 := constantI S_ 1 1#1
  let main_v3 : IVec S_ 1 := (fun x v => Host.reduce IntOp.andi x v reducesTo_S100000x1553_S_d0_1 h_S_) main_v2 main_c
  let main_v4 : FVec F S768x128 .f32 := Host.absf main_arg3
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S768x128 .f32 := Host.absf main_arg5
  let main_cst_4 : FVec F S_ .f32 := constant S_ .f32 0x7F800000#32
  let main_v15 : FVec F S768x128 .f32 := broadcastInDim S768x128 ![] bcast_S_S768x128 main_cst_4
  let main_v16 : IVec S768x128 1 := cmpf .olt main_v14 main_v15
  fn_part1 (F := F) main_arg1 main_arg2 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x1553 : Shape := ⟨2, ![100000, 1553]⟩
abbrev S2x1600000 : Shape := ⟨2, ![2, 1600000]⟩
abbrev S1600000 : Shape := ⟨1, ![1600000]⟩
abbrev S768x128 : Shape := ⟨2, ![768, 128]⟩
abbrev S128 : Shape := ⟨1, ![128]⟩
abbrev S6x128 : Shape := ⟨2, ![6, 128]⟩
abbrev S11x128 : Shape := ⟨2, ![11, 128]⟩
abbrev S512x128 : Shape := ⟨2, ![512, 128]⟩
abbrev S128x128 : Shape := ⟨2, ![128, 128]⟩
abbrev S2x128x128 : Shape := ⟨3, ![2, 128, 128]⟩
abbrev S100000x128 : Shape := ⟨2, ![100000, 128]⟩
abbrev S1000x1553 : Shape := ⟨2, ![1000, 1553]⟩
abbrev S1000x128 : Shape := ⟨2, ![1000, 128]⟩
abbrev S1000x6 : Shape := ⟨2, ![1000, 6]⟩
abbrev S1000x768 : Shape := ⟨2, ![1000, 768]⟩
abbrev S1000x11 : Shape := ⟨2, ![1000, 11]⟩
abbrev S1x128 : Shape := ⟨2, ![1, 128]⟩
abbrev S1000x512 : Shape := ⟨2, ![1000, 512]⟩
abbrev S1x1600000 : Shape := ⟨2, ![1, 1600000]⟩
abbrev S_ : Shape := ⟨0, ![]⟩
abbrev S200000 : Shape := ⟨1, ![200000]⟩
abbrev S1600000x1 : Shape := ⟨2, ![1600000, 1]⟩
abbrev S100000x2 : Shape := ⟨2, ![100000, 2]⟩
abbrev S1600000x128 : Shape := ⟨2, ![1600000, 128]⟩
abbrev S200000x128 : Shape := ⟨2, ![200000, 128]⟩
abbrev S100000x256 : Shape := ⟨2, ![100000, 256]⟩
abbrev S4000x128 : Shape := ⟨2, ![4000, 128]⟩
abbrev S4000x256 : Shape := ⟨2, ![4000, 256]⟩
abbrev S4000x2 : Shape := ⟨2, ![4000, 2]⟩
abbrev S4000x1 : Shape := ⟨2, ![4000, 1]⟩
abbrev S1x128x128 : Shape := ⟨3, ![1, 128, 128]⟩

abbrev nBuf : Space → Nat
  | .hbm => 68
  | .vmem => 39
  | .smem => 0
  | _ => 0

abbrev bufTy : (tb : Table) → Fin (tcTables nBuf tb) → BufTy
  | .hbm, ⟨0, _⟩ => ⟨S100000x1553, .f32⟩
  | .hbm, ⟨1, _⟩ => ⟨S2x1600000, .i32⟩
  | .hbm, ⟨2, _⟩ => ⟨S1600000, .i32⟩
  | .hbm, ⟨3, _⟩ => ⟨S768x128, .f32⟩
  | .hbm, ⟨4, _⟩ => ⟨S128, .f32⟩
  | .hbm, ⟨5, _⟩ => ⟨S768x128, .f32⟩
  | .hbm, ⟨6, _⟩ => ⟨S128, .f32⟩
  | .hbm, ⟨7, _⟩ => ⟨S6x128, .f32⟩
  | .hbm, ⟨8, _⟩ => ⟨S128, .f32⟩
  | .hbm, ⟨9, _⟩ => ⟨S11x128, .f32⟩
  | .hbm, ⟨10, _⟩ => ⟨S128, .f32⟩
  | .hbm, ⟨11, _⟩ => ⟨S512x128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S2x128x128, .f32⟩
  | .hbm, ⟨16, _⟩ => ⟨S128, .f32⟩
  | .hbm, ⟨17, _⟩ => ⟨S128x128, .f32⟩
  | .hbm, ⟨18, _⟩ => ⟨S2x128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S100000x128, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S200000, .f32⟩
  | .hbm, ⟨35, _⟩ => ⟨S1600000x1, .i32⟩
  | .hbm, ⟨36, _⟩ => ⟨S200000, .f32⟩
  | .hbm, ⟨37, _⟩ => ⟨S100000x2, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S200000x128, .f32⟩
  | .hbm, ⟨49, _⟩ => ⟨S1600000x1, .i32⟩
  | .hbm, ⟨50, _⟩ => ⟨S200000x128, .f32⟩
  | .hbm, ⟨51, _⟩ => ⟨S100000x256, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S200000x128, .f32⟩
  | .hbm, ⟨64, _⟩ => ⟨S1600000x1, .i32⟩
  | .hbm, ⟨65, _⟩ => ⟨S200000x128, .f32⟩
  | .hbm, ⟨66, _⟩ => ⟨S100000x256, .f32⟩
  | .hbm, ⟨67, _⟩ => ⟨S100000x128, .f32⟩
  | .local _ .vmem, ⟨0, _⟩ => ⟨S1000x1553, .f32⟩
  | .local _ .vmem, ⟨1, _⟩ => ⟨S1000x1553, .f32⟩
  | .local _ .vmem, ⟨2, _⟩ => ⟨S6x128, .f32⟩
  | .local _ .vmem, ⟨3, _⟩ => ⟨S128, .f32⟩
  | .local _ .vmem, ⟨4, _⟩ => ⟨S768x128, .f32⟩
  | .local _ .vmem, ⟨5, _⟩ => ⟨S128, .f32⟩
  | .local _ .vmem, ⟨6, _⟩ => ⟨S11x128, .f32⟩
  | .local _ .vmem, ⟨7, _⟩ => ⟨S128, .f32⟩
  | .local _ .vmem, ⟨8, _⟩ => ⟨S768x128, .f32⟩
  | .local _ .vmem, ⟨9, _⟩ => ⟨S128, .f32⟩
  | .local _ .vmem, ⟨10, _⟩ => ⟨S512x128, .f32⟩
  | .local _ .vmem, ⟨11, _⟩ => ⟨S128, .f32⟩
  | .local _ .vmem, ⟨12, _⟩ => ⟨S128, .f32⟩
  | .local _ .vmem, ⟨13, _⟩ => ⟨S1000x128, .f32⟩
  | .local _ .vmem, ⟨14, _⟩ => ⟨S1000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S2x128x128, .f32⟩
  | .local _ .vmem, ⟨19, _⟩ => ⟨S128, .f32⟩
  | .local _ .vmem, ⟨20, _⟩ => ⟨S4000x256, .f32⟩
  | .local _ .vmem, ⟨21, _⟩ => ⟨S4000x256, .f32⟩
  | .local _ .vmem, ⟨22, _⟩ => ⟨S4000x2, .f32⟩
  | .local _ .vmem, ⟨23, _⟩ => ⟨S4000x2, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S2x128x128, .f32⟩
  | .local _ .vmem, ⟨30, _⟩ => ⟨S128, .f32⟩
  | .local _ .vmem, ⟨31, _⟩ => ⟨S4000x256, .f32⟩
  | .local _ .vmem, ⟨32, _⟩ => ⟨S4000x256, .f32⟩
  | .local _ .vmem, ⟨33, _⟩ => ⟨S4000x2, .f32⟩
  | .local _ .vmem, ⟨34, _⟩ => ⟨S4000x2, .f32⟩
  | .local _ .vmem, ⟨35, _⟩ => ⟨S128x128, .f32⟩
  | .local _ .vmem, ⟨36, _⟩ => ⟨S128, .f32⟩
  | .local _ .vmem, ⟨37, _⟩ => ⟨S4000x128, .f32⟩
  | .local _ .vmem, ⟨38, _⟩ => ⟨S4000x128, .f32⟩
  | _, _ => ⟨S100000x1553, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem7_0 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1553 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S1000x1553_S1000x6_0_0 : ∀ a, (![0, 0] : Fin 2 → Nat) a + S1000x6.size a ≤ S1000x1553.size a
  h_S1000x6 : 0 < S1000x6.numel
  inb_S1000x1553_S1000x768_0_6 : ∀ a, (![0, 6] : Fin 2 → Nat) a + S1000x768.size a ≤ S1000x1553.size a
  h_S1000x768 : 0 < S1000x768.numel
  inb_S1000x1553_S1000x11_0_774 : ∀ a, (![0, 774] : Fin 2 → Nat) a + S1000x11.size a ≤ S1000x1553.size a
  h_S1000x11 : 0 < S1000x11.numel
  inb_S1000x1553_S1000x768_0_785 : ∀ a, (![0, 785] : Fin 2 → Nat) a + S1000x768.size a ≤ S1000x1553.size a
  inb_S6x128_S6x128_0_0 : ∀ a, (![0, 0] : Fin 2 → Nat) a + S6x128.size a ≤ S6x128.size a
  h_S6x128 : 0 < S6x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S768x128_S768x128_0_0 : ∀ a, (![0, 0] : Fin 2 → Nat) a + S768x128.size a ≤ S768x128.size a
  h_S768x128 : 0 < S768x128.numel
  inb_S11x128_S11x128_0_0 : ∀ a, (![0, 0] : Fin 2 → Nat) a + S11x128.size a ≤ S11x128.size a
  h_S11x128 : 0 < S11x128.numel
  concatenates_S1000x128_S1000x128_S1000x128_S1000x128_S1000x512_d1 : Shape.Concatenates [S1000x128, S1000x128, S1000x128, S1000x128] S1000x512 1
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S200000 : S_.BroadcastsInDim S200000 (![] : Fin 0 → Fin S200000.rank)
  bcast_S1600000_S1600000x1_0 : S1600000.BroadcastsInDim S1600000x1 (![0] : Fin 1 → Fin S1600000x1.rank)
  shapeCasts_S200000_S100000x2 : S200000.ShapeCasts S100000x2
  bcast_S_S200000x128 : S_.BroadcastsInDim S200000x128 (![] : Fin 0 → Fin S200000x128.rank)
  shapeCasts_S200000x128_S100000x256 : S200000x128.ShapeCasts S100000x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S2x128x128_S2x128x128_0_0_0 : ∀ a, (![0, 0, 0] : Fin 3 → Nat) a + S2x128x128.size a ≤ S2x128x128.size a
  h_S2x128x128 : 0 < S2x128x128.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  broadcasts_S1x128_S4000x128 : S1x128.Broadcasts S4000x128
  slices_S4000x2_o0_0_S4000x1 : S4000x2.Slices ![0, 0] S4000x1
  slices_S4000x256_o0_0_S4000x128 : S4000x256.Slices ![0, 0] S4000x128
  broadcasts_S4000x1_S4000x128 : S4000x1.Broadcasts S4000x128
  slices_S2x128x128_o0_0_0_S1x128x128 : S2x128x128.Slices ![0, 0, 0] S1x128x128
  shapeCasts_S1x128x128_S128x128 : S1x128x128.ShapeCasts S128x128
  slices_S4000x2_o0_1_S4000x1 : S4000x2.Slices ![0, 1] S4000x1
  slices_S4000x256_o0_128_S4000x128 : S4000x256.Slices ![0, 128] S4000x128
  slices_S2x128x128_o1_0_0_S1x128x128 : S2x128x128.Slices ![1, 0, 0] S1x128x128
  dot_S1000x6_S6x128_S1000x128_1_0_0_1_n_n_wf : DotDims.WF S1000x6 S6x128 S1000x128 [1] [0] [0] [1] [] []
  dot_S1000x768_S768x128_S1000x128_1_0_0_1_n_n_wf : DotDims.WF S1000x768 S768x128 S1000x128 [1] [0] [0] [1] [] []
  dot_S1000x11_S11x128_S1000x128_1_0_0_1_n_n_wf : DotDims.WF S1000x11 S11x128 S1000x128 [1] [0] [0] [1] [] []
  dot_S1000x512_S512x128_S1000x128_1_0_0_1_n_n_wf : DotDims.WF S1000x512 S512x128 S1000x128 [1] [0] [0] [1] [] []
  scatter_S200000_S1600000x1_S1600000_n_0_0_1_wf : ScatterDims.WF S200000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S200000x128_S1600000x1_S1600000x128_1_0_0_1_wf : ScatterDims.WF S200000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1553.size a ≤ S100000x1553.size a
  hwx0_0 : ∀ i : grid0.Coords, EltTy.bits .f32 = 32 ∨ (Rect.block (s := S100000x1553) S1000x1553.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .f32 = 32 ∨ (Rect.block (s := S6x128) S6x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .f32 = 32 ∨ (Rect.block (s := S768x128) S768x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x128.size a ≤ S11x128.size a
  hwx0_5 : ∀ i : grid0.Coords, EltTy.bits .f32 = 32 ∨ (Rect.block (s := S11x128) S11x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x128.size a ≤ S768x128.size a
  hwx0_7 : ∀ i : grid0.Coords, EltTy.bits .f32 = 32 ∨ (Rect.block (s := S768x128) S768x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x128.size a ≤ S100000x128.size a
  hwx0_12 : ∀ i : grid0.Coords, EltTy.bits .f32 = 32 ∨ (Rect.block (s := S100000x128) S1000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128x128.size a ≤ S2x128x128.size a
  hwx1_2 : ∀ i : grid1.Coords, EltTy.bits .f32 = 32 ∨ (Rect.block (s := S2x128x128) S2x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x256.size a ≤ S100000x256.size a
  hwx1_4 : ∀ i : grid1.Coords, EltTy.bits .f32 = 32 ∨ (Rect.block (s := S100000x256) S4000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x2.size a ≤ S100000x2.size a
  hwx1_5 : ∀ i : grid1.Coords, EltTy.bits .f32 = 32 ∨ (Rect.block (s := S100000x2) S4000x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x128x128.size a ≤ S2x128x128.size a
  hwx2_2 : ∀ i : grid2.Coords, EltTy.bits .f32 = 32 ∨ (Rect.block (s := S2x128x128) S2x128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S100000x256.size a
  hwx2_4 : ∀ i : grid2.Coords, EltTy.bits .f32 = 32 ∨ (Rect.block (s := S100000x256) S4000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x2.size a ≤ S100000x2.size a
  hwx2_5 : ∀ i : grid2.Coords, EltTy.bits .f32 = 32 ∨ (Rect.block (s := S100000x2) S4000x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .f32 = 32 ∨ (Rect.block (s := S100000x128) S4000x128.size (cc2_transform_8 i) (hinb2_8 i)).WholeWords (EltTy.packing .f32)

variable [Facts₀]

def dot_S1000x6_S6x128_S1000x128_1_0_0_1_n_n : DotDims S1000x6 S6x128 S1000x128 where
  lhsContracting := [1]
  rhsContracting := [0]
  lhsNonContracting := [0]
  rhsNonContracting := [1]
  lhsBatch := []
  rhsBatch := []
  wf := dot_S1000x6_S6x128_S1000x128_1_0_0_1_n_n_wf
def dot_S1000x768_S768x128_S1000x128_1_0_0_1_n_n : DotDims S1000x768 S768x128 S1000x128 where
  lhsContracting := [1]
  rhsContracting := [0]
  lhsNonContracting := [0]
  rhsNonContracting := [1]
  lhsBatch := []
  rhsBatch := []
  wf := dot_S1000x768_S768x128_S1000x128_1_0_0_1_n_n_wf
def dot_S1000x11_S11x128_S1000x128_1_0_0_1_n_n : DotDims S1000x11 S11x128 S1000x128 where
  lhsContracting := [1]
  rhsContracting := [0]
  lhsNonContracting := [0]
  rhsNonContracting := [1]
  lhsBatch := []
  rhsBatch := []
  wf := dot_S1000x11_S11x128_S1000x128_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S1000x1553.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S11x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S768x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S2x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S4000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S4000x2.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg17) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg18) S2x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg19) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S4000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12) S4000x2.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x1553 : Shape := ⟨2, ![100000, 1553]⟩
abbrev S2x1600000 : Shape := ⟨2, ![2, 1600000]⟩
abbrev S1600000 : Shape := ⟨1, ![1600000]⟩
abbrev S768x128 : Shape := ⟨2, ![768, 128]⟩
abbrev S128 : Shape := ⟨1, ![128]⟩
abbrev S6x128 : Shape := ⟨2, ![6, 128]⟩
abbrev S11x128 : Shape := ⟨2, ![11, 128]⟩
abbrev S512x128 : Shape := ⟨2, ![512, 128]⟩
abbrev S128x128 : Shape := ⟨2, ![128, 128]⟩
abbrev S2x128x128 : Shape := ⟨3, ![2, 128, 128]⟩
abbrev S100000x6 : Shape := ⟨2, ![100000, 6]⟩
abbrev S100000x768 : Shape := ⟨2, ![100000, 768]⟩
abbrev S100000x11 : Shape := ⟨2, ![100000, 11]⟩
abbrev S100000x128 : Shape := ⟨2, ![100000, 128]⟩
abbrev S1x128 : Shape := ⟨2, ![1, 128]⟩
abbrev S_ : Shape := ⟨0, ![]⟩
abbrev S100000x512 : Shape := ⟨2, ![100000, 512]⟩
abbrev S1x1600000 : Shape := ⟨2, ![1, 1600000]⟩
abbrev S1x128x128 : Shape := ⟨3, ![1, 128, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 234
  | .vmem => 0
  | .smem => 0
  | _ => 0

abbrev hbmTy0_0 (i : Nat) : BufTy := match i % 128 with
  | 0 => ⟨S100000x1553, .f32⟩
  | 1 => ⟨S2x1600000, .i32⟩
  | 2 => ⟨S1600000, .i32⟩
  | 3 => ⟨S768x128, .f32⟩
  | 4 => ⟨S128, .f32⟩
  | 5 => ⟨S768x128, .f32⟩
  | 6 => ⟨S128, .f32⟩
  | 7 => ⟨S6x128, .f32⟩
  | 8 => ⟨S128, .f32⟩
  | 9 => ⟨S11x128, .f32⟩
  | 10 => ⟨S128, .f32⟩
  | 11 => ⟨S512x128, .f32⟩
  | 12 => ⟨S128, .f32⟩
  | 13 => ⟨S128, .f32⟩
  | 14 => ⟨S128x128, .f32⟩
  | 15 => ⟨S2x128x128, .f32⟩
  | 16 => ⟨S128, .f32⟩
  | 17 => ⟨S128x128, .f32⟩
  | 18 => ⟨S2x128x128, .f32⟩
  | 19 => ⟨S128, .f32⟩
  | 20 => ⟨S128x128, .f32⟩
  | 21 => ⟨S128, .f32⟩
  | 22 => ⟨S100000x6, .f32⟩
  | 23 => ⟨S100000x768, .f32⟩
  | 24 => ⟨S100000x11, .f32⟩
  | 25 => ⟨S100000x768, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .i1⟩
  | 33 => ⟨S_, .f32⟩
  | 34 => ⟨S100000x128, .f32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .i1⟩
  | 44 => ⟨S_, .f32⟩
  | 45 => ⟨S100000x128, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .i1⟩
  | 66 => ⟨S_, .f32⟩
  | 67 => ⟨S100000x128, .f32⟩
  | 68 => ⟨S100000x128, .f32⟩
  | 69 => ⟨S100000x128, .f32⟩
  | 70 => ⟨S100000x512, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .i1⟩
  | 78 => ⟨S1x128, .f32⟩
  | 79 => ⟨S100000x128, .f32⟩
  | 80 => ⟨S100000x128, .f32⟩
  | 81 => ⟨S100000x128, .f32⟩
  | 82 => ⟨S1x1600000, .i32⟩
  | 83 => ⟨S1600000, .i32⟩
  | 84 => ⟨S1x1600000, .i32⟩
  | 85 => ⟨S1600000, .i32⟩
  | 86 => ⟨S100000x128, .f32⟩
  | 87 => ⟨S1x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S1600000, .f32⟩
  | 94 => ⟨S1x128x128, .f32⟩
  | 95 => ⟨S128x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x1, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S_, .i32⟩
  | 125 => ⟨S1600000, .i32⟩
  | 126 => ⟨S1600000, .i1⟩
  | 127 => ⟨S1600000, .f32⟩
  | _ => ⟨S100000x1553, .f32⟩

abbrev hbmTy0_1 (i : Nat) : BufTy := match i % 128 with
  | 0 => ⟨S1x128x128, .f32⟩
  | 1 => ⟨S128x128, .f32⟩
  | 2 => ⟨S100000x128, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S1600000x1, .f32⟩
  | 13 => ⟨S1600000x128, .f32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S1600000, .f32⟩
  | 38 => ⟨S1x128x128, .f32⟩
  | 39 => ⟨S128x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S_, .i32⟩
  | 69 => ⟨S1600000, .i32⟩
  | 70 => ⟨S1600000, .i1⟩
  | 71 => ⟨S1600000, .f32⟩
  | 72 => ⟨S1x128x128, .f32⟩
  | 73 => ⟨S128x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x1, .f32⟩
  | 85 => ⟨S1600000x128, .f32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S_, .f32⟩
  | 92 => ⟨S100000, .f32⟩
  | 93 => ⟨S1600000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | _ => ⟨S100000x1553, .f32⟩

abbrev hbmTy (i : Nat) : BufTy := match i / 128 with
  | 0 => hbmTy0_0 i
  | 1 => hbmTy0_1 i
  | _ => ⟨S100000x1553, .f32⟩

abbrev bufTy : (tb : Table) → Fin (tcTables nBuf tb) → BufTy
  | .hbm, ⟨i, _⟩ => hbmTy i
  | _, _ => ⟨S100000x1553, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_8 : Ref sig .tc := ⟨.hbm, 97, rfl⟩
abbrev main_v65 : Ref sig .tc := ⟨.hbm, 98, rfl⟩
abbrev main_v66 : Ref sig .tc := ⟨.hbm, 99, rfl⟩
abbrev main_c_9 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_10 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_12 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_14 : Ref sig .tc := ⟨.hbm, 131, rfl⟩
abbrev main_v93 : Ref sig .tc := ⟨.hbm, 132, rfl⟩
abbrev main_v94 : Ref sig .tc := ⟨.hbm, 133, rfl⟩
abbrev main_c_15 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_16 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_18 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_19 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_c_20 : Ref sig .tc := ⟨.hbm, 169, rfl⟩
abbrev main_v125 : Ref sig .tc := ⟨.hbm, 170, rfl⟩
abbrev main_v126 : Ref sig .tc := ⟨.hbm, 171, rfl⟩
abbrev main_c_21 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_22 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_23 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_24 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_25 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_c_26 : Ref sig .tc := ⟨.hbm, 203, rfl⟩
abbrev main_v153 : Ref sig .tc := ⟨.hbm, 204, rfl⟩
abbrev main_v154 : Ref sig .tc := ⟨.hbm, 205, rfl⟩
abbrev main_c_27 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_28 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_29 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_cst_30 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩

abbrev nD : Nat := 1
abbrev τ : Topo := Topo.v7x

variable {F : FTy → Type} [FloatOps F]

class Facts₀ : Prop where
  slices_S100000x1553_S100000x6_0_0 : S100000x1553.Slices ![0, 0] S100000x6
  slices_S100000x1553_S100000x768_0_6 : S100000x1553.Slices ![0, 6] S100000x768
  slices_S100000x1553_S100000x11_0_774 : S100000x1553.Slices ![0, 774] S100000x11
  slices_S100000x1553_S100000x768_0_785 : S100000x1553.Slices ![0, 785] S100000x768
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  slices_S2x128x128_S1x128x128_0_0_0 : S2x128x128.Slices ![0, 0, 0] S1x128x128
  shapeCasts_S1x128x128_S128x128 : S1x128x128.ShapeCasts S128x128
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_1_0_0 : S2x128x128.Slices ![1, 0, 0] S1x128x128
  dot_S100000x768_S768x128_S100000x128_1_0_0_1_n_n_wf : DotDims.WF S100000x768 S768x128 S100000x128 [1] [0] [0] [1] [] []
  dot_S100000x6_S6x128_S100000x128_1_0_0_1_n_n_wf : DotDims.WF S100000x6 S6x128 S100000x128 [1] [0] [0] [1] [] []
  dot_S100000x11_S11x128_S100000x128_1_0_0_1_n_n_wf : DotDims.WF S100000x11 S11x128 S100000x128 [1] [0] [0] [1] [] []
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Spec.lean ====
/-
  The mathematics of the two programs, index by index, over the extended reals.

  A node feature row x(n, ·) of width 1553 is cut into four column ranges (6 | 768 | 11 | 768); each range is sent
  through an affine map and a leaky rectifier, the four 128-wide results are laid side by side in the order
  (last range, second, first, third), sent through one more affine map and a per-channel rectifier: the stem.
  A relational layer adds to an affine map of h, for each of two relations r, the mean over the edges into node n
  carrying relation r of the source rows, transformed by the relation's matrix. The reference transforms each
  source row first and masks the edges of the other relation; the kernel sums raw rows in the bucket 2·dst + r
  and transforms the mean. The classifier is a last affine map.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev Sh1 (C : Nat) : Shape := ⟨1, ![C]⟩
abbrev Sh2 (R C : Nat) : Shape := ⟨2, ![R, C]⟩
abbrev Sh3 (A B C : Nat) : Shape := ⟨3, ![A, B, C]⟩

/-- The three float words the programs carry: zero, the rectifier's slope, one. -/
def zeroF : EReal := Ideal.ofBits .f32 0x00000000#32
def slope : EReal := Ideal.ofBits .f32 0x3C23D70A#32
def oneF : EReal := Ideal.ofBits .f32 0x3F800000#32

/-- The bit "v ≥ 0" as the programs compute it. -/
def ge0 (v : EReal) : BitVec 1 := FloatOps.cmpf (F := Ideal) (φ := .f32) .oge v zeroF
/-- v where v ≥ 0, slope · v elsewhere. -/
def leaky (v : EReal) : EReal := Scalar.select (ge0 v) v (slope * v)
/-- v where v ≥ 0, a · v elsewhere. -/
def prelu (a v : EReal) : EReal := Scalar.select (ge0 v) v (a * v)

/-- A row times column j of W, plus b(j). -/
def aff {K : Nat} (row : Fin K → EReal) (W : (Sh2 K 128).Idx → EReal) (b : (Sh1 128).Idx → EReal) (j : Fin 128) : EReal :=
  (∑ k : Fin K, row k * W (ix2 k j)) + b (ix1 j)

/-- Columns off … off + K − 1 of row n of x. -/
def xcols (x : (Sh2 100000 1553).Idx → EReal) (n : Fin 100000) (off K : Nat) (h : off + K ≤ 1553) (i : Fin K) : EReal :=
  x (ix2 n ⟨off + i.val, by have := i.isLt; omega⟩)

/-- Entry k of the 512-wide row the four branches are laid into, in the order (des, tweet, num, cat). -/
def catRow (x : (Sh2 100000 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (n : Fin 100000) (k : Fin 512) : EReal :=
  if h0 : k.val < 128 then leaky (aff (xcols x n 785 768 (by omega)) Wd bd ⟨k.val, h0⟩)
  else if h1 : k.val < 256 then leaky (aff (xcols x n 6 768 (by omega)) Wt bt ⟨k.val - 128, by omega⟩)
  else if h2 : k.val < 384 then leaky (aff (xcols x n 0 6 (by omega)) Wn bn ⟨k.val - 256, by omega⟩)
  else leaky (aff (xcols x n 774 11 (by omega)) Wc bc ⟨k.val - 384, by have := k.isLt; omega⟩)

/-- The stem's output at (n, j). -/
def stem (x : (Sh2 100000 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (Win : (Sh2 512 128).Idx → EReal) (bin a : (Sh1 128).Idx → EReal) (n : Fin 100000) (j : Fin 128) : EReal :=
  prelu (a (ix1 j)) (aff (catRow x Wn bn Wt bt Wc bc Wd bd n) Win bin j)

/-- The stem as an array. -/
def stemA (x : (Sh2 100000 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (Win : (Sh2 512 128).Idx → EReal) (bin a : (Sh1 128).Idx → EReal) : (Sh2 100000 128).Idx → EReal :=
  fun i => stem x Wn bn Wt bt Wc bc Wd bd Win bin a ⟨(i 0).val, idx2_lt0 i⟩ ⟨(i 1).val, idx2_lt1 i⟩

/-- Row n of h as a function of the column. -/
def rowOf (h : (Sh2 100000 128).Idx → EReal) (n : Fin 100000) (k : Fin 128) : EReal := h (ix2 n k)

/-- The kernel's combine at (n, j): the affine map of row n of h, plus for each relation r the mean row
    agg(n, 128 r + ·) / max(cnt(n, r), 1) times the relation's matrix, relation 0 added first. -/
def combine (h : (Sh2 100000 128).Idx → EReal) (root : (Sh2 128 128).Idx → EReal) (rel : (Sh3 2 128 128).Idx → EReal)
    (bias : (Sh1 128).Idx → EReal) (agg : (Sh2 100000 256).Idx → EReal) (cnt : (Sh2 100000 2).Idx → EReal)
    (n : Fin 100000) (j : Fin 128) : EReal :=
  (aff (rowOf h n) root bias j
    + ∑ k : Fin 128, Ideal.div (agg (ix2 n ⟨k.val, by have := k.isLt; omega⟩)) (max (cnt (ix2 n (0 : Fin 2))) oneF)
        * rel (ix3 (0 : Fin 2) k j))
    + ∑ k : Fin 128, Ideal.div (agg (ix2 n ⟨128 + k.val, by have := k.isLt; omega⟩)) (max (cnt (ix2 n (1 : Fin 2))) oneF)
        * rel (ix3 (1 : Fin 2) k j)

/-- The combine as an array. -/
def combineA (h : (Sh2 100000 128).Idx → EReal) (root : (Sh2 128 128).Idx → EReal) (rel : (Sh3 2 128 128).Idx → EReal)
    (bias : (Sh1 128).Idx → EReal) (agg : (Sh2 100000 256).Idx → EReal) (cnt : (Sh2 100000 2).Idx → EReal) :
    (Sh2 100000 128).Idx → EReal :=
  fun i => combine h root rel bias agg cnt ⟨(i 0).val, idx2_lt0 i⟩ ⟨(i 1).val, idx2_lt1 i⟩

/-- The classifier at (n, j). -/
def cls (h : (Sh2 100000 128).Idx → EReal) (W : (Sh2 128 128).Idx → EReal) (b : (Sh1 128).Idx → EReal)
    (n : Fin 100000) (j : Fin 128) : EReal := aff (rowOf h n) W b j

/-- The classifier as an array. -/
def clsA (h : (Sh2 100000 128).Idx → EReal) (W : (Sh2 128 128).Idx → EReal) (b : (Sh1 128).Idx → EReal) :
    (Sh2 100000 128).Idx → EReal :=
  fun i => cls h W b ⟨(i 0).val, idx2_lt0 i⟩ ⟨(i 1).val, idx2_lt1 i⟩

/-! ## The edges -/

/-- The source row of edge e: its (normalised) start word read signed and clamped into the table's rows. -/
def srow (srcN : IVec (Sh2 1600000 1) 32) (e : Fin 1600000) : Fin 100000 :=
  ⟨min (srcN (ix2 e (0 : Fin 1))).toInt.toNat (100000 - 1), by omega⟩

/-- The kernel's bucket word of edge e: 2 · dst + relation, on 32-bit words. -/
def segw (dst et : IVec (Sh1 1600000) 32) (e : Fin 1600000) : BitVec 32 :=
  IntOp.addi (IntOp.muli (dst (ix1 e)) 2#32) (et (ix1 e))

/-- The reference's mask of relation r on edge e, as a float: 1 where the edge carries r, 0 elsewhere. -/
def maskF (et : IVec (Sh1 1600000) 32) (r : BitVec 32) (e : Fin 1600000) : EReal :=
  FloatOps.uitofp (F := Ideal) .f32 (IntOp.cmpi .eq (et (ix1 e)) r)

/-- The kernel's aggregate at (n, 128 r + k): the sum of the source rows' entry k over the edges whose bucket word,
    read signed, is 2 n + r. -/
def aggK (h : (Sh2 100000 128).Idx → EReal) (srcN : IVec (Sh2 1600000 1) 32) (dst et : IVec (Sh1 1600000) 32) :
    (Sh2 100000 256).Idx → EReal :=
  fun i => zeroF + ∑ e ∈ Finset.univ.filter (fun e : Fin 1600000 => (segw dst et e).toInt = ((2 * (i 0).val + (i 1).val / 128 : Nat) : Int)),
    h (ix2 (srow srcN e) ⟨(i 1).val % 128, Nat.mod_lt _ (by decide)⟩)

/-- The kernel's edge count at (n, r). -/
def cntK (dst et : IVec (Sh1 1600000) 32) : (Sh2 100000 2).Idx → EReal :=
  fun i => zeroF + ∑ _e ∈ Finset.univ.filter (fun e : Fin 1600000 => (segw dst et e).toInt = ((2 * (i 0).val + (i 1).val : Nat) : Int)), oneF

/-- The reference's term of relation r at (n, j): the masked sum over the edges into n of the transformed source
    rows, divided by max(masked edge count, 1). -/
def relTerm (h : (Sh2 100000 128).Idx → EReal) (W : Fin 128 → Fin 128 → EReal)
    (srcN : IVec (Sh2 1600000 1) 32) (dst et : IVec (Sh1 1600000) 32) (r : BitVec 32) (n : Fin 100000) (j : Fin 128) : EReal :=
  Ideal.div
    (zeroF + ∑ e ∈ Finset.univ.filter (fun e : Fin 1600000 => (dst (ix1 e)).toInt = (n.val : Int)),
      (∑ k : Fin 128, h (ix2 (srow srcN e) k) * W k j) * maskF et r e)
    (max (zeroF + ∑ e ∈ Finset.univ.filter (fun e : Fin 1600000 => (dst (ix1 e)).toInt = (n.val : Int)), maskF et r e) oneF)

/-- The reference's layer at (n, j). -/
def layerRef (h : (Sh2 100000 128).Idx → EReal) (root : (Sh2 128 128).Idx → EReal) (rel : (Sh3 2 128 128).Idx → EReal)
    (bias : (Sh1 128).Idx → EReal) (srcN : IVec (Sh2 1600000 1) 32) (dst et : IVec (Sh1 1600000) 32)
    (n : Fin 100000) (j : Fin 128) : EReal :=
  (aff (rowOf h n) root bias j
    + relTerm h (fun k j => rel (ix3 (0 : Fin 2) k j)) srcN dst et 0#32 n j)
    + relTerm h (fun k j => rel (ix3 (1 : Fin 2) k j)) srcN dst et 1#32 n j

/-- The reference's layer as an array. -/
def layerRefA (h : (Sh2 100000 128).Idx → EReal) (root : (Sh2 128 128).Idx → EReal) (rel : (Sh3 2 128 128).Idx → EReal)
    (bias : (Sh1 128).Idx → EReal) (srcN : IVec (Sh2 1600000 1) 32) (dst et : IVec (Sh1 1600000) 32) :
    (Sh2 100000 128).Idx → EReal :=
  fun i => layerRef h root rel bias srcN dst et ⟨(i 0).val, idx2_lt0 i⟩ ⟨(i 1).val, idx2_lt1 i⟩

/-- Every entry is a real number. -/
def Fin' {s : Shape} (v : s.Idx → EReal) : Prop := ∀ i, ∃ r : ℝ, v i = (r : EReal)

/-- The two ranges the statement's precondition adds: every destination a node, every relation 0 or 1. -/
def InRange (dst et : IVec (Sh1 1600000) 32) : Prop :=
  ∀ e : Fin 1600000, (0 ≤ (dst (ix1 e)).toInt ∧ (dst (ix1 e)).toInt < 100000) ∧ (0 ≤ (et (ix1 e)).toInt ∧ (et (ix1 e)).toInt < 2)

end Cert.Spec

end
-- ==== Proof.PreDecode.lean ====
/-
  Reading the precondition: the conjunction it prints is all ones exactly when every float input has every entry of
  absolute value below +∞ — a real number —, every destination word lies in [0, 100000) and every relation word in
  [0, 2), both read signed.
-/
import proofs.«426800_j14224931684700_3_alg».proof.Pre_finite_inputs
import proofs.«426800_j14224931684700_3_alg».proof.Proof.Gen.Pre_finite_inputs
import proofs.«426800_j14224931684700_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Cert.Pre_finite_inputs Idealize.ShloMosaic Idealize.ShloMosaic.ValueIdx

variable [Cert.Pre_finite_inputs.Facts]

/-- The scalar shape has one index. -/
instance subsingleton_scalar_idx : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (−x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Where the conjunction over all entries of (|a| < +∞) is one, every entry of a is a real number. -/
theorem fin_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi (cmpf .olt (Host.absf a) (broadcastInDim s ![] hb (constant S_ .f32 0x7F800000#32)))
        (constantI S_ 1 1#1) hr h0 ix0 = 1#1) : Cert.Spec.Fin' a := by
  intro i
  have e := Host.reduce_andi_all _ _ hr h0 ix0 h i
  have e' : Ideal.cmp .olt (max (a i) (-(a i))) (Ideal.ofBits .f32 0x7F800000#32) = 1#1 := e
  rw [inf_word] at e'
  simp only [Ideal.cmp, StableHlo.Predicate.ofBool_eq_one_iff, decide_eq_true_eq] at e'
  exact real_of_abs_lt_top _ e'

/-- Where the conjunction over all entries of (lo ≤ x ∧ x < hi), both read signed, is one, every entry lies in the range. -/
theorem range_of_all {n : Nat} {axes : List (Fin (⟨1, ![n]⟩ : Shape).rank)} (x : IVec ⟨1, ![n]⟩ 32) (lo hi : BitVec 32)
    (hb : S_.BroadcastsInDim ⟨1, ![n]⟩ (![] : Fin 0 → Fin 1)) (hr : (⟨1, ![n]⟩ : Shape).ReducesTo axes S_) (h0 : 0 < S_.numel)
    (h : Host.reduce IntOp.andi (andi (cmpi .sge x (broadcastInDim ⟨1, ![n]⟩ ![] hb (constantI S_ 32 lo)))
          (cmpi .slt x (broadcastInDim ⟨1, ![n]⟩ ![] hb (constantI S_ 32 hi))))
        (constantI S_ 1 1#1) hr h0 ix0 = 1#1) (i : (⟨1, ![n]⟩ : Shape).Idx) :
    lo.toInt ≤ (x i).toInt ∧ (x i).toInt < hi.toInt := by
  have e := Host.reduce_andi_all _ _ hr h0 ix0 h i
  have e' : IntOp.andi (IntOp.cmpi .sge (x i) lo) (IntOp.cmpi .slt (x i) hi) = 1#1 := e
  rw [IntOp.andi_eq_one, IntOp.cmpi_sge, IntOp.cmpi_slt] at e'
  exact e'

/-- The conjunction of two scalar bits, read at the one index. -/
theorem andi_at (x y : IVec S_ 1) : andi x y ix0 = IntOp.andi (x ix0) (y ix0) := rfl

/-- Where the printed precondition is all ones, every float argument is finite and the two integer ranges hold. -/
theorem decode (a0 : FVec Ideal S100000x1553 .f32) (a1 : IVec S2x1600000 32) (a2 : IVec S1600000 32) (a3 : FVec Ideal S768x128 .f32) (a4 : FVec Ideal S128 .f32) (a5 : FVec Ideal S768x128 .f32) (a6 : FVec Ideal S128 .f32) (a7 : FVec Ideal S6x128 .f32) (a8 : FVec Ideal S128 .f32) (a9 : FVec Ideal S11x128 .f32) (a10 : FVec Ideal S128 .f32) (a11 : FVec Ideal S512x128 .f32) (a12 : FVec Ideal S128 .f32) (a13 : FVec Ideal S128 .f32) (a14 : FVec Ideal S128x128 .f32) (a15 : FVec Ideal S2x128x128 .f32) (a16 : FVec Ideal S128 .f32) (a17 : FVec Ideal S128x128 .f32) (a18 : FVec Ideal S2x128x128 .f32) (a19 : FVec Ideal S128 .f32) (a20 : FVec Ideal S128x128 .f32) (a21 : FVec Ideal S128 .f32)
    (h : Cert.Pre_finite_inputs.fn (F := Ideal) a0 a1 a2 a3 a4 a5 a6 a7 a8 a9 a10 a11 a12 a13 a14 a15 a16 a17 a18 a19 a20 a21 = fun _ => 1#1) :
    (Cert.Spec.Fin' a0 ∧ Cert.Spec.Fin' a3 ∧ Cert.Spec.Fin' a4 ∧ Cert.Spec.Fin' a5 ∧ Cert.Spec.Fin' a6 ∧ Cert.Spec.Fin' a7 ∧ Cert.Spec.Fin' a8 ∧ Cert.Spec.Fin' a9 ∧ Cert.Spec.Fin' a10 ∧ Cert.Spec.Fin' a11 ∧ Cert.Spec.Fin' a12 ∧ Cert.Spec.Fin' a13 ∧ Cert.Spec.Fin' a14 ∧ Cert.Spec.Fin' a15 ∧ Cert.Spec.Fin' a16 ∧ Cert.Spec.Fin' a17 ∧ Cert.Spec.Fin' a18 ∧ Cert.Spec.Fin' a19 ∧ Cert.Spec.Fin' a20 ∧ Cert.Spec.Fin' a21)
    ∧ Cert.Spec.InRange (shapeCast (Cert.Spec.Sh1 1600000) (extractStridedSlice (Cert.Spec.Sh2 1 1600000) ![1, 0] a1 (by decide)) (by decide)) a2 := by
  have h0 := congrFun h ix0
  unfold fn at h0
  dsimp only at h0
  unfold fn_part1 at h0
  dsimp only at h0
  unfold fn_part2 at h0
  dsimp only at h0
  unfold fn_part3 at h0
  dsimp only at h0
  unfold fn_part4 at h0
  dsimp only at h0
  unfold fn_part5 at h0
  dsimp only at h0
  unfold fn_part6 at h0
  dsimp only at h0
  simp only [andi_at, IntOp.andi_eq_one] at h0
  obtain ⟨⟨⟨⟨⟨⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩, e19⟩, e20⟩, e21⟩, ed⟩, et⟩ := h0
  refine ⟨⟨fin_of_all a0 _ _ _ e0, fin_of_all a3 _ _ _ e3, fin_of_all a4 _ _ _ e4, fin_of_all a5 _ _ _ e5,
    fin_of_all a6 _ _ _ e6, fin_of_all a7 _ _ _ e7, fin_of_all a8 _ _ _ e8, fin_of_all a9 _ _ _ e9,
    fin_of_all a10 _ _ _ e10, fin_of_all a11 _ _ _ e11, fin_of_all a12 _ _ _ e12, fin_of_all a13 _ _ _ e13,
    fin_of_all a14 _ _ _ e14, fin_of_all a15 _ _ _ e15, fin_of_all a16 _ _ _ e16, fin_of_all a17 _ _ _ e17,
    fin_of_all a18 _ _ _ e18, fin_of_all a19 _ _ _ e19, fin_of_all a20 _ _ _ e20, fin_of_all a21 _ _ _ e21⟩, ?_⟩
  intro e
  have hd := range_of_all _ 0#32 100000#32 _ _ _ ed (ix1 e)
  have ht := range_of_all a2 0#32 2#32 _ _ _ et (ix1 e)
  rw [show (0#32 : BitVec 32).toInt = 0 from by decide, show (100000#32 : BitVec 32).toInt = 100000 from by decide] at hd
  rw [show (0#32 : BitVec 32).toInt = 0 from by decide, show (2#32 : BitVec 32).toInt = 2 from by decide] at ht
  exact ⟨hd, ht⟩

end Cert.PreDecode

end
-- ==== Proof.Law.lean ====
/-
  The layer law: on finite h and finite relation matrices, with every destination a node and every relation 0 or 1,
  the mean of raw source rows in the bucket 2·dst + r, transformed by the relation's matrix, is the masked mean
  over the edges into the node of the transformed source rows. The bucket word 2·dst + r does not wrap and
  determines (dst, r); the mask of relation r is 1 on the bucket's edges and 0 on the node's other edges; and a
  finite sum of reals distributes over the product with a matrix entry and with the reciprocal of the count.
-/
import proofs.«426800_j14224931684700_3_alg».proof.Proof.Spec

noncomputable section

namespace Cert.Spec

open Idealize.ShloMosaic Idealize.ShloMosaic.ValueIdx

namespace Law

/-! ## The two float words -/

/-- The zero word is the extended real zero. -/
theorem zeroF_eq : zeroF = 0 := by
  unfold zeroF
  simp [Ideal.ofBits, Ideal.ieee]

/-- The one word is the extended real one. -/
theorem oneF_eq : oneF = 1 := by
  unfold oneF
  rw [show (1 : EReal) = ((1 : ℝ) : EReal) by norm_cast]
  simp [Ideal.ofBits, Ideal.ieee, -EReal.coe_mul]; norm_num

/-! ## The bucket word -/

/-- With the destination a node and the relation 0 or 1, the word 2 · dst + relation does not wrap. -/
theorem segw_toInt (dst et : IVec (Sh1 1600000) 32) (hr : InRange dst et) (e : Fin 1600000) :
    (segw dst et e).toInt = 2 * (dst (ix1 e)).toInt + (et (ix1 e)).toInt := by
  obtain ⟨⟨hd0, hd1⟩, ⟨he0, he1⟩⟩ := hr e
  unfold segw IntOp.addi IntOp.muli
  rw [BitVec.toInt_add, BitVec.toInt_mul]
  have h2 : (2#32 : BitVec 32).toInt = 2 := by decide
  rw [h2, Int.bmod_def, Int.bmod_def]
  omega

/-- The edges into node n carrying the relation word r. -/
def bucket (dst et : IVec (Sh1 1600000) 32) (n : Fin 100000) (r : BitVec 32) : Finset (Fin 1600000) :=
  Finset.univ.filter (fun e : Fin 1600000 => (dst (ix1 e)).toInt = (n.val : Int) ∧ et (ix1 e) = r)

/-- The bucket word is 2 n + r exactly on the edges into n carrying r. -/
theorem seg_filter (dst et : IVec (Sh1 1600000) 32) (hr : InRange dst et) (n : Fin 100000) (m r : Nat) (w : BitVec 32)
    (hw : w.toInt = (r : Int)) (hr2 : r < 2) (hm : m = 2 * n.val + r) :
    Finset.univ.filter (fun e : Fin 1600000 => (segw dst et e).toInt = ((m : Nat) : Int)) = bucket dst et n w := by
  unfold bucket
  refine Finset.filter_congr fun e _ => ?_
  obtain ⟨⟨hd0, hd1⟩, ⟨he0, he1⟩⟩ := hr e
  rw [segw_toInt dst et hr e, ← BitVec.toInt_inj, hw]
  subst hm
  push_cast
  omega

/-! ## The mask -/

/-- The mask of relation r is 1 on the edges carrying r and 0 on the others. -/
theorem maskF_eq (et : IVec (Sh1 1600000) 32) (r : BitVec 32) (e : Fin 1600000) :
    maskF et r e = if et (ix1 e) = r then 1 else 0 := by
  unfold maskF
  show (((IntOp.cmpi .eq (et (ix1 e)) r).toNat : ℝ) : EReal) = _
  unfold IntOp.cmpi
  by_cases hc : et (ix1 e) = r
  · simp [hc]
  · simp [hc]

/-- A masked sum over the edges into n is the sum over the edges into n carrying r. -/
theorem sum_mask (dst et : IVec (Sh1 1600000) 32) (n : Fin 100000) (r : BitVec 32) (X : Fin 1600000 → EReal) :
    ∑ e ∈ Finset.univ.filter (fun e : Fin 1600000 => (dst (ix1 e)).toInt = (n.val : Int)), X e * maskF et r e
      = ∑ e ∈ bucket dst et n r, X e := by
  unfold bucket
  rw [← Finset.filter_filter, Finset.sum_filter (p := fun e : Fin 1600000 => et (ix1 e) = r)]
  refine Finset.sum_congr rfl fun e _ => ?_
  rw [maskF_eq]
  by_cases hc : et (ix1 e) = r
  · rw [if_pos hc, if_pos hc, mul_one]
  · rw [if_neg hc, if_neg hc, mul_zero]

/-! ## Finite sums of reals -/

/-- The coercion of a finite sum of reals is the sum of the coercions. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a s ha ih => rw [Finset.sum_insert ha, Finset.sum_insert ha, ih, EReal.coe_add]

/-- The count of a finite set, raised to at least one, is a real that is not zero. -/
theorem count_eq {ι : Type} (S : Finset ι) :
    max ((0 : EReal) + ∑ _e ∈ S, (1 : EReal)) 1 = ((max (∑ _e ∈ S, (1 : ℝ)) 1 : ℝ) : EReal) := by
  rw [zero_add, ← EReal.coe_one, coe_sum]
  exact (EReal.coe_strictMono.monotone.map_max).symm

/-- The mean of raw rows times a matrix column is the mean of the transformed rows. -/
theorem mean_law {ι : Type} (S : Finset ι) (F : ι → Fin 128 → ℝ) (W : Fin 128 → ℝ) :
    ∑ k : Fin 128, Ideal.div ((0 : EReal) + ∑ e ∈ S, (F e k : EReal)) (max ((0 : EReal) + ∑ _e ∈ S, (1 : EReal)) 1) * (W k : EReal)
      = Ideal.div ((0 : EReal) + ∑ e ∈ S, ∑ k : Fin 128, (F e k : EReal) * (W k : EReal))
          (max ((0 : EReal) + ∑ _e ∈ S, (1 : EReal)) 1) := by
  have hc : (max (∑ _e ∈ S, (1 : ℝ)) 1 : ℝ) ≠ 0 := ne_of_gt (lt_of_lt_of_le one_pos (le_max_right _ _))
  rw [count_eq]
  have hL : ∀ k : Fin 128, Ideal.div ((0 : EReal) + ∑ e ∈ S, (F e k : EReal)) ((max (∑ _e ∈ S, (1 : ℝ)) 1 : ℝ) : EReal) * (W k : EReal)
      = (((∑ e ∈ S, F e k) * (1 / max (∑ _e ∈ S, (1 : ℝ)) 1) * W k : ℝ) : EReal) := by
    intro k
    rw [Ideal.div_coe hc, zero_add, coe_sum, ← EReal.coe_mul, ← EReal.coe_mul]
  rw [Finset.sum_congr rfl fun k _ => hL k, coe_sum, Ideal.div_coe hc, zero_add]
  have hR : ∀ e, ∑ k : Fin 128, (F e k : EReal) * (W k : EReal) = ((∑ k : Fin 128, F e k * W k : ℝ) : EReal) := by
    intro e
    rw [← coe_sum]
    exact Finset.sum_congr rfl fun k _ => (EReal.coe_mul _ _).symm
  rw [Finset.sum_congr rfl fun e _ => hR e, coe_sum, ← EReal.coe_mul]
  congr 1
  generalize (1 / max (∑ _e ∈ S, (1 : ℝ)) 1) = c
  calc ∑ k : Fin 128, (∑ e ∈ S, F e k) * c * W k
      = ∑ k : Fin 128, ∑ e ∈ S, F e k * W k * c :=
        Finset.sum_congr rfl fun k _ => by
          rw [Finset.sum_mul, Finset.sum_mul]
          exact Finset.sum_congr rfl fun e _ => by ring
    _ = ∑ e ∈ S, ∑ k : Fin 128, F e k * W k * c := Finset.sum_comm
    _ = (∑ e ∈ S, ∑ k : Fin 128, F e k * W k) * c := by
        rw [Finset.sum_mul]
        exact Finset.sum_congr rfl fun e _ => (Finset.sum_mul _ _ _).symm

/-! ## The kernel's aggregates read at an index -/

/-- The aggregate at (n, 128 r + k) is the sum of entry k of the source rows over the edges into n carrying r. -/
theorem aggK_apply (h : (Sh2 100000 128).Idx → EReal) (srcN : IVec (Sh2 1600000 1) 32) (dst et : IVec (Sh1 1600000) 32)
    (hr : InRange dst et) (n : Fin 100000) (r : Nat) (w : BitVec 32) (hw : w.toInt = (r : Int)) (hr2 : r < 2)
    (c : Fin 256) (k : Fin 128) (hc : c.val = 128 * r + k.val) :
    aggK h srcN dst et (ix2 n c) = (0 : EReal) + ∑ e ∈ bucket dst et n w, h (ix2 (srow srcN e) k) := by
  have hk := k.isLt
  show zeroF + ∑ e ∈ Finset.univ.filter (fun e : Fin 1600000 => (segw dst et e).toInt = ((2 * n.val + c.val / 128 : Nat) : Int)),
      h (ix2 (srow srcN e) ⟨c.val % 128, Nat.mod_lt _ (by decide)⟩) = _
  rw [seg_filter dst et hr n _ r w hw hr2 (by omega), zeroF_eq]
  have hk' : (⟨c.val % 128, Nat.mod_lt _ (by decide)⟩ : Fin 128) = k := Fin.ext (by show c.val % 128 = k.val; omega)
  rw [hk']

/-- The count at (n, r) is the number of edges into n carrying r. -/
theorem cntK_apply (dst et : IVec (Sh1 1600000) 32) (hr : InRange dst et) (n : Fin 100000) (r : Fin 2) (w : BitVec 32)
    (hw : w.toInt = (r.val : Int)) :
    cntK dst et (ix2 n r) = (0 : EReal) + ∑ _e ∈ bucket dst et n w, (1 : EReal) := by
  show zeroF + ∑ _e ∈ Finset.univ.filter (fun e : Fin 1600000 => (segw dst et e).toInt = ((2 * n.val + r.val : Nat) : Int)), oneF = _
  rw [seg_filter dst et hr n _ r.val w hw r.isLt rfl, zeroF_eq, oneF_eq]

/-- The reference's term of relation r, over the edges into n carrying r. -/
theorem relTerm_eq (h : (Sh2 100000 128).Idx → EReal) (W : Fin 128 → Fin 128 → EReal)
    (srcN : IVec (Sh2 1600000 1) 32) (dst et : IVec (Sh1 1600000) 32) (w : BitVec 32) (n : Fin 100000) (j : Fin 128) :
    relTerm h W srcN dst et w n j
      = Ideal.div ((0 : EReal) + ∑ e ∈ bucket dst et n w, ∑ k : Fin 128, h (ix2 (srow srcN e) k) * W k j)
          (max ((0 : EReal) + ∑ _e ∈ bucket dst et n w, (1 : EReal)) 1) := by
  unfold relTerm
  rw [sum_mask dst et n w (fun e => ∑ k : Fin 128, h (ix2 (srow srcN e) k) * W k j)]
  have h1 : ∑ e ∈ Finset.univ.filter (fun e : Fin 1600000 => (dst (ix1 e)).toInt = (n.val : Int)), maskF et w e
      = ∑ _e ∈ bucket dst et n w, (1 : EReal) := by
    rw [← sum_mask dst et n w (fun _ => (1 : EReal))]
    exact Finset.sum_congr rfl fun e _ => (one_mul _).symm
  rw [h1, zeroF_eq, oneF_eq]

/-- One relation's term of the kernel's combine is the reference's. -/
theorem term_eq (h : (Sh2 100000 128).Idx → EReal) (rel : (Sh3 2 128 128).Idx → EReal)
    (srcN : IVec (Sh2 1600000 1) 32) (dst et : IVec (Sh1 1600000) 32)
    (hh : Fin' h) (hrel : Fin' rel) (hr : InRange dst et) (n : Fin 100000) (j : Fin 128)
    (r : Fin 2) (w : BitVec 32) (hw : w.toInt = (r.val : Int))
    (col : Fin 128 → Fin 256) (hcol : ∀ k : Fin 128, (col k).val = 128 * r.val + k.val) :
    ∑ k : Fin 128, Ideal.div (aggK h srcN dst et (ix2 n (col k))) (max (cntK dst et (ix2 n r)) oneF) * rel (ix3 r k j)
      = relTerm h (fun k j => rel (ix3 r k j)) srcN dst et w n j := by
  choose H hH using hh
  choose R hR using hrel
  obtain rfl : h = fun i => ((H i : ℝ) : EReal) := funext hH
  obtain rfl : rel = fun i => ((R i : ℝ) : EReal) := funext hR
  rw [relTerm_eq, cntK_apply dst et hr n r w hw, oneF_eq]
  have hl : ∀ k : Fin 128, aggK (fun i => ((H i : ℝ) : EReal)) srcN dst et (ix2 n (col k))
      = (0 : EReal) + ∑ e ∈ bucket dst et n w, ((H (ix2 (srow srcN e) k) : ℝ) : EReal) := fun k =>
    aggK_apply _ srcN dst et hr n r.val w hw r.isLt (col k) k (hcol k)
  rw [Finset.sum_congr rfl fun k _ => by rw [hl k]]
  exact mean_law (bucket dst et n w) (fun e k => H (ix2 (srow srcN e) k)) (fun k => R (ix3 r k j))

end Law

/-- The kernel's combine over its own aggregates is the reference's layer. -/
theorem combine_eq_layerRef (h : (Sh2 100000 128).Idx → EReal) (root : (Sh2 128 128).Idx → EReal)
    (rel : (Sh3 2 128 128).Idx → EReal) (bias : (Sh1 128).Idx → EReal)
    (srcN : IVec (Sh2 1600000 1) 32) (dst et : IVec (Sh1 1600000) 32)
    (hh : Fin' h) (hrel : Fin' rel) (hr : InRange dst et) (n : Fin 100000) (j : Fin 128) :
    combine h root rel bias (aggK h srcN dst et) (cntK dst et) n j = layerRef h root rel bias srcN dst et n j := by
  unfold combine layerRef
  have h0 := Law.term_eq h rel srcN dst et hh hrel hr n j (0 : Fin 2) 0#32 (by decide)
    (fun k => ⟨k.val, by have := k.isLt; omega⟩) (fun k => by simp)
  have h1 := Law.term_eq h rel srcN dst et hh hrel hr n j (1 : Fin 2) 1#32 (by decide)
    (fun k => ⟨128 + k.val, by have := k.isLt; omega⟩) (fun k => by simp)
  exact congrArg₂ (· + ·) (congrArg (aff (rowOf h n) root bias j + ·) h0) h1

/-- The same as arrays. -/
theorem combineA_eq_layerRefA (h : (Sh2 100000 128).Idx → EReal) (root : (Sh2 128 128).Idx → EReal)
    (rel : (Sh3 2 128 128).Idx → EReal) (bias : (Sh1 128).Idx → EReal)
    (srcN : IVec (Sh2 1600000 1) 32) (dst et : IVec (Sh1 1600000) 32)
    (hh : Fin' h) (hrel : Fin' rel) (hr : InRange dst et) :
    combineA h root rel bias (aggK h srcN dst et) (cntK dst et) = layerRefA h root rel bias srcN dst et :=
  funext fun _ => combine_eq_layerRef h root rel bias srcN dst et hh hrel hr _ _

end Cert.Spec

end
-- ==== Proof.Finite.lean ====
/-
  Finiteness travels through the network: a finite sum of products of reals is a real, a rectifier picks one of two
  reals, and a quotient by max(count, 1) — a real that is at least 1 — is a real.
-/
import proofs.«426800_j14224931684700_3_alg».proof.Proof.Spec

noncomputable section

namespace Cert.Spec

open Idealize.ShloMosaic Idealize.ShloMosaic.ValueIdx

/-! ## Closure of the reals inside the extended reals -/

/-- The extended real v is (the coercion of) a real. -/
def IsR (v : EReal) : Prop := ∃ r : ℝ, v = (r : EReal)

theorem IsR.coe (r : ℝ) : IsR (r : EReal) := ⟨r, rfl⟩

/-- A sum of two reals is a real. -/
theorem IsR.add {a b : EReal} (ha : IsR a) (hb : IsR b) : IsR (a + b) := by
  obtain ⟨r, rfl⟩ := ha
  obtain ⟨s, rfl⟩ := hb
  exact ⟨r + s, (EReal.coe_add r s).symm⟩

/-- A product of two reals is a real. -/
theorem IsR.mul {a b : EReal} (ha : IsR a) (hb : IsR b) : IsR (a * b) := by
  obtain ⟨r, rfl⟩ := ha
  obtain ⟨s, rfl⟩ := hb
  exact ⟨r * s, (EReal.coe_mul r s).symm⟩

/-- A finite sum of reals is a real, by induction on the index set. -/
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The larger of two reals is a real. -/
theorem IsR.max {a b : EReal} (ha : IsR a) (hb : IsR b) : IsR (max a b) := by
  rcases le_total a b with h | h
  · rwa [max_eq_right h]
  · rwa [max_eq_left h]

/-- A selection between two reals is one of them. -/
theorem IsR.select (c : BitVec 1) {a b : EReal} (ha : IsR a) (hb : IsR b) : IsR (Scalar.select c a b) := by
  unfold Scalar.select
  split_ifs
  · exact ha
  · exact hb

/-! ## The three float words -/

theorem zeroF_eq : zeroF = 0 := by
  unfold zeroF
  simp [Ideal.ofBits, Ideal.ieee]

theorem zeroF_isR : IsR zeroF := ⟨0, by rw [zeroF_eq]; rfl⟩

/-- The slope's pattern has a biased exponent that is neither all zeros nor all ones: it denotes a real. -/
theorem slope_isR : IsR slope := by
  unfold slope
  simp [Ideal.ofBits, Ideal.ieee, -EReal.coe_mul]
  exact ⟨_, rfl⟩

theorem oneF_eq : oneF = ((1 : ℝ) : EReal) := by
  unfold oneF
  simp [Ideal.ofBits, Ideal.ieee, -EReal.coe_mul]
  norm_num

theorem oneF_isR : IsR oneF := ⟨1, oneF_eq⟩

/-! ## The stem -/

/-- The leaky rectifier of a real is that real or the slope times it. -/
theorem leaky_isR {v : EReal} (hv : IsR v) : IsR (leaky v) := by
  unfold leaky
  exact IsR.select _ hv (slope_isR.mul hv)

/-- The per-channel rectifier of a real, with a real slope, is that real or the slope times it. -/
theorem prelu_isR {a v : EReal} (ha : IsR a) (hv : IsR v) : IsR (prelu a v) := by
  unfold prelu
  exact IsR.select _ hv (ha.mul hv)

/-- An affine map with real coefficients sends a real row to reals. -/
theorem aff_isR {K : Nat} (row : Fin K → EReal) (W : (Sh2 K 128).Idx → EReal) (b : (Sh1 128).Idx → EReal)
    (hrow : ∀ k, IsR (row k)) (hW : Fin' W) (hb : Fin' b) (j : Fin 128) : IsR (aff row W b j) := by
  unfold aff
  exact (IsR.sum _ _ fun k _ => (hrow k).mul (hW _)).add (hb _)

/-- A column range of a real table is real. -/
theorem xcols_isR (x : (Sh2 100000 1553).Idx → EReal) (hx : Fin' x) (n : Fin 100000) (off K : Nat)
    (h : off + K ≤ 1553) (i : Fin K) : IsR (xcols x n off K h i) := by
  unfold xcols
  exact hx _

/-- Every entry of the 512-wide row is a leaky rectifier of an affine map of a column range. -/
theorem catRow_isR (x : (Sh2 100000 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (hx : Fin' x) (hWn : Fin' Wn) (hbn : Fin' bn) (hWt : Fin' Wt) (hbt : Fin' bt) (hWc : Fin' Wc) (hbc : Fin' bc)
    (hWd : Fin' Wd) (hbd : Fin' bd) (n : Fin 100000) (k : Fin 512) :
    IsR (catRow x Wn bn Wt bt Wc bc Wd bd n k) := by
  unfold catRow
  split_ifs
  · exact leaky_isR (aff_isR _ _ _ (xcols_isR x hx n _ _ _) hWd hbd _)
  · exact leaky_isR (aff_isR _ _ _ (xcols_isR x hx n _ _ _) hWt hbt _)
  · exact leaky_isR (aff_isR _ _ _ (xcols_isR x hx n _ _ _) hWn hbn _)
  · exact leaky_isR (aff_isR _ _ _ (xcols_isR x hx n _ _ _) hWc hbc _)

/-- The stem of finite inputs is finite. -/
theorem stemA_fin (x : (Sh2 100000 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (Win : (Sh2 512 128).Idx → EReal) (bin a : (Sh1 128).Idx → EReal)
    (hx : Fin' x) (hWn : Fin' Wn) (hbn : Fin' bn) (hWt : Fin' Wt) (hbt : Fin' bt) (hWc : Fin' Wc) (hbc : Fin' bc)
    (hWd : Fin' Wd) (hbd : Fin' bd) (hWin : Fin' Win) (hbin : Fin' bin) (ha : Fin' a) :
    Fin' (stemA x Wn bn Wt bt Wc bc Wd bd Win bin a) := by
  intro i
  show IsR (stem x Wn bn Wt bt Wc bc Wd bd Win bin a _ _)
  unfold stem
  exact prelu_isR (ha _)
    (aff_isR _ _ _ (catRow_isR x Wn bn Wt bt Wc bc Wd bd hx hWn hbn hWt hbt hWc hbc hWd hbd _) hWin hbin _)

/-! ## The reference's layer -/

/-- The mask is a one-bit word read unsigned: the real 0 or 1. -/
theorem maskF_isR (et : IVec (Sh1 1600000) 32) (r : BitVec 32) (e : Fin 1600000) : IsR (maskF et r e) :=
  ⟨_, rfl⟩

/-- The quotient of a real by max(c, 1), c a real: max(c, 1) is a real at least 1, so the quotient is the product
    with the reciprocal. -/
theorem div_max_one_isR {u c : EReal} (hu : IsR u) (hc : IsR c) : IsR (Ideal.div u (max c oneF)) := by
  obtain ⟨d, rfl⟩ := hc
  rw [oneF_eq, ← EReal.coe_strictMono.monotone.map_max,
    Ideal.div_coe (ne_of_gt (lt_of_lt_of_le one_pos (le_max_right d 1)))]
  exact hu.mul ⟨_, rfl⟩

/-- One relation's term: a real numerator over max(real count, 1). -/
theorem relTerm_isR (h : (Sh2 100000 128).Idx → EReal) (W : Fin 128 → Fin 128 → EReal)
    (srcN : IVec (Sh2 1600000 1) 32) (dst et : IVec (Sh1 1600000) 32) (r : BitVec 32) (n : Fin 100000) (j : Fin 128)
    (hh : Fin' h) (hW : ∀ k j, IsR (W k j)) : IsR (relTerm h W srcN dst et r n j) := by
  unfold relTerm
  refine div_max_one_isR (zeroF_isR.add (IsR.sum _ _ fun e _ => ?_)) (zeroF_isR.add (IsR.sum _ _ fun e _ => maskF_isR et r e))
  exact (IsR.sum _ _ fun k _ => IsR.mul (hh _) (hW k j)).mul (maskF_isR et r e)

/-- The reference's layer of finite h, root, relation matrices and bias is finite, whatever the edges. -/
theorem layerRefA_fin (h : (Sh2 100000 128).Idx → EReal) (root : (Sh2 128 128).Idx → EReal)
    (rel : (Sh3 2 128 128).Idx → EReal) (bias : (Sh1 128).Idx → EReal)
    (srcN : IVec (Sh2 1600000 1) 32) (dst et : IVec (Sh1 1600000) 32)
    (hh : Fin' h) (hroot : Fin' root) (hrel : Fin' rel) (hbias : Fin' bias) :
    Fin' (layerRefA h root rel bias srcN dst et) := by
  intro i
  show IsR (layerRef h root rel bias srcN dst et _ _)
  unfold layerRef
  exact ((aff_isR _ _ _ (fun k => hh _) hroot hbias _).add
    (relTerm_isR h _ srcN dst et _ _ _ hh fun k j => hrel _)).add
    (relTerm_isR h _ srcN dst et _ _ _ hh fun k j => hrel _)

end Cert.Spec

end
-- ==== Proof.Bridge.lean ====
/-
  The two compositions are one function: the stem is finite, so the kernel's first combine over its own aggregates
  is the reference's first layer; that layer is finite, so the second combine is the second layer; the classifier
  is applied to equal arrays.
-/
import proofs.«426800_j14224931684700_3_alg».proof.Proof.Spec
import proofs.«426800_j14224931684700_3_alg».proof.Proof.Law
import proofs.«426800_j14224931684700_3_alg».proof.Proof.Finite

noncomputable section

namespace Cert.Spec

open Idealize.ShloMosaic Idealize.ShloMosaic.ValueIdx

/-- Stem, two layers, classifier: the kernel's form equals the reference's form on finite arrays and in-range edges. -/
theorem network_eq (x : (Sh2 100000 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (Win : (Sh2 512 128).Idx → EReal) (bin a : (Sh1 128).Idx → EReal)
    (root1 : (Sh2 128 128).Idx → EReal) (rel1 : (Sh3 2 128 128).Idx → EReal) (bias1 : (Sh1 128).Idx → EReal)
    (root2 : (Sh2 128 128).Idx → EReal) (rel2 : (Sh3 2 128 128).Idx → EReal) (bias2 : (Sh1 128).Idx → EReal)
    (Wcls : (Sh2 128 128).Idx → EReal) (bcls : (Sh1 128).Idx → EReal)
    (srcN : IVec (Sh2 1600000 1) 32) (dst et : IVec (Sh1 1600000) 32)
    (hx : Fin' x) (hWn : Fin' Wn) (hbn : Fin' bn) (hWt : Fin' Wt) (hbt : Fin' bt) (hWc : Fin' Wc) (hbc : Fin' bc)
    (hWd : Fin' Wd) (hbd : Fin' bd) (hWin : Fin' Win) (hbin : Fin' bin) (ha : Fin' a)
    (hroot1 : Fin' root1) (hrel1 : Fin' rel1) (hbias1 : Fin' bias1) (hrel2 : Fin' rel2) (hr : InRange dst et) :
    clsA (combineA
        (combineA (stemA x Wn bn Wt bt Wc bc Wd bd Win bin a) root1 rel1 bias1
          (aggK (stemA x Wn bn Wt bt Wc bc Wd bd Win bin a) srcN dst et) (cntK dst et))
        root2 rel2 bias2
        (aggK (combineA (stemA x Wn bn Wt bt Wc bc Wd bd Win bin a) root1 rel1 bias1
          (aggK (stemA x Wn bn Wt bt Wc bc Wd bd Win bin a) srcN dst et) (cntK dst et)) srcN dst et) (cntK dst et))
      Wcls bcls
    = clsA (layerRefA (layerRefA (stemA x Wn bn Wt bt Wc bc Wd bd Win bin a) root1 rel1 bias1 srcN dst et)
        root2 rel2 bias2 srcN dst et) Wcls bcls := by
  have h0 : Fin' (stemA x Wn bn Wt bt Wc bc Wd bd Win bin a) :=
    stemA_fin x Wn bn Wt bt Wc bc Wd bd Win bin a hx hWn hbn hWt hbt hWc hbc hWd hbd hWin hbin ha
  rw [combineA_eq_layerRefA _ root1 rel1 bias1 srcN dst et h0 hrel1 hr]
  have h1 : Fin' (layerRefA (stemA x Wn bn Wt bt Wc bc Wd bd Win bin a) root1 rel1 bias1 srcN dst et) :=
    layerRefA_fin _ root1 rel1 bias1 srcN dst et h0 hroot1 hrel1 hbias1
  rw [combineA_eq_layerRefA _ root2 rel2 bias2 srcN dst et h1 hrel2 hr]

end Cert.Spec

end
-- ==== Proof.RefStem.lean ====
/-
  The reference's stem, read index by index: four column slices of x, each through a matrix product, a bias row and
  a leaky rectifier, joined along the columns in the order (des, tweet, num, cat), one more matrix product and bias,
  and the per-channel rectifier.
-/
import proofs.«426800_j14224931684700_3_alg».proof.Proof.Gen.ReferenceIdeal.Read
import proofs.«426800_j14224931684700_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefStem

open Cert.ReferenceIdeal Cert.ReferenceIdeal.Gen Cert.ReferenceIdeal.Read Idealize.ShloMosaic Idealize.ShloMosaic.TcCoe Idealize.ShloMosaic.ValueIdx Idealize.SL.Sem

/-! ## Indices from their coordinates -/

/-- A rank-2 index with coordinates a and b is the pair (a, b). -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index with coordinate a is (a). -/
theorem idx1_eq {n : Nat} (f : (⟨1, ![n]⟩ : Shape).Idx) (a : Fin n) (h0 : (f 0).val = a.val) : f = ix1 a :=
  funext fun d => Fin.ext (by match d with | ⟨0, _⟩ => exact h0)

/-! ## The two rectifiers as the program spells them -/

/-- Compare d + b with zero, multiply it by the slope word, select: the leaky rectifier of d + b. -/
theorem leaky_read (d b : EReal) :
    Scalar.select
      (FloatOps.cmpf (F := Ideal) (φ := .f32) .oge (FloatOps.addf (F := Ideal) (φ := .f32) d b) (FloatOps.ofBits (F := Ideal) .f32 0x00000000#32))
      (FloatOps.addf (F := Ideal) (φ := .f32) d b)
      (FloatOps.mulf (F := Ideal) (φ := .f32) (FloatOps.ofBits (F := Ideal) .f32 0x3C23D70A#32) (FloatOps.addf (F := Ideal) (φ := .f32) d b))
    = Cert.Spec.leaky (d + b) := rfl

/-- Compare d + b with zero, multiply it by the channel's factor a, select: the per-channel rectifier of d + b. -/
theorem prelu_read (a d b : EReal) :
    Scalar.select
      (FloatOps.cmpf (F := Ideal) (φ := .f32) .oge (FloatOps.addf (F := Ideal) (φ := .f32) d b) (FloatOps.ofBits (F := Ideal) .f32 0x00000000#32))
      (FloatOps.addf (F := Ideal) (φ := .f32) d b)
      (FloatOps.mulf (F := Ideal) (φ := .f32) a (FloatOps.addf (F := Ideal) (φ := .f32) d b))
    = Cert.Spec.prelu a (d + b) := rfl

/-! ## Four pieces of width 128 side by side -/

/-- Column k of four 128-wide arrays laid side by side is column k, k − 128, k − 256 or k − 384 of the piece that
    holds it. -/
theorem cat4_at {α : Type} (y0 y1 y2 y3 : S100000x128.Idx → α)
    (h : Shape.Concatenates [S100000x128, S100000x128, S100000x128, S100000x128] S100000x512 1)
    (n : Fin 100000) (k : Fin 512) :
    concatenate S100000x512 1 [⟨S100000x128, y0⟩, ⟨S100000x128, y1⟩, ⟨S100000x128, y2⟩, ⟨S100000x128, y3⟩] h (ix2 n k) =
      if h0 : k.val < 128 then y0 (ix2 n ⟨k.val, h0⟩)
      else if h1 : k.val < 256 then y1 (ix2 n ⟨k.val - 128, by omega⟩)
      else if h2 : k.val < 384 then y2 (ix2 n ⟨k.val - 256, by omega⟩)
      else y3 (ix2 n ⟨k.val - 384, by have := k.isLt; omega⟩) := by
  have hk := k.isLt
  by_cases h0 : k.val < 128
  · rw [dif_pos h0]
    exact concatenate_apply_piece 1 [⟨S100000x128, y0⟩, ⟨S100000x128, y1⟩, ⟨S100000x128, y2⟩, ⟨S100000x128, y3⟩] h (ix2 n k) 0 (by show 0 < 4; omega) S100000x128 y0 rfl rfl 0 rfl (ix2 n ⟨k.val, h0⟩)
      (fun b hb => by match b with | ⟨0, _⟩ => rfl | ⟨1, _⟩ => exact absurd rfl hb)
      (by show 0 + k.val = k.val; omega)
  · rw [dif_neg h0]
    by_cases h1 : k.val < 256
    · rw [dif_pos h1]
      exact concatenate_apply_piece 1 [⟨S100000x128, y0⟩, ⟨S100000x128, y1⟩, ⟨S100000x128, y2⟩, ⟨S100000x128, y3⟩] h (ix2 n k) 1 (by show 1 < 4; omega) S100000x128 y1 rfl rfl 128 rfl (ix2 n ⟨k.val - 128, by omega⟩)
        (fun b hb => by match b with | ⟨0, _⟩ => rfl | ⟨1, _⟩ => exact absurd rfl hb)
        (by show 128 + (k.val - 128) = k.val; omega)
    · rw [dif_neg h1]
      by_cases h2 : k.val < 384
      · rw [dif_pos h2]
        exact concatenate_apply_piece 1 [⟨S100000x128, y0⟩, ⟨S100000x128, y1⟩, ⟨S100000x128, y2⟩, ⟨S100000x128, y3⟩] h (ix2 n k) 2 (by show 2 < 4; omega) S100000x128 y2 rfl rfl 256 rfl (ix2 n ⟨k.val - 256, by omega⟩)
          (fun b hb => by match b with | ⟨0, _⟩ => rfl | ⟨1, _⟩ => exact absurd rfl hb)
          (by show 256 + (k.val - 256) = k.val; omega)
      · rw [dif_neg h2]
        exact concatenate_apply_piece 1 [⟨S100000x128, y0⟩, ⟨S100000x128, y1⟩, ⟨S100000x128, y2⟩, ⟨S100000x128, y3⟩] h (ix2 n k) 3 (by show 3 < 4; omega) S100000x128 y3 rfl rfl 384 rfl (ix2 n ⟨k.val - 384, by omega⟩)
          (fun b hb => by match b with | ⟨0, _⟩ => rfl | ⟨1, _⟩ => exact absurd rfl hb)
          (by show 384 + (k.val - 384) = k.val; omega)

/-! ## The four branches -/

section Branches

variable (x0 : (⟨S100000x1553, .f32⟩ : BufTy).Contents (Elt Ideal))

/-- The des branch at (n, c): columns 785 … 1552 of row n through W_des, b_des and the leaky rectifier. -/
theorem des_at (x3 : (⟨S768x128, .f32⟩ : BufTy).Contents (Elt Ideal)) (x4 : (⟨S128, .f32⟩ : BufTy).Contents (Elt Ideal))
    (n : Fin 100000) (c : Fin 128) :
    val_main_v12 (F := Ideal) x0 x3 x4 (ix2 n c)
      = Cert.Spec.leaky (Cert.Spec.aff (Cert.Spec.xcols x0 n 785 768 (by omega)) x3 x4 c) := by
  have hd : val_main_v4 (F := Ideal) x0 x3 (ix2 n c)
      = ∑ k : Fin 768, Cert.Spec.xcols x0 n 785 768 (by omega) k * x3 (ix2 k c) := by
    rw [val_main_v4_apply]
    refine Finset.sum_congr rfl fun k _ => ?_
    rw [val_main_v3_apply,
      idx2_eq (idx_main_v3 (lidx_main_v4 (ix2 n c) k)) n ⟨785 + k.val, by have := k.isLt; omega⟩ rfl rfl,
      idx2_eq (ridx_main_v4 (ix2 n c) k) k c rfl rfl]
    rfl
  have hb : val_main_v6 (F := Ideal) x4 (ix2 n c) = x4 (ix1 c) := by
    rw [val_main_v6_apply, val_main_v5_apply, idx1_eq (idx_main_v5 (idx_main_v6 (ix2 n c))) c rfl]
  rw [val_main_v12_apply, val_main_v9_apply, val_main_v11_apply, val_main_v7_apply, val_main_v8_apply,
    val_main_v10_apply, val_main_cst_apply, val_main_cst_0_apply, hd, hb]
  exact leaky_read _ _

/-- The tweet branch at (n, c): columns 6 … 773 of row n through W_tweet, b_tweet and the leaky rectifier. -/
theorem tweet_at (x5 : (⟨S768x128, .f32⟩ : BufTy).Contents (Elt Ideal)) (x6 : (⟨S128, .f32⟩ : BufTy).Contents (Elt Ideal))
    (n : Fin 100000) (c : Fin 128) :
    val_main_v21 (F := Ideal) x0 x5 x6 (ix2 n c)
      = Cert.Spec.leaky (Cert.Spec.aff (Cert.Spec.xcols x0 n 6 768 (by omega)) x5 x6 c) := by
  have hd : val_main_v13 (F := Ideal) x0 x5 (ix2 n c)
      = ∑ k : Fin 768, Cert.Spec.xcols x0 n 6 768 (by omega) k * x5 (ix2 k c) := by
    rw [val_main_v13_apply]
    refine Finset.sum_congr rfl fun k _ => ?_
    rw [val_main_v1_apply,
      idx2_eq (idx_main_v1 (lidx_main_v13 (ix2 n c) k)) n ⟨6 + k.val, by have := k.isLt; omega⟩ rfl rfl,
      idx2_eq (ridx_main_v13 (ix2 n c) k) k c rfl rfl]
    rfl
  have hb : val_main_v15 (F := Ideal) x6 (ix2 n c) = x6 (ix1 c) := by
    rw [val_main_v15_apply, val_main_v14_apply, idx1_eq (idx_main_v14 (idx_main_v15 (ix2 n c))) c rfl]
  rw [val_main_v21_apply, val_main_v18_apply, val_main_v20_apply, val_main_v16_apply, val_main_v17_apply,
    val_main_v19_apply, val_main_cst_1_apply, val_main_cst_2_apply, hd, hb]
  exact leaky_read _ _

/-- The num branch at (n, c): columns 0 … 5 of row n through W_num, b_num and the leaky rectifier. -/
theorem num_at (x7 : (⟨S6x128, .f32⟩ : BufTy).Contents (Elt Ideal)) (x8 : (⟨S128, .f32⟩ : BufTy).Contents (Elt Ideal))
    (n : Fin 100000) (c : Fin 128) :
    val_main_v30 (F := Ideal) x0 x7 x8 (ix2 n c)
      = Cert.Spec.leaky (Cert.Spec.aff (Cert.Spec.xcols x0 n 0 6 (by omega)) x7 x8 c) := by
  have hd : val_main_v22 (F := Ideal) x0 x7 (ix2 n c)
      = ∑ k : Fin 6, Cert.Spec.xcols x0 n 0 6 (by omega) k * x7 (ix2 k c) := by
    rw [val_main_v22_apply]
    refine Finset.sum_congr rfl fun k _ => ?_
    rw [val_main_v0_apply,
      idx2_eq (idx_main_v0 (lidx_main_v22 (ix2 n c) k)) n ⟨0 + k.val, by have := k.isLt; omega⟩ rfl
        (by show k.val = 0 + k.val; omega),
      idx2_eq (ridx_main_v22 (ix2 n c) k) k c rfl rfl]
    rfl
  have hb : val_main_v24 (F := Ideal) x8 (ix2 n c) = x8 (ix1 c) := by
    rw [val_main_v24_apply, val_main_v23_apply, idx1_eq (idx_main_v23 (idx_main_v24 (ix2 n c))) c rfl]
  rw [val_main_v30_apply, val_main_v27_apply, val_main_v29_apply, val_main_v25_apply, val_main_v26_apply,
    val_main_v28_apply, val_main_cst_3_apply, val_main_cst_4_apply, hd, hb]
  exact leaky_read _ _

/-- The cat branch at (n, c): columns 774 … 784 of row n through W_cat, b_cat and the leaky rectifier. -/
theorem catf_at (x9 : (⟨S11x128, .f32⟩ : BufTy).Contents (Elt Ideal)) (x10 : (⟨S128, .f32⟩ : BufTy).Contents (Elt Ideal))
    (n : Fin 100000) (c : Fin 128) :
    val_main_v39 (F := Ideal) x0 x9 x10 (ix2 n c)
      = Cert.Spec.leaky (Cert.Spec.aff (Cert.Spec.xcols x0 n 774 11 (by omega)) x9 x10 c) := by
  have hd : val_main_v31 (F := Ideal) x0 x9 (ix2 n c)
      = ∑ k : Fin 11, Cert.Spec.xcols x0 n 774 11 (by omega) k * x9 (ix2 k c) := by
    rw [val_main_v31_apply]
    refine Finset.sum_congr rfl fun k _ => ?_
    rw [val_main_v2_apply,
      idx2_eq (idx_main_v2 (lidx_main_v31 (ix2 n c) k)) n ⟨774 + k.val, by have := k.isLt; omega⟩ rfl rfl,
      idx2_eq (ridx_main_v31 (ix2 n c) k) k c rfl rfl]
    rfl
  have hb : val_main_v33 (F := Ideal) x10 (ix2 n c) = x10 (ix1 c) := by
    rw [val_main_v33_apply, val_main_v32_apply, idx1_eq (idx_main_v32 (idx_main_v33 (ix2 n c))) c rfl]
  rw [val_main_v39_apply, val_main_v36_apply, val_main_v38_apply, val_main_v34_apply, val_main_v35_apply,
    val_main_v37_apply, val_main_cst_5_apply, val_main_cst_6_apply, hd, hb]
  exact leaky_read _ _

/-- The joined row at (n, k) is the specification's 512-wide row: each of the four column ranges holds its branch. -/
theorem row_at (x3 : (⟨S768x128, .f32⟩ : BufTy).Contents (Elt Ideal)) (x4 : (⟨S128, .f32⟩ : BufTy).Contents (Elt Ideal))
    (x5 : (⟨S768x128, .f32⟩ : BufTy).Contents (Elt Ideal)) (x6 : (⟨S128, .f32⟩ : BufTy).Contents (Elt Ideal))
    (x7 : (⟨S6x128, .f32⟩ : BufTy).Contents (Elt Ideal)) (x8 : (⟨S128, .f32⟩ : BufTy).Contents (Elt Ideal))
    (x9 : (⟨S11x128, .f32⟩ : BufTy).Contents (Elt Ideal)) (x10 : (⟨S128, .f32⟩ : BufTy).Contents (Elt Ideal))
    (n : Fin 100000) (k : Fin 512) :
    val_main_v40 (F := Ideal) x0 x3 x4 x5 x6 x7 x8 x9 x10 (ix2 n k)
      = Cert.Spec.catRow x0 x7 x8 x5 x6 x9 x10 x3 x4 n k := by
  unfold val_main_v40 Cert.Spec.catRow
  rw [cat4_at]
  split_ifs with h0 h1 h2
  · exact des_at x0 x3 x4 n _
  · exact tweet_at x0 x5 x6 n _
  · exact num_at x0 x7 x8 n _
  · exact catf_at x0 x9 x10 n _

end Branches

/-- The reference's stem stage is the specification's stem of the same arrays. -/
theorem stem_eq (x0 : (⟨S100000x1553, .f32⟩ : BufTy).Contents (Elt Ideal)) (x3 : (⟨S768x128, .f32⟩ : BufTy).Contents (Elt Ideal)) (x4 : (⟨S128, .f32⟩ : BufTy).Contents (Elt Ideal)) (x5 : (⟨S768x128, .f32⟩ : BufTy).Contents (Elt Ideal)) (x6 : (⟨S128, .f32⟩ : BufTy).Contents (Elt Ideal)) (x7 : (⟨S6x128, .f32⟩ : BufTy).Contents (Elt Ideal)) (x8 : (⟨S128, .f32⟩ : BufTy).Contents (Elt Ideal)) (x9 : (⟨S11x128, .f32⟩ : BufTy).Contents (Elt Ideal)) (x10 : (⟨S128, .f32⟩ : BufTy).Contents (Elt Ideal)) (x11 : (⟨S512x128, .f32⟩ : BufTy).Contents (Elt Ideal)) (x12 : (⟨S128, .f32⟩ : BufTy).Contents (Elt Ideal)) (x13 : (⟨S128, .f32⟩ : BufTy).Contents (Elt Ideal)) :
    val_main_v50 (F := Ideal) x0 x3 x4 x5 x6 x7 x8 x9 x10 x11 x12 x13 = Cert.Spec.stemA x0 x7 x8 x5 x6 x9 x10 x3 x4 x11 x12 x13 := by
  funext i
  obtain ⟨n, j, rfl⟩ : ∃ (n : Fin 100000) (j : Fin 128), i = ix2 n j := ⟨i 0, i 1, eq_ix2 i⟩
  have hd : val_main_v41 (F := Ideal) x0 x3 x4 x5 x6 x7 x8 x9 x10 x11 (ix2 n j)
      = ∑ k : Fin 512, Cert.Spec.catRow x0 x7 x8 x5 x6 x9 x10 x3 x4 n k * x11 (ix2 k j) := by
    rw [val_main_v41_apply]
    refine Finset.sum_congr rfl fun k _ => ?_
    rw [idx2_eq (lidx_main_v41 (ix2 n j) k) n k rfl rfl, idx2_eq (ridx_main_v41 (ix2 n j) k) k j rfl rfl, row_at]
  have hb : val_main_v43 (F := Ideal) x12 (ix2 n j) = x12 (ix1 j) := by
    rw [val_main_v43_apply, val_main_v42_apply, idx1_eq (idx_main_v42 (idx_main_v43 (ix2 n j))) j rfl]
  have ha : val_main_v48 (F := Ideal) x13 (ix2 n j) = x13 (ix1 j) := by
    rw [val_main_v48_apply, val_main_v47_apply, idx1_eq (idx_main_v47 (idx_main_v48 (ix2 n j))) j rfl]
  rw [val_main_v50_apply, val_main_v46_apply, val_main_v49_apply, val_main_v44_apply, val_main_v45_apply,
    val_main_cst_7_apply, hd, hb, ha]
  exact prelu_read _ _ _

end Cert.ReferenceIdeal.RefStem

end
-- ==== Proof.LibGather.lean ====
/-
  Two host operations read at one index, for the shapes jnp.take(table, words, axis=0) prints over a rank-two table:

  * the row gather: result entry (e, k) — or (e, j, k) for a two-column array of words — is the table's entry
    (row, k) with `row` the start word of that position read signed and clamped into the table's rows;
  * a reduction by `and` over a trailing axis of extent one: the result at a position is the initial bit `and`
    the one operand bit that reduces into it.
-/
import Idealize.ShloMosaic.PureOps
import Idealize.ShloMosaic.PureOps.Reduce
import Idealize.ShloMosaic.Lib.ValueIdx

namespace Cert.LibGather

open Idealize.ShloMosaic Idealize.ShloMosaic.ValueIdx

variable {α : Type}

/-- THE ROW GATHER, start words in an [R, 1] column: result entry (e, k) is the table's entry (row, k), the row being
    the start word at (e, 0) read signed and clamped into [0, N − 1]. The hypotheses are the printed dimension numbers
    (offset axis 1, operand axis 0 collapsed and start-indexed, the index vector on axis 1, slices of one row).
    On operand axis 0 (collapsed, named by the start index map) the coordinate is the clamped start word, the batching
    and offset contributions being zero; on operand axis 1 (an offset axis the start index map does not name) the start
    is zero and the offset coordinate is the result's last coordinate. -/
theorem gather_rows_col_apply {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![R, 1]⟩ w) (e : Fin R) (k : Fin C) :
    Host.gather d x idx (ix2 e k) = x (ix2 ⟨min (idx (ix2 e (0 : Fin 1))).toInt.toNat (N - 1), by omega⟩ k) := by
  obtain ⟨od, cd, ob, sb, sm, iv, ss, wf⟩ := d
  simp only at hoff hcoll hob hsim hivd hss
  subst hoff hcoll hob hsim hivd hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word is read at the result's batch coordinate with 0 on the index vector's axis
    refine congrArg₂ (fun p q => min (idx p).toInt.toNat q) ?_ rfl
    funext b
    refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start GatherDims.offCoord
    rw [dif_neg (show (1 : Fin 2) ∉ [0] from by decide),
      dif_pos ((GatherDims.mem_sKept _ _).mpr ⟨show (1 : Fin 2) ∉ [0] from by decide, List.not_mem_nil⟩)]
    simp only [Nat.zero_add]
    rfl

/-- THE ROW GATHER, start words in an [R, J, 1] array: result entry (e, j, k) is the table's entry (row, k), the row
    being the start word at (e, j, 0) read signed and clamped into [0, N − 1]. -/
theorem gather_rows_pair_apply {N C R J w : Nat} (hN : 0 < N)
    (d : GatherDims ⟨2, ![N, C]⟩ ⟨3, ![R, J, 1]⟩ ⟨3, ![R, J, C]⟩)
    (hoff : d.offsetDims = [2]) (hcoll : d.collapsedSliceDims = [0]) (hob : d.operandBatchingDims = [])
    (hsim : d.startIndexMap = [0]) (hivd : d.indexVectorDim = 2) (hss : d.sliceSizes = ![1, C])
    (x : (⟨2, ![N, C]⟩ : Shape).Idx → α) (idx : IVec ⟨3, ![R, J, 1]⟩ w) (e : Fin R) (j : Fin J) (k : Fin C) :
    Host.gather d x idx (ix3 e j k) = x (ix2 ⟨min (idx (ix3 e j (0 : Fin 1))).toInt.toNat (N - 1), by omega⟩ k) := by
  obtain ⟨od, cd, ob, sb, sm, iv, ss, wf⟩ := d
  simp only at hoff hcoll hob hsim hivd hss
  subst hoff hcoll hob hsim hivd hss
  unfold Host.gather
  congr 1
  funext a
  refine Fin.ext ?_
  match a with
  | ⟨0, _⟩ =>
    show GatherDims.start _ (ix3 e j k) idx 0 + GatherDims.batchCoord _ (ix3 e j k) 0
      + GatherDims.offCoord _ (ix3 e j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word is read at the result's two batch coordinates with 0 on the index vector's axis
    refine congrArg₂ (fun p q => min (idx p).toInt.toNat q) ?_ rfl
    funext b
    refine Fin.ext ?_
    match b with
    | ⟨0, _⟩ => rfl
    | ⟨1, _⟩ => rfl
    | ⟨2, _⟩ => rfl
  | ⟨1, _⟩ =>
    show GatherDims.start _ (ix3 e j k) idx 1 + GatherDims.batchCoord _ (ix3 e j k) 1
      + GatherDims.offCoord _ (ix3 e j k) 1 = _
    rw [GatherDims.batchCoord_eq_zero _ _ _ List.not_mem_nil]
    unfold GatherDims.start GatherDims.offCoord
    rw [dif_neg (show (1 : Fin 2) ∉ [0] from by decide),
      dif_pos ((GatherDims.mem_sKept _ _).mpr ⟨show (1 : Fin 2) ∉ [0] from by decide, List.not_mem_nil⟩)]
    simp only [Nat.zero_add]
    rfl

/-- Dropping the unit trailing axis of an index (e, c) keeps its leading coordinate. -/
theorem drop_col_val {R : Nat} (h : (⟨2, ![R, 1]⟩ : Shape).ReducesTo [1] ⟨1, ![R]⟩)
    (i : (⟨2, ![R, 1]⟩ : Shape).Idx) : ((h.drop i 0 : Fin _) : Nat) = ((i 0 : Fin _) : Nat) := rfl

/-- The one index of an [R, 1] array that drops to (e) is (e, 0). -/
theorem drop_col_eq_iff {R : Nat} (h : (⟨2, ![R, 1]⟩ : Shape).ReducesTo [1] ⟨1, ![R]⟩)
    (i : (⟨2, ![R, 1]⟩ : Shape).Idx) (e : Fin R) : h.drop i = ix1 e ↔ i = ix2 e (0 : Fin 1) := by
  constructor
  · intro hi
    have h0 : ((i 0 : Fin _) : Nat) = e.val := by
      rw [← drop_col_val h i, hi]; rfl
    funext a
    match a with
    | ⟨0, _⟩ => exact Fin.ext h0
    | ⟨1, _⟩ => exact Fin.ext (by have := idx2_lt1 i; show (i 1).val = 0; omega)
  · rintro rfl
    funext b
    match b with
    | ⟨0, _⟩ => exact Fin.ext (drop_col_val h _)

/-- A reduction by `and` of an [R, 1] array of bits along its unit axis: position `e` is the initial bit `and` the
    bit at (e, 0). The set of indices reducing into `e` is the singleton {(e, 0)}, and `and` commutes. -/
theorem reduce_andi_col_apply {R : Nat} {u : Shape} (y : IVec ⟨2, ![R, 1]⟩ 1) (init : u.Idx → BitVec 1)
    (h : (⟨2, ![R, 1]⟩ : Shape).ReducesTo [1] ⟨1, ![R]⟩) (hu : 0 < u.numel) (e : Fin R) :
    Host.reduce IntOp.andi y init h hu (ix1 e) = IntOp.andi (init (Shape.Idx.first hu)) (y (ix2 e (0 : Fin 1))) := by
  rw [Host.reduce_eq_fold]
  have hset : (Finset.univ.filter fun i => h.drop i = ix1 e) = {ix2 e (0 : Fin 1)} := by
    ext i
    simp only [Finset.mem_filter, Finset.mem_univ, true_and, Finset.mem_singleton]
    exact drop_col_eq_iff h i e
  rw [hset, Finset.fold_singleton]
  exact Std.Commutative.comm _ _

/-- Dropping the unit trailing axis of an index (e, j, c) keeps its first coordinate … -/
theorem drop_pair_val0 {R J : Nat} (h : (⟨3, ![R, J, 1]⟩ : Shape).ReducesTo [2] ⟨2, ![R, J]⟩)
    (i : (⟨3, ![R, J, 1]⟩ : Shape).Idx) : ((h.drop i 0 : Fin _) : Nat) = ((i 0 : Fin _) : Nat) := rfl

/-- … and its second. -/
theorem drop_pair_val1 {R J : Nat} (h : (⟨3, ![R, J, 1]⟩ : Shape).ReducesTo [2] ⟨2, ![R, J]⟩)
    (i : (⟨3, ![R, J, 1]⟩ : Shape).Idx) : ((h.drop i 1 : Fin _) : Nat) = ((i 1 : Fin _) : Nat) := rfl

/-- The one index of an [R, J, 1] array that drops to (e, j) is (e, j, 0). -/
theorem drop_pair_eq_iff {R J : Nat} (h : (⟨3, ![R, J, 1]⟩ : Shape).ReducesTo [2] ⟨2, ![R, J]⟩)
    (i : (⟨3, ![R, J, 1]⟩ : Shape).Idx) (e : Fin R) (j : Fin J) : h.drop i = ix2 e j ↔ i = ix3 e j (0 : Fin 1) := by
  constructor
  · intro hi
    have h0 : ((i 0 : Fin _) : Nat) = e.val := by
      rw [← drop_pair_val0 h i, hi]; rfl
    have h1 : ((i 1 : Fin _) : Nat) = j.val := by
      rw [← drop_pair_val1 h i, hi]; rfl
    funext a
    match a with
    | ⟨0, _⟩ => exact Fin.ext h0
    | ⟨1, _⟩ => exact Fin.ext h1
    | ⟨2, _⟩ => exact Fin.ext (by have : (i 2).val < 1 := (i 2).isLt; show (i 2).val = 0; omega)
  · rintro rfl
    funext b
    match b with
    | ⟨0, _⟩ => exact Fin.ext (drop_pair_val0 h _)
    | ⟨1, _⟩ => exact Fin.ext (drop_pair_val1 h _)

/-- The same for an [R, J, 1] array along its unit axis: position (e, j) is the initial bit `and` the bit at (e, j, 0). -/
theorem reduce_andi_pair_apply {R J : Nat} {u : Shape} (y : IVec ⟨3, ![R, J, 1]⟩ 1) (init : u.Idx → BitVec 1)
    (h : (⟨3, ![R, J, 1]⟩ : Shape).ReducesTo [2] ⟨2, ![R, J]⟩) (hu : 0 < u.numel) (e : Fin R) (j : Fin J) :
    Host.reduce IntOp.andi y init h hu (ix2 e j) = IntOp.andi (init (Shape.Idx.first hu)) (y (ix3 e j (0 : Fin 1))) := by
  rw [Host.reduce_eq_fold]
  have hset : (Finset.univ.filter fun i => h.drop i = ix2 e j) = {ix3 e j (0 : Fin 1)} := by
    ext i
    simp only [Finset.mem_filter, Finset.mem_univ, true_and, Finset.mem_singleton]
    exact drop_pair_eq_iff h i e j
  rw [hset, Finset.fold_singleton]
  exact Std.Commutative.comm _ _

end Cert.LibGather
-- ==== Proof.LibScatter.lean ====
/-
  The host's accumulating scatter read at one index, at the exact instance, for the two shapes
  jax.ops.segment_sum(data, ids, num_segments) prints: ids in an [R, 1] column of words, data a vector [R]
  scattered into [N], or rows [R, C] scattered into [N, C]. The result at a position is the operand there plus
  the sum of the updates whose start word, read signed and not clamped, is that row; an update whose word is
  outside the rows lands nowhere.

  The road, for each shape: on every operand axis read the window's start and the window coordinate off the
  dimension numbers; from them, say exactly which update indices land at a given operand position; then carry
  the sum over those update indices to the sum over the update rows e along e ↦ (e) or e ↦ (e, k).
-/
import Idealize.ShloMosaic.PureOps
import Idealize.ShloMosaic.PureOps.Ideal
import Idealize.ShloMosaic.Lib.ValueIdx

noncomputable section

namespace Cert.LibScatter

open Idealize.ShloMosaic Idealize.ShloMosaic.ValueIdx

/-! ## The vector form: operand [N], start words [R, 1], updates [R] -/

/-- On the operand's one axis (named by the start index map) the start of update e's window is the start word at
    (e, 0), read signed: the start-words index has e on the scatter axis and 0 on the index vector's axis. -/
theorem vec_start {N R w : Nat}
    (d : ScatterDims ⟨1, ![N]⟩ ⟨2, ![R, 1]⟩ ⟨1, ![R]⟩)
    (hu : d.updateWindowDims = []) (hi : d.insertedWindowDims = [0]) (hs : d.scatterDimsToOperandDims = [0])
    (hv : d.indexVectorDim = 1)
    (idx : IVec ⟨2, ![R, 1]⟩ w) (j : (⟨1, ![R]⟩ : Shape).Idx) (a : Fin 1) :
    d.start j idx a = (idx (ix2 (j 0) (0 : Fin 1))).toInt := by
  obtain ⟨uw, iw, sd, iv, wf⟩ := d
  simp only at hu hi hs hv
  subst hu hi hs hv
  obtain rfl : a = 0 := Subsingleton.elim _ _
  unfold ScatterDims.start
  rw [dif_pos (List.mem_singleton.mpr rfl)]
  congr 2
  funext b
  refine Fin.ext ?_
  match b with
  | ⟨0, _⟩ => rfl
  | ⟨1, _⟩ => rfl

/-- The operand's one axis is an inserted axis, so the window coordinate on it is 0. -/
theorem vec_window {N R : Nat}
    (d : ScatterDims ⟨1, ![N]⟩ ⟨2, ![R, 1]⟩ ⟨1, ![R]⟩)
    (hu : d.updateWindowDims = []) (hi : d.insertedWindowDims = [0]) (hs : d.scatterDimsToOperandDims = [0])
    (hv : d.indexVectorDim = 1)
    (j : (⟨1, ![R]⟩ : Shape).Idx) (a : Fin 1) :
    d.window j a = 0 := by
  obtain ⟨uw, iw, sd, iv, wf⟩ := d
  simp only at hu hi hs hv
  subst hu hi hs hv
  obtain rfl : a = 0 := Subsingleton.elim _ _
  unfold ScatterDims.window
  rw [dif_neg]
  intro h
  have h2 := (List.mem_filter.mp h).2
  simp at h2

/-- Update e lands at position n exactly when its start word at (e, 0) reads, signed, n: start + 0 is inside
    [0, N) and equals n one way; the other way n < N gives the range test and the same coordinate. -/
theorem vec_resultIdx_iff {N R w : Nat}
    (d : ScatterDims ⟨1, ![N]⟩ ⟨2, ![R, 1]⟩ ⟨1, ![R]⟩)
    (hu : d.updateWindowDims = []) (hi : d.insertedWindowDims = [0]) (hs : d.scatterDimsToOperandDims = [0])
    (hv : d.indexVectorDim = 1)
    (idx : IVec ⟨2, ![R, 1]⟩ w) (j : (⟨1, ![R]⟩ : Shape).Idx) (n : Fin N) :
    d.resultIdx? j idx = some (ix1 n) ↔ (idx (ix2 (j 0) (0 : Fin 1))).toInt = (n.val : Int) := by
  have hst := vec_start d hu hi hs hv idx j
  have hw := vec_window d hu hi hs hv j
  unfold ScatterDims.resultIdx?
  constructor
  · intro h
    by_cases hall : ∀ a, 0 ≤ d.start j idx a + d.window j a
        ∧ d.start j idx a + d.window j a < (⟨1, ![N]⟩ : Shape).size a
    · rw [dif_pos hall] at h
      have h0 := congrArg Fin.val (congrFun (Option.some.inj h) 0)
      have h1 := hall 0
      rw [hst, hw] at h1
      change (d.start j idx 0 + d.window j 0).toNat = n.val at h0
      rw [hst, hw] at h0
      omega
    · rw [dif_neg hall] at h
      cases h
  · intro h
    have hall : ∀ a, 0 ≤ d.start j idx a + d.window j a
        ∧ d.start j idx a + d.window j a < (⟨1, ![N]⟩ : Shape).size a := by
      intro a
      obtain rfl : a = 0 := Subsingleton.elim _ _
      rw [hst, hw, h]
      have := n.isLt
      change 0 ≤ (n.val : Int) + (0 : Nat) ∧ (n.val : Int) + (0 : Nat) < (N : Int)
      omega
    rw [dif_pos hall]
    congr 1
    funext a
    obtain rfl : a = 0 := Subsingleton.elim _ _
    refine Fin.ext ?_
    change (d.start j idx 0 + d.window j 0).toNat = n.val
    rw [hst, hw, h]
    omega

/-- THE VECTOR SCATTER-ADD: position n of the result is the operand's entry plus the sum of the updates e whose
    start word at (e, 0) reads, signed, n. The hypotheses are the printed dimension numbers. -/
theorem scatterAdd_vec_apply {N R w : Nat}
    (d : ScatterDims ⟨1, ![N]⟩ ⟨2, ![R, 1]⟩ ⟨1, ![R]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![R, 1]⟩ w) (upd : (⟨1, ![R]⟩ : Shape).Idx → EReal) (n : Fin N) :
    Host.scatterAdd (F := Ideal) (φ := .f32) d x idx upd (ix1 n)
      = x (ix1 n) + ∑ e ∈ Finset.univ.filter (fun e : Fin R => (idx (ix2 e (0 : Fin 1))).toInt = (n.val : Int)), upd (ix1 e) := by
  show x (ix1 n) + ∑ j ∈ Finset.univ.filter (fun j => d.resultIdx? j idx = some (ix1 n)), upd j = _
  congr 1
  -- the update indices that land at n correspond to the rows e with start word n along j ↦ j 0, e ↦ (e)
  refine Finset.sum_bij' (fun j _ => j 0) (fun e _ => ix1 e) ?_ ?_ ?_ ?_ ?_
  · intro j hj
    exact Finset.mem_filter.mpr ⟨Finset.mem_univ _,
      (vec_resultIdx_iff d hu hi hs hv idx j n).mp (Finset.mem_filter.mp hj).2⟩
  · intro e he
    exact Finset.mem_filter.mpr ⟨Finset.mem_univ _,
      (vec_resultIdx_iff d hu hi hs hv idx (ix1 e) n).mpr (Finset.mem_filter.mp he).2⟩
  · intro j _
    exact (eq_ix1 j).symm
  · intro e _
    rfl
  · intro j _
    exact congrArg upd (eq_ix1 j)

/-! ## The row form: operand [N, C], start words [R, 1], updates [R, C] -/

/-- On operand axis 0 (named by the start index map) the start of the window of update (e, c) is the start word at
    (e, 0), read signed. -/
theorem rows_start0 {N C R w : Nat}
    (d : ScatterDims ⟨2, ![N, C]⟩ ⟨2, ![R, 1]⟩ ⟨2, ![R, C]⟩)
    (hu : d.updateWindowDims = [1]) (hi : d.insertedWindowDims = [0]) (hs : d.scatterDimsToOperandDims = [0])
    (hv : d.indexVectorDim = 1)
    (idx : IVec ⟨2, ![R, 1]⟩ w) (j : (⟨2, ![R, C]⟩ : Shape).Idx) :
    d.start j idx 0 = (idx (ix2 (j 0) (0 : Fin 1))).toInt := by
  obtain ⟨uw, iw, sd, iv, wf⟩ := d
  simp only at hu hi hs hv
  subst hu hi hs hv
  unfold ScatterDims.start
  rw [dif_pos (List.mem_singleton.mpr rfl)]
  congr 2
  funext b
  refine Fin.ext ?_
  match b with
  | ⟨0, _⟩ => rfl
  | ⟨1, _⟩ => rfl

/-- Operand axis 1 is not named by the start index map: the start there is 0. -/
theorem rows_start1 {N C R w : Nat}
    (d : ScatterDims ⟨2, ![N, C]⟩ ⟨2, ![R, 1]⟩ ⟨2, ![R, C]⟩)
    (hu : d.updateWindowDims = [1]) (hi : d.insertedWindowDims = [0]) (hs : d.scatterDimsToOperandDims = [0])
    (hv : d.indexVectorDim = 1)
    (idx : IVec ⟨2, ![R, 1]⟩ w) (j : (⟨2, ![R, C]⟩ : Shape).Idx) :
    d.start j idx 1 = 0 := by
  obtain ⟨uw, iw, sd, iv, wf⟩ := d
  simp only at hu hi hs hv
  subst hu hi hs hv
  unfold ScatterDims.start
  rw [dif_neg (show (1 : Fin 2) ∉ [0] from by decide)]

/-- Operand axis 0 is an inserted axis: the window coordinate there is 0. -/
theorem rows_window0 {N C R : Nat}
    (d : ScatterDims ⟨2, ![N, C]⟩ ⟨2, ![R, 1]⟩ ⟨2, ![R, C]⟩)
    (hu : d.updateWindowDims = [1]) (hi : d.insertedWindowDims = [0]) (hs : d.scatterDimsToOperandDims = [0])
    (hv : d.indexVectorDim = 1)
    (j : (⟨2, ![R, C]⟩ : Shape).Idx) :
    d.window j 0 = 0 := by
  obtain ⟨uw, iw, sd, iv, wf⟩ := d
  simp only at hu hi hs hv
  subst hu hi hs hv
  unfold ScatterDims.window
  rw [dif_neg]
  intro h
  have h2 := (List.mem_filter.mp h).2
  simp at h2

/-- Operand axis 1 is the one kept axis, and the update's window axis 1 goes to it: the window coordinate there is
    the update's coordinate on axis 1. -/
theorem rows_window1 {N C R : Nat}
    (d : ScatterDims ⟨2, ![N, C]⟩ ⟨2, ![R, 1]⟩ ⟨2, ![R, C]⟩)
    (hu : d.updateWindowDims = [1]) (hi : d.insertedWindowDims = [0]) (hs : d.scatterDimsToOperandDims = [0])
    (hv : d.indexVectorDim = 1)
    (j : (⟨2, ![R, C]⟩ : Shape).Idx) :
    d.window j 1 = (j 1).val := by
  obtain ⟨uw, iw, sd, iv, wf⟩ := d
  simp only at hu hi hs hv
  subst hu hi hs hv
  unfold ScatterDims.window
  rw [dif_pos]
  · rfl
  · refine List.mem_filter.mpr ⟨List.mem_finRange _, ?_⟩
    simp

/-- Update (e, c) lands at (n, k) exactly when its start word at (e, 0) reads, signed, n and c = k: on axis 0 the
    landing coordinate is the start word, on axis 1 it is 0 + c, which is below C whatever c is. -/
theorem rows_resultIdx_iff {N C R w : Nat}
    (d : ScatterDims ⟨2, ![N, C]⟩ ⟨2, ![R, 1]⟩ ⟨2, ![R, C]⟩)
    (hu : d.updateWindowDims = [1]) (hi : d.insertedWindowDims = [0]) (hs : d.scatterDimsToOperandDims = [0])
    (hv : d.indexVectorDim = 1)
    (idx : IVec ⟨2, ![R, 1]⟩ w) (j : (⟨2, ![R, C]⟩ : Shape).Idx) (n : Fin N) (k : Fin C) :
    d.resultIdx? j idx = some (ix2 n k)
      ↔ (idx (ix2 (j 0) (0 : Fin 1))).toInt = (n.val : Int) ∧ (j 1).val = k.val := by
  have hs0 := rows_start0 d hu hi hs hv idx j
  have hs1 := rows_start1 d hu hi hs hv idx j
  have hw0 := rows_window0 d hu hi hs hv j
  have hw1 := rows_window1 d hu hi hs hv j
  have hj1 := idx2_lt1 j
  unfold ScatterDims.resultIdx?
  constructor
  · intro h
    by_cases hall : ∀ a, 0 ≤ d.start j idx a + d.window j a
        ∧ d.start j idx a + d.window j a < (⟨2, ![N, C]⟩ : Shape).size a
    · rw [dif_pos hall] at h
      have h0 := congrArg Fin.val (congrFun (Option.some.inj h) 0)
      have h1 := congrArg Fin.val (congrFun (Option.some.inj h) 1)
      have g0 := hall 0
      rw [hs0, hw0] at g0
      change (d.start j idx 0 + d.window j 0).toNat = n.val at h0
      change (d.start j idx 1 + d.window j 1).toNat = k.val at h1
      rw [hs0, hw0] at h0
      rw [hs1, hw1] at h1
      omega
    · rw [dif_neg hall] at h
      cases h
  · rintro ⟨h, hk⟩
    have hall : ∀ a, 0 ≤ d.start j idx a + d.window j a
        ∧ d.start j idx a + d.window j a < (⟨2, ![N, C]⟩ : Shape).size a := by
      intro a
      match a with
      | ⟨0, _⟩ =>
        change 0 ≤ d.start j idx 0 + d.window j 0 ∧ d.start j idx 0 + d.window j 0 < (N : Int)
        rw [hs0, hw0, h]
        have := n.isLt
        omega
      | ⟨1, _⟩ =>
        change 0 ≤ d.start j idx 1 + d.window j 1 ∧ d.start j idx 1 + d.window j 1 < (C : Int)
        rw [hs1, hw1]
        omega
    rw [dif_pos hall]
    congr 1
    funext a
    refine Fin.ext ?_
    match a with
    | ⟨0, _⟩ =>
      change (d.start j idx 0 + d.window j 0).toNat = n.val
      rw [hs0, hw0, h]
      omega
    | ⟨1, _⟩ =>
      change (d.start j idx 1 + d.window j 1).toNat = k.val
      rw [hs1, hw1]
      omega

/-- THE ROW SCATTER-ADD: entry (n, k) of the result is the operand's entry plus the sum over the update rows e whose
    start word at (e, 0) reads, signed, n, of the update's entry (e, k). -/
theorem scatterAdd_rows_apply {N C R w : Nat}
    (d : ScatterDims ⟨2, ![N, C]⟩ ⟨2, ![R, 1]⟩ ⟨2, ![R, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![R, 1]⟩ w) (upd : (⟨2, ![R, C]⟩ : Shape).Idx → EReal)
    (n : Fin N) (k : Fin C) :
    Host.scatterAdd (F := Ideal) (φ := .f32) d x idx upd (ix2 n k)
      = x (ix2 n k) + ∑ e ∈ Finset.univ.filter (fun e : Fin R => (idx (ix2 e (0 : Fin 1))).toInt = (n.val : Int)), upd (ix2 e k) := by
  show x (ix2 n k) + ∑ j ∈ Finset.univ.filter (fun j => d.resultIdx? j idx = some (ix2 n k)), upd j = _
  congr 1
  -- an update index that lands at (n, k) has second coordinate k, so it is (j 0, k)
  have hback : ∀ j : (⟨2, ![R, C]⟩ : Shape).Idx, d.resultIdx? j idx = some (ix2 n k) → ix2 (j 0) k = j := by
    intro j hj
    have hk : j 1 = k := Fin.ext ((rows_resultIdx_iff d hu hi hs hv idx j n k).mp hj).2
    rw [← hk]
    exact (eq_ix2 j).symm
  -- the update indices that land at (n, k) correspond to the rows e with start word n along j ↦ j 0, e ↦ (e, k)
  refine Finset.sum_bij' (fun j _ => j 0) (fun e _ => ix2 e k) ?_ ?_ ?_ ?_ ?_
  · intro j hj
    exact Finset.mem_filter.mpr ⟨Finset.mem_univ _,
      ((rows_resultIdx_iff d hu hi hs hv idx j n k).mp (Finset.mem_filter.mp hj).2).1⟩
  · intro e he
    exact Finset.mem_filter.mpr ⟨Finset.mem_univ _,
      (rows_resultIdx_iff d hu hi hs hv idx (ix2 e k) n k).mpr ⟨(Finset.mem_filter.mp he).2, rfl⟩⟩
  · intro j hj
    exact hback j (Finset.mem_filter.mp hj).2
  · intro e _
    rfl
  · intro j hj
    exact congrArg upd (hback j (Finset.mem_filter.mp hj).2).symm

end Cert.LibScatter

end
-- ==== Proof.RefLayers.lean ====
/-
  The reference's two relational layers and its classifier, read index by index: per relation the transformed rows
  gathered by (normalised, clamped) source word, masked, scattered by destination word and divided by
  max(masked count, 1); the classifier a last matrix product and bias.
-/
import proofs.«426800_j14224931684700_3_alg».proof.Proof.Gen.ReferenceIdeal.Read
import proofs.«426800_j14224931684700_3_alg».proof.Proof.Spec
import proofs.«426800_j14224931684700_3_alg».proof.Proof.LibGather
import proofs.«426800_j14224931684700_3_alg».proof.Proof.LibScatter
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefLayers

open Cert.ReferenceIdeal Cert.ReferenceIdeal.Gen Cert.ReferenceIdeal.Read Idealize.ShloMosaic Idealize.ShloMosaic.TcCoe Idealize.ShloMosaic.ValueIdx Idealize.SL.Sem

/-! ## The single operations read at an index -/

/-- The matrix product at (n, j): the sum over k of h(n, k) · W(k, j). -/
theorem dot_apply (h : (⟨S100000x128, .f32⟩ : BufTy).Contents (Elt Ideal)) (W : (⟨S128x128, .f32⟩ : BufTy).Contents (Elt Ideal)) (n : Fin 100000) (j : Fin 128) :
    Host.dotGeneral (F := Ideal) (φ₁ := .f32) (φ₂ := .f32) dot_S100000x128_S128x128_S100000x128_1_0_0_1_n_n none h W (ix2 n j) = ∑ k : Fin 128, h (ix2 n k) * W (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 n j) ((ValueIdx.contrEquiv1 dot_S100000x128_S128x128_S100000x128_1_0_0_1_n_n 128 rfl rfl).symm k) = ix2 n k :=
    funext fun a => Fin.ext (by
      match a with
      | ⟨0, _⟩ => exact lhs_main_v55_0 _ _
      | ⟨1, _⟩ => exact (lhs_main_v55_1 _ _).trans hk)
  have er : dot_S100000x128_S128x128_S100000x128_1_0_0_1_n_n.rhsIdx (ix2 n j) ((ValueIdx.contrEquiv1 dot_S100000x128_S128x128_S100000x128_1_0_0_1_n_n 128 rfl rfl).symm k) = ix2 k j :=
    funext fun a => Fin.ext (by
      match a with
      | ⟨0, _⟩ => exact (rhs_main_v55_0 _ _).trans hk
      | ⟨1, _⟩ => exact rhs_main_v55_1 _ _)
  rw [el, er]

/-- A vector over the edges laid as a column reads, at (e, 0), the vector at e. -/
theorem col_apply {α : Type} (v : S1600000.Idx → α) (e : Fin 1600000) :
    broadcastInDim S1600000x1 ![0] bcast_S1600000_S1600000x1_0 v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- A sum over the edges whose destination word, read off the destination column at (e, 0), is n is the sum over the
    edges whose destination word, read off the destination vector at e, is n. -/
theorem sum_filter_col {M : Type} [AddCommMonoid M] (dst : (⟨S1600000, .i32⟩ : BufTy).Contents (Elt Ideal)) (n : Int) (f : Fin 1600000 → M) :
    ∑ e ∈ Finset.univ.filter (fun e : Fin 1600000 =>
        (broadcastInDim S1600000x1 ![0] bcast_S1600000_S1600000x1_0 dst (ix2 e (0 : Fin 1))).toInt = n), f e
      = ∑ e ∈ Finset.univ.filter (fun e : Fin 1600000 => (dst (ix1 e)).toInt = n), f e := by
  refine Finset.sum_congr (Finset.filter_congr fun e _ => ?_) fun _ _ => rfl
  rw [col_apply]

/-- A column over the edges repeated along 128 columns reads, at (e, j), the column at (e, 0). -/
theorem cols_apply {α : Type} (c : S1600000x1.Idx → α) (e : Fin 1600000) (j : Fin 128) :
    broadcastInDim S1600000x128 ![0, 1] bcast_S1600000x1_S1600000x128_0_1 c (ix2 e j) = c (ix2 e (0 : Fin 1)) :=
  broadcastInDim_apply _ bcast_S1600000x1_S1600000x128_0_1 c (ix2 e j) (ix2 e (0 : Fin 1)) (fun a => match a with
    | ⟨0, _⟩ => by show e.val = if (1600000 : Nat) = 1 then 0 else e.val; rw [if_neg (by decide)]
    | ⟨1, _⟩ => by show 0 = if (1 : Nat) = 1 then 0 else j.val; rw [if_pos rfl])

/-- A vector over the nodes laid as a column reads, at (n, 0), the vector at n. -/
theorem ncol_apply {α : Type} (v : S100000.Idx → α) (n : Fin 100000) :
    broadcastInDim S100000x1 ![0] bcast_S100000_S100000x1_0 v (ix2 n (0 : Fin 1)) = v (ix1 n) :=
  broadcastInDim_apply _ bcast_S100000_S100000x1_0 v (ix2 n (0 : Fin 1)) (ix1 n) (fun a => match a with
    | ⟨0, _⟩ => by show n.val = if (100000 : Nat) = 1 then 0 else n.val; rw [if_neg (by decide)])

/-- A column over the nodes repeated along 128 columns reads, at (n, j), the column at (n, 0). -/
theorem ncols_apply {α : Type} (c : S100000x1.Idx → α) (n : Fin 100000) (j : Fin 128) :
    broadcastInDim S100000x128 ![0, 1] bcast_S100000x1_S100000x128_0_1 c (ix2 n j) = c (ix2 n (0 : Fin 1)) :=
  broadcastInDim_apply _ bcast_S100000x1_S100000x128_0_1 c (ix2 n j) (ix2 n (0 : Fin 1)) (fun a => match a with
    | ⟨0, _⟩ => by show n.val = if (100000 : Nat) = 1 then 0 else n.val; rw [if_neg (by decide)]
    | ⟨1, _⟩ => by show 0 = if (1 : Nat) = 1 then 0 else j.val; rw [if_pos rfl])

/-- The bias laid along the rows reads, at (n, j), the bias at j. -/
theorem bias_apply (b : (⟨S128, .f32⟩ : BufTy).Contents (Elt Ideal)) (n : Fin 100000) (j : Fin 128) :
    val_main_v57 (F := Ideal) b (ix2 n j) = b (ix1 j) := by
  rw [val_main_v57_apply, val_main_v56_apply]
  exact congrArg b (funext fun a => match a with | ⟨0, _⟩ => rfl)

/-- The zero array over (node, column) reads zero. -/
theorem zeros2_apply (i : S100000x128.Idx) : val_main_v75 (F := Ideal) i = Cert.Spec.zeroF := by
  rw [val_main_v75_apply, val_main_cst_10_apply]; rfl

/-- The zero array over the nodes reads zero. -/
theorem zeros1_apply (i : S100000.Idx) : val_main_v78 (F := Ideal) i = Cert.Spec.zeroF := by
  rw [val_main_v78_apply, val_main_cst_11_apply]; rfl

/-- The array of ones over the nodes reads one. -/
theorem ones1_apply (i : S100000.Idx) : val_main_v81 (F := Ideal) i = Cert.Spec.oneF := by
  rw [val_main_v81_apply, val_main_cst_12_apply]; rfl

/-- Relation 0's matrix at (k, j) is rel(0, k, j). -/
theorem rel0_apply (rel : (⟨S2x128x128, .f32⟩ : BufTy).Contents (Elt Ideal)) (k j : Fin 128) :
    val_main_v63 (F := Ideal) rel (ix2 k j) = rel (ix3 (0 : Fin 2) k j) := by
  rw [val_main_v63_apply, val_main_v62_apply]
  refine congrArg rel (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- Relation 1's matrix at (k, j) is rel(1, k, j). -/
theorem rel1_apply (rel : (⟨S2x128x128, .f32⟩ : BufTy).Contents (Elt Ideal)) (k j : Fin 128) :
    val_main_v91 (F := Ideal) rel (ix2 k j) = rel (ix3 (1 : Fin 2) k j) := by
  rw [val_main_v91_apply, val_main_v90_apply]
  refine congrArg rel (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- Relation 0's mask at edge e is the specification's. -/
theorem mask0_apply (et : (⟨S1600000, .i32⟩ : BufTy).Contents (Elt Ideal)) (e : Fin 1600000) :
    val_main_v61 (F := Ideal) et (ix1 e) = Cert.Spec.maskF et 0#32 e := by
  rw [val_main_v61_apply, val_main_v60_apply, val_main_v59_apply, val_main_c_apply]; rfl

/-- Relation 1's mask at edge e is the specification's. -/
theorem mask1_apply (et : (⟨S1600000, .i32⟩ : BufTy).Contents (Elt Ideal)) (e : Fin 1600000) :
    val_main_v89 (F := Ideal) et (ix1 e) = Cert.Spec.maskF et 1#32 e := by
  rw [val_main_v89_apply, val_main_v88_apply, val_main_v87_apply, val_main_c_13_apply]; rfl

/-! ## One relation's term -/

/-- One relation's term as the program computes it: the rows of h · W gathered by source word, masked, summed into
    their destination rows, over the masked count of each destination row raised to at least one. -/
def relPart (h : (⟨S100000x128, .f32⟩ : BufTy).Contents (Elt Ideal)) (W : (⟨S128x128, .f32⟩ : BufTy).Contents (Elt Ideal)) (mask : (⟨S1600000, .f32⟩ : BufTy).Contents (Elt Ideal))
    (src : (⟨S1600000x1, .i32⟩ : BufTy).Contents (Elt Ideal)) (dst : (⟨S1600000, .i32⟩ : BufTy).Contents (Elt Ideal)) : (⟨S100000x128, .f32⟩ : BufTy).Contents (Elt Ideal) :=
  Host.divf (F := Ideal) (φ := .f32)
    (Host.scatterAdd (F := Ideal) (φ := .f32) scatter_S100000x128_S1600000x1_S1600000x128_1_0_0_1 (val_main_v75 (F := Ideal))
      (broadcastInDim S1600000x1 ![0] bcast_S1600000_S1600000x1_0 dst)
      (mulf (F := Ideal) (φ := .f32) (Host.gather gather_S100000x128_S1600000x1_S1600000x128_1_0_n_n_0_1_1128 (Host.dotGeneral (F := Ideal) (φ₁ := .f32) (φ₂ := .f32) dot_S100000x128_S128x128_S100000x128_1_0_0_1_n_n none h W) src)
        (broadcastInDim S1600000x128 ![0, 1] bcast_S1600000x1_S1600000x128_0_1
          (broadcastInDim S1600000x1 ![0] bcast_S1600000_S1600000x1_0 mask))))
    (broadcastInDim S100000x128 ![0, 1] bcast_S100000x1_S100000x128_0_1
      (broadcastInDim S100000x1 ![0] bcast_S100000_S100000x1_0
        (maximumf (F := Ideal) (φ := .f32)
          (Host.scatterAdd (F := Ideal) (φ := .f32) scatter_S100000_S1600000x1_S1600000_n_0_0_1 (val_main_v78 (F := Ideal))
            (broadcastInDim S1600000x1 ![0] bcast_S1600000_S1600000x1_0 dst) mask)
          (val_main_v81 (F := Ideal)))))

/-- One relation's term at (n, j): over the edges into n, the masked sum of the transformed source rows, divided by
    the larger of the masked count and one. -/
theorem relPart_apply (h : (⟨S100000x128, .f32⟩ : BufTy).Contents (Elt Ideal)) (W : (⟨S128x128, .f32⟩ : BufTy).Contents (Elt Ideal)) (mask : (⟨S1600000, .f32⟩ : BufTy).Contents (Elt Ideal))
    (src : (⟨S1600000x1, .i32⟩ : BufTy).Contents (Elt Ideal)) (dst : (⟨S1600000, .i32⟩ : BufTy).Contents (Elt Ideal)) (n : Fin 100000) (j : Fin 128) :
    relPart h W mask src dst (ix2 n j)
      = Ideal.div
          (Cert.Spec.zeroF + ∑ e ∈ Finset.univ.filter (fun e : Fin 1600000 => (dst (ix1 e)).toInt = (n.val : Int)),
            (∑ k : Fin 128, h (ix2 (Cert.Spec.srow src e) k) * W (ix2 k j)) * mask (ix1 e))
          (max (Cert.Spec.zeroF + ∑ e ∈ Finset.univ.filter (fun e : Fin 1600000 => (dst (ix1 e)).toInt = (n.val : Int)),
            mask (ix1 e)) Cert.Spec.oneF) := by
  unfold relPart
  rw [hostDivf_apply, ncols_apply, ncol_apply, maximumf_apply, ones1_apply,
    Cert.LibScatter.scatterAdd_rows_apply scatter_S100000x128_S1600000x1_S1600000x128_1_0_0_1 rfl rfl rfl rfl,
    Cert.LibScatter.scatterAdd_vec_apply scatter_S100000_S1600000x1_S1600000_n_0_0_1 rfl rfl rfl rfl, zeros2_apply, zeros1_apply,
    sum_filter_col, sum_filter_col]
  refine congrArg₂ Ideal.div (congrArg (Cert.Spec.zeroF + ·) (Finset.sum_congr rfl fun e _ => ?_)) rfl
  rw [mulf_apply, Cert.LibGather.gather_rows_col_apply (by omega) gather_S100000x128_S1600000x1_S1600000x128_1_0_n_n_0_1_1128 rfl rfl rfl rfl rfl rfl,
    cols_apply, col_apply]
  exact congrArg (· * mask (ix1 e)) (dot_apply h W (Cert.Spec.srow src e) j)

/-! ## The layer -/

/-- The layer as the program computes it from the previous stage h: h · root + bias, then relation 0's term, then
    relation 1's. -/
def refLayer (h : (⟨S100000x128, .f32⟩ : BufTy).Contents (Elt Ideal)) (root : (⟨S128x128, .f32⟩ : BufTy).Contents (Elt Ideal)) (rel : (⟨S2x128x128, .f32⟩ : BufTy).Contents (Elt Ideal))
    (bias : (⟨S128, .f32⟩ : BufTy).Contents (Elt Ideal)) (x1 : (⟨S2x1600000, .i32⟩ : BufTy).Contents (Elt Ideal)) (x2 : (⟨S1600000, .i32⟩ : BufTy).Contents (Elt Ideal)) : (⟨S100000x128, .f32⟩ : BufTy).Contents (Elt Ideal) :=
  addf (F := Ideal) (φ := .f32)
    (addf (F := Ideal) (φ := .f32) (addf (F := Ideal) (φ := .f32) (Host.dotGeneral (F := Ideal) (φ₁ := .f32) (φ₂ := .f32) dot_S100000x128_S128x128_S100000x128_1_0_0_1_n_n none h root) (val_main_v57 (F := Ideal) bias))
      (relPart h (val_main_v63 (F := Ideal) rel) (val_main_v61 (F := Ideal) x2) (val_main_v70 (F := Ideal) x1)
        (val_main_v54 (F := Ideal) x1)))
    (relPart h (val_main_v91 (F := Ideal) rel) (val_main_v89 (F := Ideal) x2) (val_main_v70 (F := Ideal) x1)
      (val_main_v54 (F := Ideal) x1))

/-- The program's layer is the specification's, with the normalised source column and the destination vector the
    program reads off the edge array. -/
theorem refLayer_eq (h : (⟨S100000x128, .f32⟩ : BufTy).Contents (Elt Ideal)) (root : (⟨S128x128, .f32⟩ : BufTy).Contents (Elt Ideal)) (rel : (⟨S2x128x128, .f32⟩ : BufTy).Contents (Elt Ideal))
    (bias : (⟨S128, .f32⟩ : BufTy).Contents (Elt Ideal)) (x1 : (⟨S2x1600000, .i32⟩ : BufTy).Contents (Elt Ideal)) (x2 : (⟨S1600000, .i32⟩ : BufTy).Contents (Elt Ideal)) :
    refLayer h root rel bias x1 x2
      = Cert.Spec.layerRefA h root rel bias (val_main_v70 (F := Ideal) x1) (val_main_v54 (F := Ideal) x1) x2 := by
  funext i
  obtain ⟨n, j, rfl⟩ : ∃ (n : Fin 100000) (j : Fin 128), i = ix2 n j := ⟨i 0, i 1, eq_ix2 i⟩
  show ((Host.dotGeneral (F := Ideal) (φ₁ := .f32) (φ₂ := .f32) dot_S100000x128_S128x128_S100000x128_1_0_0_1_n_n none h root (ix2 n j) + val_main_v57 (F := Ideal) bias (ix2 n j))
      + relPart h (val_main_v63 (F := Ideal) rel) (val_main_v61 (F := Ideal) x2) (val_main_v70 (F := Ideal) x1)
          (val_main_v54 (F := Ideal) x1) (ix2 n j))
      + relPart h (val_main_v91 (F := Ideal) rel) (val_main_v89 (F := Ideal) x2) (val_main_v70 (F := Ideal) x1)
          (val_main_v54 (F := Ideal) x1) (ix2 n j)
    = Cert.Spec.layerRef h root rel bias (val_main_v70 (F := Ideal) x1) (val_main_v54 (F := Ideal) x1) x2 n j
  rw [dot_apply, bias_apply, relPart_apply, relPart_apply]
  simp only [rel0_apply, rel1_apply, mask0_apply, mask1_apply]
  rfl

/-- The first layer's stage is the specification's layer of the stem stage. -/
theorem layer1_eq (x0 : (⟨S100000x1553, .f32⟩ : BufTy).Contents (Elt Ideal)) (x1 : (⟨S2x1600000, .i32⟩ : BufTy).Contents (Elt Ideal)) (x2 : (⟨S1600000, .i32⟩ : BufTy).Contents (Elt Ideal)) (x3 : (⟨S768x128, .f32⟩ : BufTy).Contents (Elt Ideal)) (x4 : (⟨S128, .f32⟩ : BufTy).Contents (Elt Ideal)) (x5 : (⟨S768x128, .f32⟩ : BufTy).Contents (Elt Ideal)) (x6 : (⟨S128, .f32⟩ : BufTy).Contents (Elt Ideal)) (x7 : (⟨S6x128, .f32⟩ : BufTy).Contents (Elt Ideal)) (x8 : (⟨S128, .f32⟩ : BufTy).Contents (Elt Ideal)) (x9 : (⟨S11x128, .f32⟩ : BufTy).Contents (Elt Ideal)) (x10 : (⟨S128, .f32⟩ : BufTy).Contents (Elt Ideal)) (x11 : (⟨S512x128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S2x128x128, .f32⟩ : BufTy).Contents (Elt Ideal)) (x16 : (⟨S128, .f32⟩ : BufTy).Contents (Elt Ideal)) :
    val_main_v114 (F := Ideal) x0 x1 x2 x3 x4 x5 x6 x7 x8 x9 x10 x11 x12 x13 x14 x15 x16
      = Cert.Spec.layerRefA (val_main_v50 (F := Ideal) x0 x3 x4 x5 x6 x7 x8 x9 x10 x11 x12 x13) x14 x15 x16 (broadcastInDim (Cert.Spec.Sh2 1600000 1) ![0] (by decide) (select (cmpi .slt (shapeCast (Cert.Spec.Sh1 1600000) (extractStridedSlice (Cert.Spec.Sh2 1 1600000) ![0, 0] x1 (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] x1 (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] x1 (by decide)) (by decide)))) (shapeCast (Cert.Spec.Sh1 1600000) (extractStridedSlice (Cert.Spec.Sh2 1 1600000) ![1, 0] x1 (by decide)) (by decide)) x2 := by
  -- operation by operation the stage is the layer of the stem stage with (root, rel, bias) = (x14, x15, x16); the
  -- source column and the destination vector of the statement are the ones the layer reads off the edge array
  exact refLayer_eq (val_main_v50 (F := Ideal) x0 x3 x4 x5 x6 x7 x8 x9 x10 x11 x12 x13) x14 x15 x16 x1 x2

/-- The second layer's stage is the specification's layer of the first layer's stage. -/
theorem layer2_eq (x0 : (⟨S100000x1553, .f32⟩ : BufTy).Contents (Elt Ideal)) (x1 : (⟨S2x1600000, .i32⟩ : BufTy).Contents (Elt Ideal)) (x2 : (⟨S1600000, .i32⟩ : BufTy).Contents (Elt Ideal)) (x3 : (⟨S768x128, .f32⟩ : BufTy).Contents (Elt Ideal)) (x4 : (⟨S128, .f32⟩ : BufTy).Contents (Elt Ideal)) (x5 : (⟨S768x128, .f32⟩ : BufTy).Contents (Elt Ideal)) (x6 : (⟨S128, .f32⟩ : BufTy).Contents (Elt Ideal)) (x7 : (⟨S6x128, .f32⟩ : BufTy).Contents (Elt Ideal)) (x8 : (⟨S128, .f32⟩ : BufTy).Contents (Elt Ideal)) (x9 : (⟨S11x128, .f32⟩ : BufTy).Contents (Elt Ideal)) (x10 : (⟨S128, .f32⟩ : BufTy).Contents (Elt Ideal)) (x11 : (⟨S512x128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S2x128x128, .f32⟩ : BufTy).Contents (Elt Ideal)) (x16 : (⟨S128, .f32⟩ : BufTy).Contents (Elt Ideal)) (x17 : (⟨S128x128, .f32⟩ : BufTy).Contents (Elt Ideal)) (x18 : (⟨S2x128x128, .f32⟩ : BufTy).Contents (Elt Ideal)) (x19 : (⟨S128, .f32⟩ : BufTy).Contents (Elt Ideal)) :
    val_main_v174 (F := Ideal) x0 x1 x2 x3 x4 x5 x6 x7 x8 x9 x10 x11 x12 x13 x14 x15 x16 x17 x18 x19
      = Cert.Spec.layerRefA (val_main_v114 (F := Ideal) x0 x1 x2 x3 x4 x5 x6 x7 x8 x9 x10 x11 x12 x13 x14 x15 x16) x17 x18 x19 (broadcastInDim (Cert.Spec.Sh2 1600000 1) ![0] (by decide) (select (cmpi .slt (shapeCast (Cert.Spec.Sh1 1600000) (extractStridedSlice (Cert.Spec.Sh2 1 1600000) ![0, 0] x1 (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] x1 (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] x1 (by decide)) (by decide)))) (shapeCast (Cert.Spec.Sh1 1600000) (extractStridedSlice (Cert.Spec.Sh2 1 1600000) ![1, 0] x1 (by decide)) (by decide)) x2 := by
  -- the second layer repeats the first layer's operations (its masks, source column and destination column are
  -- recomputed, term for term the same) on the first layer's stage with (root, rel, bias) = (x17, x18, x19)
  exact refLayer_eq (val_main_v114 (F := Ideal) x0 x1 x2 x3 x4 x5 x6 x7 x8 x9 x10 x11 x12 x13 x14 x15 x16) x17 x18 x19 x1 x2

/-- The result stage is the specification's classifier of the second layer's stage. -/
theorem cls_eq (x0 : (⟨S100000x1553, .f32⟩ : BufTy).Contents (Elt Ideal)) (x1 : (⟨S2x1600000, .i32⟩ : BufTy).Contents (Elt Ideal)) (x2 : (⟨S1600000, .i32⟩ : BufTy).Contents (Elt Ideal)) (x3 : (⟨S768x128, .f32⟩ : BufTy).Contents (Elt Ideal)) (x4 : (⟨S128, .f32⟩ : BufTy).Contents (Elt Ideal)) (x5 : (⟨S768x128, .f32⟩ : BufTy).Contents (Elt Ideal)) (x6 : (⟨S128, .f32⟩ : BufTy).Contents (Elt Ideal)) (x7 : (⟨S6x128, .f32⟩ : BufTy).Contents (Elt Ideal)) (x8 : (⟨S128, .f32⟩ : BufTy).Contents (Elt Ideal)) (x9 : (⟨S11x128, .f32⟩ : BufTy).Contents (Elt Ideal)) (x10 : (⟨S128, .f32⟩ : BufTy).Contents (Elt Ideal)) (x11 : (⟨S512x128, .f32⟩ : BufTy).Contents (Elt Ideal)) (x12 : (⟨S128, .f32⟩ : BufTy).Contents (Elt Ideal)) (x13 : (⟨S128, .f32⟩ : BufTy).Contents (Elt Ideal)) (x14 : (⟨S128x128, .f32⟩ : BufTy).Contents (Elt Ideal)) (x15 : (⟨S2x128x128, .f32⟩ : BufTy).Contents (Elt Ideal)) (x16 : (⟨S128, .f32⟩ : BufTy).Contents (Elt Ideal)) (x17 : (⟨S128x128, .f32⟩ : BufTy).Contents (Elt Ideal)) (x18 : (⟨S2x128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) :
    val_main_v178 (F := Ideal) x0 x1 x2 x3 x4 x5 x6 x7 x8 x9 x10 x11 x12 x13 x14 x15 x16 x17 x18 x19 x20 x21
      = Cert.Spec.clsA (val_main_v174 (F := Ideal) x0 x1 x2 x3 x4 x5 x6 x7 x8 x9 x10 x11 x12 x13 x14 x15 x16 x17 x18 x19) x20 x21 := by
  funext i
  obtain ⟨n, j, rfl⟩ : ∃ (n : Fin 100000) (j : Fin 128), i = ix2 n j := ⟨i 0, i 1, eq_ix2 i⟩
  show Host.dotGeneral (F := Ideal) (φ₁ := .f32) (φ₂ := .f32) dot_S100000x128_S128x128_S100000x128_1_0_0_1_n_n none (val_main_v174 (F := Ideal) x0 x1 x2 x3 x4 x5 x6 x7 x8 x9 x10 x11 x12 x13 x14 x15 x16 x17 x18 x19) x20 (ix2 n j)
      + val_main_v57 (F := Ideal) x21 (ix2 n j)
    = Cert.Spec.cls (val_main_v174 (F := Ideal) x0 x1 x2 x3 x4 x5 x6 x7 x8 x9 x10 x11 x12 x13 x14 x15 x16 x17 x18 x19) x20 x21 n j
  rw [dot_apply, bias_apply]
  rfl

end Cert.ReferenceIdeal.RefLayers

end
-- ==== Proof.StemValue.lean ====
/-
  What the stem's region leaves in its output array: block t of the grid holds rows 1000 t … 1000 t + 999, the body
  computes the stem of those rows from the row block of x and the whole weight arrays, and the blocks tile the array.
-/
import proofs.«426800_j14224931684700_3_alg».proof.Proof.Gen.KernelIdeal.Frame
import proofs.«426800_j14224931684700_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StemValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The stem of a block of R rows

The specification's stem, with the number of rows a parameter: the body computes it at 1000 rows, the array holds it
at 100000. -/

open Cert.Spec in
/-- Columns off … off + K − 1 of row n of a block of R rows. -/
def xcolsR {R : Nat} (x : (Sh2 R 1553).Idx → EReal) (n : Fin R) (off K : Nat) (h : off + K ≤ 1553) (i : Fin K) : EReal :=
  x (ix2 n ⟨off + i.val, by have := i.isLt; omega⟩)

open Cert.Spec in
/-- Entry k of the 512-wide row the four branches are laid into, in the order (des, tweet, num, cat). -/
def catRowR {R : Nat} (x : (Sh2 R 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (n : Fin R) (k : Fin 512) : EReal :=
  if h0 : k.val < 128 then leaky (aff (xcolsR x n 785 768 (by omega)) Wd bd ⟨k.val, h0⟩)
  else if h1 : k.val < 256 then leaky (aff (xcolsR x n 6 768 (by omega)) Wt bt ⟨k.val - 128, by omega⟩)
  else if h2 : k.val < 384 then leaky (aff (xcolsR x n 0 6 (by omega)) Wn bn ⟨k.val - 256, by omega⟩)
  else leaky (aff (xcolsR x n 774 11 (by omega)) Wc bc ⟨k.val - 384, by have := k.isLt; omega⟩)

open Cert.Spec in
/-- The stem's output at (n, j) of a block of R rows. -/
def stemR {R : Nat} (x : (Sh2 R 1553).Idx → EReal)
    (Wn : (Sh2 6 128).Idx → EReal) (bn : (Sh1 128).Idx → EReal) (Wt : (Sh2 768 128).Idx → EReal) (bt : (Sh1 128).Idx → EReal)
    (Wc : (Sh2 11 128).Idx → EReal) (bc : (Sh1 128).Idx → EReal) (Wd : (Sh2 768 128).Idx → EReal) (bd : (Sh1 128).Idx → EReal)
    (Win : (Sh2 512 128).Idx → EReal) (bin a : (Sh1 128).Idx → EReal) (n : Fin R) (j : Fin 128) : EReal :=
  prelu (a (ix1 j)) (aff (catRowR x Wn bn Wt bt Wc bc Wd bd n) Win bin j)

/-! ## The four products -/

/-- The 6-term product's operand indices, axis by axis. -/
theorem lhsN_0 (i : S1000x128.Idx) (q : dot_S1000x6_S6x128_S1000x128_1_0_0_1_n_n.contr.Idx) :
    (dot_S1000x6_S6x128_S1000x128_1_0_0_1_n_n.lhsIdx i q 0).val = (i 0).val := by
  unfold DotDims.lhsIdx
  rw [dif_neg (show ¬(0 : Fin S1000x6.rank) ∈ dot_S1000x6_S6x128_S1000x128_1_0_0_1_n_n.lhsBatch by decide), dif_pos (show (0 : Fin S1000x6.rank) ∈ dot_S1000x6_S6x128_S1000x128_1_0_0_1_n_n.lhsNonContracting by decide)]
  rfl
theorem lhsN_1 (i : S1000x128.Idx) (q : dot_S1000x6_S6x128_S1000x128_1_0_0_1_n_n.contr.Idx) :
    (dot_S1000x6_S6x128_S1000x128_1_0_0_1_n_n.lhsIdx i q 1).val = (q ⟨0, by decide⟩).val :=
  dot_S1000x6_S6x128_S1000x128_1_0_0_1_n_n.lhsIdx_val_of_single rfl i q
theorem rhsN_0 (i : S1000x128.Idx) (q : dot_S1000x6_S6x128_S1000x128_1_0_0_1_n_n.contr.Idx) :
    (dot_S1000x6_S6x128_S1000x128_1_0_0_1_n_n.rhsIdx i q 0).val = (q ⟨0, by decide⟩).val :=
  dot_S1000x6_S6x128_S1000x128_1_0_0_1_n_n.rhsIdx_val_of_single rfl i q
theorem rhsN_1 (i : S1000x128.Idx) (q : dot_S1000x6_S6x128_S1000x128_1_0_0_1_n_n.contr.Idx) :
    (dot_S1000x6_S6x128_S1000x128_1_0_0_1_n_n.rhsIdx i q 1).val = (i 1).val := by
  unfold DotDims.rhsIdx
  rw [dif_neg (show ¬(1 : Fin S6x128.rank) ∈ dot_S1000x6_S6x128_S1000x128_1_0_0_1_n_n.rhsBatch by decide), dif_pos (show (1 : Fin S6x128.rank) ∈ dot_S1000x6_S6x128_S1000x128_1_0_0_1_n_n.rhsNonContracting by decide)]
  rfl

/-- A [1000, 6] by [6, 128] product into the zero accumulator, at (p, q): the sum over the 6 columns of row p
    times column q. -/
theorem mmN_apply {φ₁ φ₂ : FTy} (l : FVec Ideal S1000x6 φ₁) (r : FVec Ideal S6x128 φ₂) (p : Fin 1000) (q : Fin 128) :
    matmul (F := Ideal) dot_S1000x6_S6x128_S1000x128_1_0_0_1_n_n none l r (constant (F := Ideal) S1000x128 .f32 0x00000000#32) (ix2 p q)
      = ∑ k : Fin 6, l (ix2 p k) * r (ix2 k q) := by
  refine (Ideal.matmul_constant_zero_apply dot_S1000x6_S6x128_S1000x128_1_0_0_1_n_n none l r (ix2 p q)).trans ?_
  rw [← Equiv.sum_comp (contrEquiv1 dot_S1000x6_S6x128_S1000x128_1_0_0_1_n_n 6 rfl rfl).symm]
  refine Finset.sum_congr rfl fun k _ => ?_
  have hk := contrEquiv1_symm_val dot_S1000x6_S6x128_S1000x128_1_0_0_1_n_n 6 rfl rfl k
  have el : dot_S1000x6_S6x128_S1000x128_1_0_0_1_n_n.lhsIdx (ix2 p q) ((contrEquiv1 dot_S1000x6_S6x128_S1000x128_1_0_0_1_n_n 6 rfl rfl).symm k) = ix2 p k := funext fun a => Fin.ext (by
    match a with
    | ⟨0, _⟩ => exact lhsN_0 _ _
    | ⟨1, _⟩ => exact (lhsN_1 _ _).trans hk)
  have er : dot_S1000x6_S6x128_S1000x128_1_0_0_1_n_n.rhsIdx (ix2 p q) ((contrEquiv1 dot_S1000x6_S6x128_S1000x128_1_0_0_1_n_n 6 rfl rfl).symm k) = ix2 k q := funext fun a => Fin.ext (by
    match a with
    | ⟨0, _⟩ => exact (rhsN_0 _ _).trans hk
    | ⟨1, _⟩ => exact rhsN_1 _ _)
  rw [el, er]

/-- The 768-term product's operand indices, axis by axis. -/
theorem lhsT_0 (i : S1000x128.Idx) (q : dot_S1000x768_S768x128_S1000x128_1_0_0_1_n_n.contr.Idx) :
    (dot_S1000x768_S768x128_S1000x128_1_0_0_1_n_n.lhsIdx i q 0).val = (i 0).val := by
  unfold DotDims.lhsIdx
  rw [dif_neg (show ¬(0 : Fin S1000x768.rank) ∈ dot_S1000x768_S768x128_S1000x128_1_0_0_1_n_n.lhsBatch by decide), dif_pos (show (0 : Fin S1000x768.rank) ∈ dot_S1000x768_S768x128_S1000x128_1_0_0_1_n_n.lhsNonContracting by decide)]
  rfl
theorem lhsT_1 (i : S1000x128.Idx) (q : dot_S1000x768_S768x128_S1000x128_1_0_0_1_n_n.contr.Idx) :
    (dot_S1000x768_S768x128_S1000x128_1_0_0_1_n_n.lhsIdx i q 1).val = (q ⟨0, by decide⟩).val :=
  dot_S1000x768_S768x128_S1000x128_1_0_0_1_n_n.lhsIdx_val_of_single rfl i q
theorem rhsT_0 (i : S1000x128.Idx) (q : dot_S1000x768_S768x128_S1000x128_1_0_0_1_n_n.contr.Idx) :
    (dot_S1000x768_S768x128_S1000x128_1_0_0_1_n_n.rhsIdx i q 0).val = (q ⟨0, by decide⟩).val :=
  dot_S1000x768_S768x128_S1000x128_1_0_0_1_n_n.rhsIdx_val_of_single rfl i q
theorem rhsT_1 (i : S1000x128.Idx) (q : dot_S1000x768_S768x128_S1000x128_1_0_0_1_n_n.contr.Idx) :
    (dot_S1000x768_S768x128_S1000x128_1_0_0_1_n_n.rhsIdx i q 1).val = (i 1).val := by
  unfold DotDims.rhsIdx
  rw [dif_neg (show ¬(1 : Fin S768x128.rank) ∈ dot_S1000x768_S768x128_S1000x128_1_0_0_1_n_n.rhsBatch by decide), dif_pos (show (1 : Fin S768x128.rank) ∈ dot_S1000x768_S768x128_S1000x128_1_0_0_1_n_n.rhsNonContracting by decide)]
  rfl

/-- A [1000, 768] by [768, 128] product into the zero accumulator, at (p, q): the sum over the 768 columns of row p
    times column q. -/
theorem mmT_apply {φ₁ φ₂ : FTy} (l : FVec Ideal S1000x768 φ₁) (r : FVec Ideal S768x128 φ₂) (p : Fin 1000) (q : Fin 128) :
    matmul (F := Ideal) dot_S1000x768_S768x128_S1000x128_1_0_0_1_n_n none l r (constant (F := Ideal) S1000x128 .f32 0x00000000#32) (ix2 p q)
      = ∑ k : Fin 768, l (ix2 p k) * r (ix2 k q) := by
  refine (Ideal.matmul_constant_zero_apply dot_S1000x768_S768x128_S1000x128_1_0_0_1_n_n none l r (ix2 p q)).trans ?_
  rw [← Equiv.sum_comp (contrEquiv1 dot_S1000x768_S768x128_S1000x128_1_0_0_1_n_n 768 rfl rfl).symm]
  refine Finset.sum_congr rfl fun k _ => ?_
  have hk := contrEquiv1_symm_val dot_S1000x768_S768x128_S1000x128_1_0_0_1_n_n 768 rfl rfl k
  have el : dot_S1000x768_S768x128_S1000x128_1_0_0_1_n_n.lhsIdx (ix2 p q) ((contrEquiv1 dot_S1000x768_S768x128_S1000x128_1_0_0_1_n_n 768 rfl rfl).symm k) = ix2 p k := funext fun a => Fin.ext (by
    match a with
    | ⟨0, _⟩ => exact lhsT_0 _ _
    | ⟨1, _⟩ => exact (lhsT_1 _ _).trans hk)
  have er : dot_S1000x768_S768x128_S1000x128_1_0_0_1_n_n.rhsIdx (ix2 p q) ((contrEquiv1 dot_S1000x768_S768x128_S1000x128_1_0_0_1_n_n 768 rfl rfl).symm k) = ix2 k q := funext fun a => Fin.ext (by
    match a with
    | ⟨0, _⟩ => exact (rhsT_0 _ _).trans hk
    | ⟨1, _⟩ => exact rhsT_1 _ _)
  rw [el, er]

/-- The 11-term product's operand indices, axis by axis. -/
theorem lhsC_0 (i : S1000x128.Idx) (q : dot_S1000x11_S11x128_S1000x128_1_0_0_1_n_n.contr.Idx) :
    (dot_S1000x11_S11x128_S1000x128_1_0_0_1_n_n.lhsIdx i q 0).val = (i 0).val := by
  unfold DotDims.lhsIdx
  rw [dif_neg (show ¬(0 : Fin S1000x11.rank) ∈ dot_S1000x11_S11x128_S1000x128_1_0_0_1_n_n.lhsBatch by decide), dif_pos (show (0 : Fin S1000x11.rank) ∈ dot_S1000x11_S11x128_S1000x128_1_0_0_1_n_n.lhsNonContracting by decide)]
  rfl
theorem lhsC_1 (i : S1000x128.Idx) (q : dot_S1000x11_S11x128_S1000x128_1_0_0_1_n_n.contr.Idx) :
    (dot_S1000x11_S11x128_S1000x128_1_0_0_1_n_n.lhsIdx i q 1).val = (q ⟨0, by decide⟩).val :=
  dot_S1000x11_S11x128_S1000x128_1_0_0_1_n_n.lhsIdx_val_of_single rfl i q
theorem rhsC_0 (i : S1000x128.Idx) (q : dot_S1000x11_S11x128_S1000x128_1_0_0_1_n_n.contr.Idx) :
    (dot_S1000x11_S11x128_S1000x128_1_0_0_1_n_n.rhsIdx i q 0).val = (q ⟨0, by decide⟩).val :=
  dot_S1000x11_S11x128_S1000x128_1_0_0_1_n_n.rhsIdx_val_of_single rfl i q
theorem rhsC_1 (i : S1000x128.Idx) (q : dot_S1000x11_S11x128_S1000x128_1_0_0_1_n_n.contr.Idx) :
    (dot_S1000x11_S11x128_S1000x128_1_0_0_1_n_n.rhsIdx i q 1).val = (i 1).val := by
  unfold DotDims.rhsIdx
  rw [dif_neg (show ¬(1 : Fin S11x128.rank) ∈ dot_S1000x11_S11x128_S1000x128_1_0_0_1_n_n.rhsBatch by decide), dif_pos (show (1 : Fin S11x128.rank) ∈ dot_S1000x11_S11x128_S1000x128_1_0_0_1_n_n.rhsNonContracting by decide)]
  rfl

/-- A [1000, 11] by [11, 128] product into the zero accumulator, at (p, q): the sum over the 11 columns of row p
    times column q. -/
theorem mmC_apply {φ₁ φ₂ : FTy} (l : FVec Ideal S1000x11 φ₁) (r : FVec Ideal S11x128 φ₂) (p : Fin 1000) (q : Fin 128) :
    matmul (F := Ideal) dot_S1000x11_S11x128_S1000x128_1_0_0_1_n_n none l r (constant (F := Ideal) S1000x128 .f32 0x00000000#32) (ix2 p q)
      = ∑ k : Fin 11, l (ix2 p k) * r (ix2 k q) := by
  refine (Ideal.matmul_constant_zero_apply dot_S1000x11_S11x128_S1000x128_1_0_0_1_n_n none l r (ix2 p q)).trans ?_
  rw [← Equiv.sum_comp (contrEquiv1 dot_S1000x11_S11x128_S1000x128_1_0_0_1_n_n 11 rfl rfl).symm]
  refine Finset.sum_congr rfl fun k _ => ?_
  have hk := contrEquiv1_symm_val dot_S1000x11_S11x128_S1000x128_1_0_0_1_n_n 11 rfl rfl k
  have el : dot_S1000x11_S11x128_S1000x128_1_0_0_1_n_n.lhsIdx (ix2 p q) ((contrEquiv1 dot_S1000x11_S11x128_S1000x128_1_0_0_1_n_n 11 rfl rfl).symm k) = ix2 p k := funext fun a => Fin.ext (by
    match a with
    | ⟨0, _⟩ => exact lhsC_0 _ _
    | ⟨1, _⟩ => exact (lhsC_1 _ _).trans hk)
  have er : dot_S1000x11_S11x128_S1000x128_1_0_0_1_n_n.rhsIdx (ix2 p q) ((contrEquiv1 dot_S1000x11_S11x128_S1000x128_1_0_0_1_n_n 11 rfl rfl).symm k) = ix2 k q := funext fun a => Fin.ext (by
    match a with
    | ⟨0, _⟩ => exact (rhsC_0 _ _).trans hk
    | ⟨1, _⟩ => exact rhsC_1 _ _)
  rw [el, er]

/-- The 512-term product's operand indices, axis by axis. -/
theorem lhsI_0 (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
theorem lhsI_1 (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q
theorem rhsI_0 (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q
theorem rhsI_1 (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- A [1000, 512] by [512, 128] product into the zero accumulator, at (p, q): the sum over the 512 columns of row p
    times column q. -/
theorem mmI_apply {φ₁ φ₂ : FTy} (l : FVec Ideal S1000x512 φ₁) (r : FVec Ideal S512x128 φ₂) (p : Fin 1000) (q : Fin 128) :
    matmul (F := Ideal) dot_S1000x512_S512x128_S1000x128_1_0_0_1_n_n none l r (constant (F := Ideal) S1000x128 .f32 0x00000000#32) (ix2 p q)
      = ∑ k : Fin 512, l (ix2 p k) * r (ix2 k q) := by
  refine (Ideal.matmul_constant_zero_apply dot_S1000x512_S512x128_S1000x128_1_0_0_1_n_n none l r (ix2 p q)).trans ?_
  rw [← Equiv.sum_comp (contrEquiv1 dot_S1000x512_S512x128_S1000x128_1_0_0_1_n_n 512 rfl rfl).symm]
  refine Finset.sum_congr rfl fun k _ => ?_
  have hk := contrEquiv1_symm_val dot_S1000x512_S512x128_S1000x128_1_0_0_1_n_n 512 rfl rfl k
  have el : dot_S1000x512_S512x128_S1000x128_1_0_0_1_n_n.lhsIdx (ix2 p q) ((contrEquiv1 dot_S1000x512_S512x128_S1000x128_1_0_0_1_n_n 512 rfl rfl).symm k) = ix2 p k := funext fun a => Fin.ext (by
    match a with
    | ⟨0, _⟩ => exact lhsI_0 _ _
    | ⟨1, _⟩ => exact (lhsI_1 _ _).trans hk)
  have er : dot_S1000x512_S512x128_S1000x128_1_0_0_1_n_n.rhsIdx (ix2 p q) ((contrEquiv1 dot_S1000x512_S512x128_S1000x128_1_0_0_1_n_n 512 rfl rfl).symm k) = ix2 k q := funext fun a => Fin.ext (by
    match a with
    | ⟨0, _⟩ => exact (rhsI_0 _ _).trans hk
    | ⟨1, _⟩ => exact rhsI_1 _ _)
  rw [el, er]

/-- A bias row laid over the 1000 rows, at (p, q): its entry q. -/
theorem bias_apply (b : FVec Ideal S128 .f32) (p : Fin 1000) (q : Fin 128) :
    broadcastTo S1000x128 (shapeCast S1x128 b shapeCasts_S128_S1x128) broadcasts_S1x128_S1000x128 (ix2 p q) = b (ix1 q) := by
  rw [broadcastTo_1b_ab_apply, shapeCast_a_1a_apply]

/-- Four 128-wide blocks laid side by side, at (p, k): the block that holds column k, at k less the widths before it. -/
theorem cat4_apply (a b c d : FVec Ideal S1000x128 .f32) (p : Fin 1000) (k : Fin 512) :
    concatenate S1000x512 1 [⟨S1000x128, a⟩, ⟨S1000x128, b⟩, ⟨S1000x128, c⟩, ⟨S1000x128, d⟩]
        concatenates_S1000x128_S1000x128_S1000x128_S1000x128_S1000x512_d1 (ix2 p k)
      = if h0 : k.val < 128 then a (ix2 p ⟨k.val, h0⟩)
        else if h1 : k.val < 256 then b (ix2 p ⟨k.val - 128, by omega⟩)
        else if h2 : k.val < 384 then c (ix2 p ⟨k.val - 256, by omega⟩)
        else d (ix2 p ⟨k.val - 384, by have := k.isLt; omega⟩) := by
  have hk := k.isLt
  split
  · next h0 =>
    refine concatenate_apply_piece 1 _ _ (ix2 p k) 0 (by show (0 : Nat) < 4; decide) S1000x128 a rfl rfl 0 rfl _ (fun b hb => ?_) ?_
    · match b with
      | ⟨0, _⟩ => rfl
      | ⟨1, _⟩ => exact absurd rfl hb
    · show 0 + k.val = k.val; omega
  · next h0 =>
    split
    · next h1 =>
      refine concatenate_apply_piece 1 _ _ (ix2 p k) 1 (by show (1 : Nat) < 4; decide) S1000x128 b rfl rfl 128 rfl _ (fun b hb => ?_) ?_
      · match b with
        | ⟨0, _⟩ => rfl
        | ⟨1, _⟩ => exact absurd rfl hb
      · show 128 + (k.val - 128) = k.val; omega
    · next h1 =>
      split
      · next h2 =>
        refine concatenate_apply_piece 1 _ _ (ix2 p k) 2 (by show (2 : Nat) < 4; decide) S1000x128 c rfl rfl 256 rfl _ (fun b hb => ?_) ?_
        · match b with
          | ⟨0, _⟩ => rfl
          | ⟨1, _⟩ => exact absurd rfl hb
        · show 256 + (k.val - 256) = k.val; omega
      · next h2 =>
        refine concatenate_apply_piece 1 _ _ (ix2 p k) 3 (by show (3 : Nat) < 4; decide) S1000x128 d rfl rfl 384 rfl _ (fun b hb => ?_) ?_
        · match b with
          | ⟨0, _⟩ => rfl
          | ⟨1, _⟩ => exact absurd rfl hb
        · show 384 + (k.val - 384) = k.val; omega

/-! ## The body's values at an index -/

/-- The num branch at (p, q). -/
theorem pay2_apply (v0 : Vec Ideal S1000x6 .f32) (v4 : Vec Ideal S6x128 .f32) (v8 : Vec Ideal S128 .f32) (p : Fin 1000) (q : Fin 128) :
    k0_pay2 (F := Ideal) v0 v4 v8 (ix2 p q) = Cert.Spec.leaky (Cert.Spec.aff (fun k : Fin 6 => v0 (ix2 p k)) v4 v8 q) := by
  unfold k0_pay2
  simp only [select_apply, cmpf_apply, mulf_apply, addf_apply, broadcast_apply, mmN_apply, truncf_apply, bias_apply]
  rfl

/-- The tweet branch at (p, q). -/
theorem pay3_apply (v1 : Vec Ideal S1000x768 .f32) (v17 : Vec Ideal S768x128 .f32) (v21 : Vec Ideal S128 .f32) (p : Fin 1000) (q : Fin 128) :
    k0_pay3 (F := Ideal) v1 v17 v21 (ix2 p q) = Cert.Spec.leaky (Cert.Spec.aff (fun k : Fin 768 => v1 (ix2 p k)) v17 v21 q) := by
  unfold k0_pay3
  simp only [select_apply, cmpf_apply, mulf_apply, addf_apply, broadcast_apply, mmT_apply, truncf_apply, bias_apply]
  rfl

/-- The cat branch's product at (p, q). -/
theorem pay4_apply (v2 : Vec Ideal S1000x11 .f32) (v30 : Vec Ideal S11x128 .f32) (p : Fin 1000) (q : Fin 128) :
    k0_pay4 (F := Ideal) v2 v30 (ix2 p q) = ∑ k : Fin 11, v2 (ix2 p k) * v30 (ix2 k q) := by
  unfold k0_pay4
  simp only [mmC_apply, truncf_apply]

/-- The stored value at (p, q): the rectifier of the affine map of the row the four branches are laid into. -/
theorem pay1_apply (v3 : Vec Ideal S1000x768 .f32) (v16 v29 v33 : FVec Ideal S1000x128 .f32) (v34 : Vec Ideal S128 .f32)
    (v43 : Vec Ideal S768x128 .f32) (v47 : Vec Ideal S128 .f32) (v57 : Vec Ideal S512x128 .f32) (v61 v65 : Vec Ideal S128 .f32)
    (p : Fin 1000) (q : Fin 128) :
    k0_pay1 (F := Ideal) v3 v16 v29 v33 v34 v43 v47 v57 v61 v65 (ix2 p q)
      = Cert.Spec.prelu (v65 (ix1 q)) (Cert.Spec.aff (fun k : Fin 512 =>
          if h0 : k.val < 128 then Cert.Spec.leaky (Cert.Spec.aff (fun i : Fin 768 => v3 (ix2 p i)) v43 v47 ⟨k.val, h0⟩)
          else if h1 : k.val < 256 then v29 (ix2 p ⟨k.val - 128, by omega⟩)
          else if h2 : k.val < 384 then v16 (ix2 p ⟨k.val - 256, by omega⟩)
          else Cert.Spec.leaky (v33 (ix2 p ⟨k.val - 384, by have := k.isLt; omega⟩) + v34 (ix1 ⟨k.val - 384, by have := k.isLt; omega⟩))) v57 v61 q) := by
  unfold k0_pay1
  simp only [select_apply, cmpf_apply, mulf_apply, addf_apply, broadcast_apply, mmI_apply, mmT_apply, truncf_apply, bias_apply, cat4_apply]
  rfl

/-! ## The body's loads -/

theorem hz2 : (![0, 0] : Fin 2 → Nat) = fun _ => 0 := funext fun a => by fin_cases a <;> rfl
theorem hz1 : (![0] : Fin 1 → Nat) = fun _ => 0 := funext fun a => by fin_cases a; rfl

/-- The load of columns 0 … 5 of the x block, at (p, k). -/
theorem ld_num (x0 : Vec Ideal S1000x1553 .f32) (p : Fin 1000) (k : Fin 6) :
    View.ld x0 r0_0 (ix2 p k) = x0 (ix2 p ⟨0 + k.val, by have := k.isLt; omega⟩) := by
  show x0 _ = x0 _
  congr 1; funext a; apply Fin.ext
  match a with
  | ⟨0, _⟩ => show 0 + 1 * p.val = p.val; omega
  | ⟨1, _⟩ => show 0 + 1 * k.val = 0 + k.val; omega

/-- The load of columns 6 … 773 of the x block, at (p, k). -/
theorem ld_tweet (x0 : Vec Ideal S1000x1553 .f32) (p : Fin 1000) (k : Fin 768) :
    View.ld x0 r0_1 (ix2 p k) = x0 (ix2 p ⟨6 + k.val, by have := k.isLt; omega⟩) := by
  show x0 _ = x0 _
  congr 1; funext a; apply Fin.ext
  match a with
  | ⟨0, _⟩ => show 0 + 1 * p.val = p.val; omega
  | ⟨1, _⟩ => show 6 + 1 * k.val = 6 + k.val; omega

/-- The load of columns 774 … 784 of the x block, at (p, k). -/
theorem ld_cat (x0 : Vec Ideal S1000x1553 .f32) (p : Fin 1000) (k : Fin 11) :
    View.ld x0 r0_2 (ix2 p k) = x0 (ix2 p ⟨774 + k.val, by have := k.isLt; omega⟩) := by
  show x0 _ = x0 _
  congr 1; funext a; apply Fin.ext
  match a with
  | ⟨0, _⟩ => show 0 + 1 * p.val = p.val; omega
  | ⟨1, _⟩ => show 774 + 1 * k.val = 774 + k.val; omega

/-- The load of columns 785 … 1552 of the x block, at (p, k). -/
theorem ld_des (x0 : Vec Ideal S1000x1553 .f32) (p : Fin 1000) (k : Fin 768) :
    View.ld x0 r0_3 (ix2 p k) = x0 (ix2 p ⟨785 + k.val, by have := k.isLt; omega⟩) := by
  show x0 _ = x0 _
  congr 1; funext a; apply Fin.ext
  match a with
  | ⟨0, _⟩ => show 0 + 1 * p.val = p.val; omega
  | ⟨1, _⟩ => show 785 + 1 * k.val = 785 + k.val; omega

/-! ## What the body leaves in the output's buffer -/

/-- The stored value over ANY four column slices of the x block that read the block where the loads do: the stem of
    the block's rows. -/
theorem stem_of_slices (x0 : Vec Ideal S1000x1553 .f32) (x1 : Vec Ideal S6x128 .f32) (x2 : Vec Ideal S128 .f32) (x3 : Vec Ideal S768x128 .f32)
    (x4 : Vec Ideal S128 .f32) (x5 : Vec Ideal S11x128 .f32) (x6 : Vec Ideal S128 .f32) (x7 : Vec Ideal S768x128 .f32) (x8 : Vec Ideal S128 .f32)
    (x9 : Vec Ideal S512x128 .f32) (x10 : Vec Ideal S128 .f32) (x11 : Vec Ideal S128 .f32)
    (s0 : Vec Ideal S1000x6 .f32) (s1 : Vec Ideal S1000x768 .f32) (s2 : Vec Ideal S1000x11 .f32) (s3 : Vec Ideal S1000x768 .f32)
    (h0 : ∀ (p : Fin 1000) (k : Fin 6), s0 (ix2 p k) = x0 (ix2 p ⟨0 + k.val, by have := k.isLt; omega⟩))
    (h1 : ∀ (p : Fin 1000) (k : Fin 768), s1 (ix2 p k) = x0 (ix2 p ⟨6 + k.val, by have := k.isLt; omega⟩))
    (h2 : ∀ (p : Fin 1000) (k : Fin 11), s2 (ix2 p k) = x0 (ix2 p ⟨774 + k.val, by have := k.isLt; omega⟩))
    (h3 : ∀ (p : Fin 1000) (k : Fin 768), s3 (ix2 p k) = x0 (ix2 p ⟨785 + k.val, by have := k.isLt; omega⟩))
    (p : Fin 1000) (q : Fin 128) :
    k0_pay1 (F := Ideal) s3 (k0_pay2 s0 x1 x2) (k0_pay3 s1 x3 x4) (k0_pay4 s2 x5) x6 x7 x8 x9 x10 x11 (ix2 p q)
      = stemR x0 x1 x2 x3 x4 x5 x6 x7 x8 x9 x10 x11 p q := by
  rw [pay1_apply]
  simp only [pay2_apply, pay3_apply, pay4_apply, h0, h1, h2, h3]
  rfl

/-- The output's buffer after the body, at (p, q): the stem of the 1000 rows of the x block. -/
theorem out_apply (x0 : Vec Ideal S1000x1553 .f32) (x1 : Vec Ideal S6x128 .f32) (x2 : Vec Ideal S128 .f32) (x3 : Vec Ideal S768x128 .f32)
    (x4 : Vec Ideal S128 .f32) (x5 : Vec Ideal S11x128 .f32) (x6 : Vec Ideal S128 .f32) (x7 : Vec Ideal S768x128 .f32) (x8 : Vec Ideal S128 .f32)
    (x9 : Vec Ideal S512x128 .f32) (x10 : Vec Ideal S128 .f32) (x11 : Vec Ideal S128 .f32) (p : Fin 1000) (q : Fin 128) :
    out0_12 (F := Ideal) x0 x1 x2 x3 x4 x5 x6 x7 x8 x9 x10 x11 (ix2 p q) = stemR x0 x1 x2 x3 x4 x5 x6 x7 x8 x9 x10 x11 p q := by
  unfold out0_12
  rw [View.canon_unit_zero hz2]
  simp only [View.ld_unit_zero (S := S6x128) hz2, View.ld_unit_zero (S := S768x128) hz2, View.ld_unit_zero (S := S11x128) hz2,
    View.ld_unit_zero (S := S512x128) hz2, View.ld_unit_zero (S := S128) hz1]
  exact stem_of_slices x0 x1 x2 x3 x4 x5 x6 x7 x8 x9 x10 x11 (View.ld x0 r0_0) (View.ld x0 r0_1) (View.ld x0 r0_2) (View.ld x0 r0_3)
    (ld_num x0) (ld_tweet x0) (ld_cat x0) (ld_des x0) p q

/-! ## From the blocks to the array -/

open Cert.Spec in
/-- The stem of a block of 1000 rows that are rows 1000 t … 1000 t + 999 of an array is the array's stem at those rows. -/
theorem stemR_rows (A0 : (Sh2 100000 1553).Idx → EReal) (x0 : (Sh2 1000 1553).Idx → EReal)
    (A1 x1 : (Sh2 6 128).Idx → EReal) (A2 x2 : (Sh1 128).Idx → EReal) (A3 x3 : (Sh2 768 128).Idx → EReal) (A4 x4 : (Sh1 128).Idx → EReal)
    (A5 x5 : (Sh2 11 128).Idx → EReal) (A6 x6 : (Sh1 128).Idx → EReal) (A7 x7 : (Sh2 768 128).Idx → EReal) (A8 x8 : (Sh1 128).Idx → EReal)
    (A9 x9 : (Sh2 512 128).Idx → EReal) (A10 x10 A11 x11 : (Sh1 128).Idx → EReal) (tv : Nat) (htv : tv < 100)
    (h0 : ∀ (p : Fin 1000) (k : Fin 1553), x0 (ix2 p k) = A0 (ix2 ⟨1000 * tv + p.val, by have := p.isLt; omega⟩ k))
    (h1 : x1 = A1) (h2 : x2 = A2) (h3 : x3 = A3) (h4 : x4 = A4) (h5 : x5 = A5) (h6 : x6 = A6) (h7 : x7 = A7) (h8 : x8 = A8)
    (h9 : x9 = A9) (h10 : x10 = A10) (h11 : x11 = A11) (p : Fin 1000) (q : Fin 128) :
    stemR x0 x1 x2 x3 x4 x5 x6 x7 x8 x9 x10 x11 p q
      = stem A0 A1 A2 A3 A4 A5 A6 A7 A8 A9 A10 A11 ⟨1000 * tv + p.val, by have := p.isLt; omega⟩ q := by
  subst h1 h2 h3 h4 h5 h6 h7 h8 h9 h10 h11
  simp only [stemR, stem, aff, catRowR, catRow, xcolsR, xcols, h0]

/-- The x window and the output window move one block of rows a point, on the first axis only. -/
theorem idx_rows : ∀ t : Fin cfg0.N, (win0_0.index t (0 : Fin 2) = t.val ∧ win0_0.index t (1 : Fin 2) = 0)
    ∧ (win0_12.index t (0 : Fin 2) = t.val ∧ win0_12.index t (1 : Fin 2) = 0) :=
  (by decide +kernel : ∀ t : Fin grid0.N, _)

/-- Every other window stays at its one block. -/
theorem idx_whole : ∀ t : Fin cfg0.N, (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ win0_11.index t (0 : Fin 1) = 0 :=
  (by decide +kernel : ∀ t : Fin grid0.N, _)

/-- The x window's block at point t, at (p, k): row 1000 t + p of x. -/
theorem blk0_apply (c : Dev nD) (t : Fin cfg0.N) (p : Fin 1000) (k : Fin 1553) :
    (iblk0 (F := Ideal) V c 0 t : Vec Ideal S1000x1553 .f32) (ix2 p k)
      = (V c main_arg0 : S100000x1553.Idx → EReal) (ix2 ⟨1000 * t.val + p.val, by have := p.isLt; have := lt_of_lt_of_eq t.isLt N_0; omega⟩ k) := by
  have e := (idx_rows t).1
  show V c main_arg0 (((cfg0.win 0).blk t).view.emb (ix2 p k)) = V c main_arg0 _
  congr 1; funext a; apply Fin.ext
  match a with
  | ⟨0, _⟩ => show win0_0.index t (0 : Fin 2) * 1000 + 1 * p.val = 1000 * t.val + p.val; rw [e.1]; omega
  | ⟨1, _⟩ => show win0_0.index t (1 : Fin 2) * 1553 + 1 * k.val = k.val; rw [e.2]; omega

theorem blk1_eq (c : Dev nD) (t : Fin cfg0.N) : (iblk0 (F := Ideal) V c 1 t : Vec Ideal S6x128 .f32) = (V c main_arg7 : S6x128.Idx → EReal) := by
  have e := (idx_whole t).1
  funext y
  show V c main_arg7 (((cfg0.win 1).blk t).view.emb y) = V c main_arg7 y
  congr 1; funext a; apply Fin.ext
  match a with
  | ⟨0, _⟩ => show win0_1.index t (0 : Fin 2) * 6 + 1 * (y 0).val = (y 0).val; rw [e.1]; omega
  | ⟨1, _⟩ => show win0_1.index t (1 : Fin 2) * 128 + 1 * (y 1).val = (y 1).val; rw [e.2]; omega

theorem blk2_eq (c : Dev nD) (t : Fin cfg0.N) : (iblk0 (F := Ideal) V c 2 t : Vec Ideal S128 .f32) = (V c main_arg8 : S128.Idx → EReal) := by
  have e := (idx_whole t).2.1
  funext y
  show V c main_arg8 (((cfg0.win 2).blk t).view.emb y) = V c main_arg8 y
  congr 1; funext a; apply Fin.ext
  match a with
  | ⟨0, _⟩ => show win0_2.index t (0 : Fin 1) * 128 + 1 * (y 0).val = (y 0).val; rw [e]; omega

theorem blk3_eq (c : Dev nD) (t : Fin cfg0.N) : (iblk0 (F := Ideal) V c 3 t : Vec Ideal S768x128 .f32) = (V c main_arg5 : S768x128.Idx → EReal) := by
  have e := (idx_whole t).2.2.1
  funext y
  show V c main_arg5 (((cfg0.win 3).blk t).view.emb y) = V c main_arg5 y
  congr 1; funext a; apply Fin.ext
  match a with
  | ⟨0, _⟩ => show win0_3.index t (0 : Fin 2) * 768 + 1 * (y 0).val = (y 0).val; rw [e.1]; omega
  | ⟨1, _⟩ => show win0_3.index t (1 : Fin 2) * 128 + 1 * (y 1).val = (y 1).val; rw [e.2]; omega

theorem blk4_eq (c : Dev nD) (t : Fin cfg0.N) : (iblk0 (F := Ideal) V c 4 t : Vec Ideal S128 .f32) = (V c main_arg6 : S128.Idx → EReal) := by
  have e := (idx_whole t).2.2.2.1
  funext y
  show V c main_arg6 (((cfg0.win 4).blk t).view.emb y) = V c main_arg6 y
  congr 1; funext a; apply Fin.ext
  match a with
  | ⟨0, _⟩ => show win0_4.index t (0 : Fin 1) * 128 + 1 * (y 0).val = (y 0).val; rw [e]; omega

theorem blk5_eq (c : Dev nD) (t : Fin cfg0.N) : (iblk0 (F := Ideal) V c 5 t : Vec Ideal S11x128 .f32) = (V c main_arg9 : S11x128.Idx → EReal) := by
  have e := (idx_whole t).2.2.2.2.1
  funext y
  show V c main_arg9 (((cfg0.win 5).blk t).view.emb y) = V c main_arg9 y
  congr 1; funext a; apply Fin.ext
  match a with
  | ⟨0, _⟩ => show win0_5.index t (0 : Fin 2) * 11 + 1 * (y 0).val = (y 0).val; rw [e.1]; omega
  | ⟨1, _⟩ => show win0_5.index t (1 : Fin 2) * 128 + 1 * (y 1).val = (y 1).val; rw [e.2]; omega

theorem blk6_eq (c : Dev nD) (t : Fin cfg0.N) : (iblk0 (F := Ideal) V c 6 t : Vec Ideal S128 .f32) = (V c main_arg10 : S128.Idx → EReal) := by
  have e := (idx_whole t).2.2.2.2.2.1
  funext y
  show V c main_arg10 (((cfg0.win 6).blk t).view.emb y) = V c main_arg10 y
  congr 1; funext a; apply Fin.ext
  match a with
  | ⟨0, _⟩ => show win0_6.index t (0 : Fin 1) * 128 + 1 * (y 0).val = (y 0).val; rw [e]; omega

theorem blk7_eq (c : Dev nD) (t : Fin cfg0.N) : (iblk0 (F := Ideal) V c 7 t : Vec Ideal S768x128 .f32) = (V c main_arg3 : S768x128.Idx → EReal) := by
  have e := (idx_whole t).2.2.2.2.2.2.1
  funext y
  show V c main_arg3 (((cfg0.win 7).blk t).view.emb y) = V c main_arg3 y
  congr 1; funext a; apply Fin.ext
  match a with
  | ⟨0, _⟩ => show win0_7.index t (0 : Fin 2) * 768 + 1 * (y 0).val = (y 0).val; rw [e.1]; omega
  | ⟨1, _⟩ => show win0_7.index t (1 : Fin 2) * 128 + 1 * (y 1).val = (y 1).val; rw [e.2]; omega

theorem blk8_eq (c : Dev nD) (t : Fin cfg0.N) : (iblk0 (F := Ideal) V c 8 t : Vec Ideal S128 .f32) = (V c main_arg4 : S128.Idx → EReal) := by
  have e := (idx_whole t).2.2.2.2.2.2.2.1
  funext y
  show V c main_arg4 (((cfg0.win 8).blk t).view.emb y) = V c main_arg4 y
  congr 1; funext a; apply Fin.ext
  match a with
  | ⟨0, _⟩ => show win0_8.index t (0 : Fin 1) * 128 + 1 * (y 0).val = (y 0).val; rw [e]; omega

theorem blk9_eq (c : Dev nD) (t : Fin cfg0.N) : (iblk0 (F := Ideal) V c 9 t : Vec Ideal S512x128 .f32) = (V c main_arg11 : S512x128.Idx → EReal) := by
  have e := (idx_whole t).2.2.2.2.2.2.2.2.1
  funext y
  show V c main_arg11 (((cfg0.win 9).blk t).view.emb y) = V c main_arg11 y
  congr 1; funext a; apply Fin.ext
  match a with
  | ⟨0, _⟩ => show win0_9.index t (0 : Fin 2) * 512 + 1 * (y 0).val = (y 0).val; rw [e.1]; omega
  | ⟨1, _⟩ => show win0_9.index t (1 : Fin 2) * 128 + 1 * (y 1).val = (y 1).val; rw [e.2]; omega

theorem blk10_eq (c : Dev nD) (t : Fin cfg0.N) : (iblk0 (F := Ideal) V c 10 t : Vec Ideal S128 .f32) = (V c main_arg12 : S128.Idx → EReal) := by
  have e := (idx_whole t).2.2.2.2.2.2.2.2.2.1
  funext y
  show V c main_arg12 (((cfg0.win 10).blk t).view.emb y) = V c main_arg12 y
  congr 1; funext a; apply Fin.ext
  match a with
  | ⟨0, _⟩ => show win0_10.index t (0 : Fin 1) * 128 + 1 * (y 0).val = (y 0).val; rw [e]; omega

theorem blk11_eq (c : Dev nD) (t : Fin cfg0.N) : (iblk0 (F := Ideal) V c 11 t : Vec Ideal S128 .f32) = (V c main_arg13 : S128.Idx → EReal) := by
  have e := (idx_whole t).2.2.2.2.2.2.2.2.2.2
  funext y
  show V c main_arg13 (((cfg0.win 11).blk t).view.emb y) = V c main_arg13 y
  congr 1; funext a; apply Fin.ext
  match a with
  | ⟨0, _⟩ => show win0_11.index t (0 : Fin 1) * 128 + 1 * (y 0).val = (y 0).val; rw [e]; omega

/-- The output's buffer after the body at any index of the block. -/
theorem out_at (x0 : Vec Ideal S1000x1553 .f32) (x1 : Vec Ideal S6x128 .f32) (x2 : Vec Ideal S128 .f32) (x3 : Vec Ideal S768x128 .f32)
    (x4 : Vec Ideal S128 .f32) (x5 : Vec Ideal S11x128 .f32) (x6 : Vec Ideal S128 .f32) (x7 : Vec Ideal S768x128 .f32) (x8 : Vec Ideal S128 .f32)
    (x9 : Vec Ideal S512x128 .f32) (x10 : Vec Ideal S128 .f32) (x11 : Vec Ideal S128 .f32) (y : S1000x128.Idx) :
    out0_12 (F := Ideal) x0 x1 x2 x3 x4 x5 x6 x7 x8 x9 x10 x11 y = stemR (R := 1000) x0 x1 x2 x3 x4 x5 x6 x7 x8 x9 x10 x11 (y 0) (y 1) := by
  obtain ⟨p, q, rfl⟩ : ∃ (p : Fin 1000) (q : Fin 128), y = ix2 p q := ⟨y 0, y 1, eq_ix2 y⟩
  exact out_apply x0 x1 x2 x3 x4 x5 x6 x7 x8 x9 x10 x11 p q

/-- What point t writes back is block t of the stem of the arrays the region found. -/
theorem flushed_eq (c : Dev nD) (t : Fin cfg0.N) :
    (dat0 (F := Ideal) V c).flushed 12 t = ((cfg0.win 12).blk t).view.read (Elt Ideal)
      (Cert.Spec.stemA (V c main_arg0) (V c main_arg7) (V c main_arg8) (V c main_arg5) (V c main_arg6) (V c main_arg9) (V c main_arg10) (V c main_arg3) (V c main_arg4) (V c main_arg11) (V c main_arg12) (V c main_arg13)) := by
  show (cfg0.win 12).cut (grid0.coords t) ((dat0 V c).after 12 t) = _
  rw [after0_12]
  funext j
  have ht : t.val < 100 := lt_of_lt_of_eq t.isLt N_0
  have e := (idx_rows t).2
  refine (out_at _ _ _ _ _ _ _ _ _ _ _ _ _).trans ?_
  refine (stemR_rows (V c main_arg0) _ (V c main_arg7) _ (V c main_arg8) _ (V c main_arg5) _ (V c main_arg6) _ (V c main_arg9) _ (V c main_arg10) _ (V c main_arg3) _ (V c main_arg4) _ (V c main_arg11) _ (V c main_arg12) _ (V c main_arg13) _ t.val ht (blk0_apply V c t)
    (blk1_eq V c t) (blk2_eq V c t) (blk3_eq V c t) (blk4_eq V c t) (blk5_eq V c t) (blk6_eq V c t) (blk7_eq V c t) (blk8_eq V c t)
    (blk9_eq V c t) (blk10_eq V c t) (blk11_eq V c t) _ _).trans ?_
  show _ = Cert.Spec.stem (V c main_arg0) (V c main_arg7) (V c main_arg8) (V c main_arg5) (V c main_arg6) (V c main_arg9) (V c main_arg10) (V c main_arg3) (V c main_arg4) (V c main_arg11) (V c main_arg12) (V c main_arg13)
    ⟨((((cfg0.win 12).blk t).view.emb j) 0).val, _⟩ ⟨((((cfg0.win 12).blk t).view.emb j) 1).val, _⟩
  congr 1 <;> apply Fin.ext
  · show 1000 * t.val + (j 0).val = win0_12.index t (0 : Fin 2) * 1000 + 1 * (j 0).val
    rw [e.1]; omega
  · show (j 1).val = win0_12.index t (1 : Fin 2) * 128 + 1 * (j 1).val
    rw [e.2]; omega

/-- An index of the array is in point t's block iff each coordinate is in the block's range on its axis. -/
theorem mem_blk (t : Fin cfg0.N) (i : S100000x128.Idx) :
    i ∈ ((cfg0.win 12).blk t).view.set ↔ ∀ a : Fin 2, win0_12.index t a * S1000x128.size a ≤ (i a).val
      ∧ (i a).val < win0_12.index t a * S1000x128.size a + S1000x128.size a := by
  show i ∈ ((View.whole main_v0).slice (win0_12.rect t)).set ↔ _
  rw [View.set_slice_whole, Rect.mem_set_unit]
  exact Iff.rfl

/-- The stem region's output array after its last grid point is the stem of the arrays the region found. -/
theorem stem_arr (c : Dev nD) :
    (dat0 (F := Ideal) V c).arrAt 12 cfg0.N
      = Cert.Spec.stemA (V c main_arg0) (V c main_arg7) (V c main_arg8) (V c main_arg5) (V c main_arg6) (V c main_arg9)
          (V c main_arg10) (V c main_arg3) (V c main_arg4) (V c main_arg11) (V c main_arg12) (V c main_arg13) := by
  refine (dat0 (F := Ideal) V c).arrAt_eq_of_cover 12 _ (fun t _ => flushed_eq V c t) fun i => ?_
  have hi0 : (i 0).val < 100000 := (i 0).isLt
  have hi1 : (i 1).val < 128 := (i 1).isLt
  have hN : cfg0.N = 100 := N_0
  refine ⟨⟨(i 0).val / 1000, by rw [hN]; omega⟩, flush0_12 _, ?_⟩
  rw [mem_blk]
  have e := (idx_rows ⟨(i 0).val / 1000, by rw [hN]; omega⟩).2
  intro a
  match a with
  | ⟨0, _⟩ =>
    show win0_12.index _ (0 : Fin 2) * 1000 ≤ (i 0).val ∧ (i 0).val < win0_12.index _ (0 : Fin 2) * 1000 + 1000
    rw [e.1]; show (i 0).val / 1000 * 1000 ≤ (i 0).val ∧ (i 0).val < (i 0).val / 1000 * 1000 + 1000; omega
  | ⟨1, _⟩ =>
    show win0_12.index _ (1 : Fin 2) * 128 ≤ (i 1).val ∧ (i 1).val < win0_12.index _ (1 : Fin 2) * 128 + 128
    rw [e.2]; omega

end Cert.KernelIdeal.StemValue

end
-- ==== Proof.CombineValue.lean ====
/-
  What the two combine regions leave in their output arrays: block t holds rows 4000 t … 4000 t + 3999; the body
  computes, row by row, the affine map of h plus the two relations' mean rows times their matrices (and, in the
  last region, the classifier on top), and the blocks tile the array.

  The arithmetic is read once, over a block of R rows (R = 4000 in the body, R = 100000 in the specification): the
  matrix product into the zero block is a sum over the 128 contraction indices, the bias is one row laid over the
  block, the count column r is max'd with one and laid over the 128 columns, the aggregate's columns 128 r … are
  divided by it, and slab r of the relations' matrices is a [128,128] matrix. Then each block is rows of its array
  (the weights are whole at every point), so point t writes rows 4000 t … of the specification's array, and row r
  lies in the block of point r / 4000.
-/
import proofs.«426800_j14224931684700_3_alg».proof.Proof.Gen.KernelIdeal.Frame
import proofs.«426800_j14224931684700_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arithmetic of one block, index by index -/

/-- The combine over R rows: the affine map of row n of h, plus for each relation the mean row times the
    relation's matrix, relation 0 first. At R = 100000 it is the specification's. -/
def combineR {R : Nat} (h : (Spec.Sh2 R 128).Idx → EReal) (root : (Spec.Sh2 128 128).Idx → EReal)
    (rel : (Spec.Sh3 2 128 128).Idx → EReal) (bias : (Spec.Sh1 128).Idx → EReal)
    (agg : (Spec.Sh2 R 256).Idx → EReal) (cnt : (Spec.Sh2 R 2).Idx → EReal) (n : Fin R) (j : Fin 128) : EReal :=
  (((∑ k : Fin 128, h (ix2 n k) * root (ix2 k j)) + bias (ix1 j))
    + ∑ k : Fin 128, Ideal.div (agg (ix2 n ⟨k.val, by have := k.isLt; omega⟩)) (max (cnt (ix2 n (0 : Fin 2))) Spec.oneF)
        * rel (ix3 (0 : Fin 2) k j))
    + ∑ k : Fin 128, Ideal.div (agg (ix2 n ⟨128 + k.val, by have := k.isLt; omega⟩)) (max (cnt (ix2 n (1 : Fin 2))) Spec.oneF)
        * rel (ix3 (1 : Fin 2) k j)

/-- The classifier over R rows. -/
def clsR {R : Nat} (h : (Spec.Sh2 R 128).Idx → EReal) (W : (Spec.Sh2 128 128).Idx → EReal)
    (b : (Spec.Sh1 128).Idx → EReal) (n : Fin R) (j : Fin 128) : EReal :=
  (∑ k : Fin 128, h (ix2 n k) * W (ix2 k j)) + b (ix1 j)

theorem combineR_eq (h : (Spec.Sh2 100000 128).Idx → EReal) (root : (Spec.Sh2 128 128).Idx → EReal)
    (rel : (Spec.Sh3 2 128 128).Idx → EReal) (bias : (Spec.Sh1 128).Idx → EReal)
    (agg : (Spec.Sh2 100000 256).Idx → EReal) (cnt : (Spec.Sh2 100000 2).Idx → EReal) (n : Fin 100000) (j : Fin 128) :
    combineR h root rel bias agg cnt n j = Spec.combine h root rel bias agg cnt n j := rfl

theorem clsR_eq (h : (Spec.Sh2 100000 128).Idx → EReal) (W : (Spec.Sh2 128 128).Idx → EReal)
    (b : (Spec.Sh1 128).Idx → EReal) (n : Fin 100000) (j : Fin 128) :
    clsR h W b n j = Spec.cls h W b n j := rfl

/-! ### The matrix product into a zero accumulator -/

theorem mm_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mm_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mm_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product into the zero block, at (p, q): row p of the left times column q of the right. -/
theorem mm_apply {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-! ### The layout operations of the body, at an index -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias row laid over the block: at (p, q) it is b(q). -/
theorem bias_row_apply (x3 : Vec Ideal S128 .f32) (p : Fin 4000) (q : Fin 128) :
    broadcastTo S4000x128 (shapeCast S1x128 x3 shapeCasts_S128_S1x128) broadcasts_S1x128_S4000x128 (ix2 p q) = x3 (ix1 q) := by
  rw [broadcastTo_1b_ab_apply, shapeCast_a_1a_apply]

/-- Slab r of the relations' matrices as a [128,128] matrix: at (k, q) it is rel(r, k, q). -/
theorem rel_slab_apply (x2 : Vec Ideal S2x128x128 .f32) (r : Fin 2) (off : Fin 3 → Nat) (hoff : off = ![r.val, 0, 0])
    (hs : S2x128x128.Slices off S1x128x128) (k q : Fin 128) :
    shapeCast S128x128 (extractStridedSlice S1x128x128 off x2 hs) shapeCasts_S1x128x128_S128x128 (ix2 k q) = x2 (ix3 r k q) := by
  subst hoff
  rw [shapeCast_1ab_ab_apply]
  refine extractStridedSlice_apply _ x2 hs _ (ix3 r k q) fun ax => ?_
  match ax with
  | ⟨0, _⟩ => rfl
  | ⟨1, _⟩ => exact (Nat.zero_add _).symm
  | ⟨2, _⟩ => exact (Nat.zero_add _).symm

/-- THE PAYLOAD AT AN INDEX: entry (p, q) of the block the body computes is the combine of the loaded blocks at row p. -/
theorem pay_apply (x0 : Vec Ideal S4000x128 .f32) (x1 : Vec Ideal S128x128 .f32) (x2 : Vec Ideal S2x128x128 .f32)
    (x3 : Vec Ideal S128 .f32) (x4 : Vec Ideal S4000x256 .f32) (x5 : Vec Ideal S4000x2 .f32) (p : Fin 4000) (q : Fin 128) :
    k1_pay1 (F := Ideal) x0 x1 x2 x3 x4 x5 (ix2 p q) = combineR (R := 4000) x0 x1 x2 x3 x4 x5 p q := by
  unfold k1_pay1 combineR
  simp only [shapeCast_self]
  rw [addf_apply, addf_apply, addf_apply, mm_apply, mm_apply, mm_apply, bias_row_apply]
  refine congrArg₂ (· + ·) (congrArg₂ (· + ·) rfl (Finset.sum_congr rfl fun k _ => ?_)) (Finset.sum_congr rfl fun k _ => ?_)
  · simp only [truncf_apply, divf_apply, broadcastTo_a1_ab_apply, maximumf_apply, broadcast_apply]
    rw [rel_slab_apply x2 0 ![0, 0, 0] rfl, slice2_axis1_apply 0 x4 _ p k ⟨k.val, by have := k.isLt; omega⟩ (Nat.zero_add _).symm,
      slice2_axis1_apply 0 x5 _ p (0 : Fin 1) (0 : Fin 2) rfl]
    rfl
  · simp only [truncf_apply, divf_apply, broadcastTo_a1_ab_apply, maximumf_apply, broadcast_apply]
    rw [rel_slab_apply x2 1 ![1, 0, 0] rfl, slice2_axis1_apply 128 x4 _ p k ⟨128 + k.val, by have := k.isLt; omega⟩ rfl,
      slice2_axis1_apply 1 x5 _ p (0 : Fin 1) (1 : Fin 2) rfl]
    rfl

/-! ## From blocks to the array -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A block of 4000 rows that is rows 4000 t … 4000 t + 3999 of the arrays, beside the whole weight arrays, combines to the
    specification's combine at row 4000 t + p. -/
theorem combineR_rows (H : (Spec.Sh2 100000 128).Idx → EReal) (root : (Spec.Sh2 128 128).Idx → EReal)
    (rel : (Spec.Sh3 2 128 128).Idx → EReal) (bias : (Spec.Sh1 128).Idx → EReal)
    (AG : (Spec.Sh2 100000 256).Idx → EReal) (CN : (Spec.Sh2 100000 2).Idx → EReal)
    (x0 : Vec Ideal S4000x128 .f32) (x1 : Vec Ideal S128x128 .f32) (x2 : Vec Ideal S2x128x128 .f32)
    (x3 : Vec Ideal S128 .f32) (x4 : Vec Ideal S4000x256 .f32) (x5 : Vec Ideal S4000x2 .f32)
    (t : Nat) (ht : t < 25)
    (h0 : ∀ (p : Fin 4000) (k : Fin 128), x0 (ix2 p k) = H (ix2 ⟨4000 * t + p.val, by have := p.isLt; omega⟩ k))
    (h1 : x1 = root) (h2 : x2 = rel) (h3 : x3 = bias)
    (h4 : ∀ (p : Fin 4000) (k : Fin 256), x4 (ix2 p k) = AG (ix2 ⟨4000 * t + p.val, by have := p.isLt; omega⟩ k))
    (h5 : ∀ (p : Fin 4000) (r : Fin 2), x5 (ix2 p r) = CN (ix2 ⟨4000 * t + p.val, by have := p.isLt; omega⟩ r))
    (p : Fin 4000) (q : Fin 128) (n : Fin 100000) (j : Fin 128) (hn : n.val = 4000 * t + p.val) (hj : j.val = q.val) :
    combineR x0 x1 x2 x3 x4 x5 p q = Spec.combine H root rel bias AG CN n j := by
  rw [show n = ⟨4000 * t + p.val, by have := p.isLt; omega⟩ from Fin.ext hn, show j = q from Fin.ext hj]
  subst h1 h2 h3
  unfold combineR Spec.combine Spec.aff Spec.rowOf
  simp only [h0, h4, h5]

/-- The index maps of region 1, decided over the grid: the row-blocked windows are at block t, the weights at block 0. -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 3) = 0 ∧ win1_2.index t (1 : Fin 3) = 0 ∧ win1_2.index t (2 : Fin 3) = 0)
    ∧ (win1_3.index t (0 : Fin 1) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

theorem lt25_1 (t : Fin cfg1.N) : t.val < 25 := by have h := t.isLt; have e : cfg1.N = 25 := N_1; omega

/-- Window 0's block at point t is rows 4000 t … of h. -/
theorem blk1_0 (c : Dev nD) (t : Fin cfg1.N) (p : Fin 4000) (k : Fin 128) :
    (iblk1 V c 0 t : Vec Ideal S4000x128 .f32) (ix2 p k)
      = (V c main_v0 : S100000x128.Idx → EReal) (ix2 ⟨4000 * t.val + p.val, by have := p.isLt; have := lt25_1 t; omega⟩ k) := by
  obtain ⟨⟨e0, e1⟩, -⟩ := idx_facts1 t
  unfold iblk1
  rw [View.read_apply]
  show V c main_v0 _ = V c main_v0 _
  congr 1
  funext a
  apply Fin.ext
  match a with
  | ⟨0, _⟩ => show win1_0.index t 0 * 4000 + 1 * p.val = 4000 * t.val + p.val; rw [e0]; omega
  | ⟨1, _⟩ => show win1_0.index t 1 * 128 + 1 * k.val = k.val; rw [e1]; omega

/-- Window 1's block at every point is the whole array. -/
theorem blk1_1 (c : Dev nD) (t : Fin cfg1.N) :
    (iblk1 V c 1 t : Vec Ideal S128x128 .f32) = (V c main_arg14 : S128x128.Idx → EReal) := by
  obtain ⟨-, ⟨e0, e1⟩, -⟩ := idx_facts1 t
  funext y
  unfold iblk1
  rw [View.read_apply]
  show V c main_arg14 _ = V c main_arg14 y
  congr 1
  funext a
  apply Fin.ext
  match a with
  | ⟨0, _⟩ => show win1_1.index t 0 * 128 + 1 * (y 0).val = (y 0).val; rw [e0]; omega
  | ⟨1, _⟩ => show win1_1.index t 1 * 128 + 1 * (y 1).val = (y 1).val; rw [e1]; omega

/-- Window 2's block at every point is the whole array. -/
theorem blk1_2 (c : Dev nD) (t : Fin cfg1.N) :
    (iblk1 V c 2 t : Vec Ideal S2x128x128 .f32) = (V c main_arg15 : S2x128x128.Idx → EReal) := by
  obtain ⟨-, -, ⟨e0, e1, e2⟩, -⟩ := idx_facts1 t
  funext y
  unfold iblk1
  rw [View.read_apply]
  show V c main_arg15 _ = V c main_arg15 y
  congr 1
  funext a
  apply Fin.ext
  match a with
  | ⟨0, _⟩ => show win1_2.index t 0 * 2 + 1 * (y 0).val = (y 0).val; rw [e0]; omega
  | ⟨1, _⟩ => show win1_2.index t 1 * 128 + 1 * (y 1).val = (y 1).val; rw [e1]; omega
  | ⟨2, _⟩ => show win1_2.index t 2 * 128 + 1 * (y 2).val = (y 2).val; rw [e2]; omega

/-- Window 3's block at every point is the whole array. -/
theorem blk1_3 (c : Dev nD) (t : Fin cfg1.N) :
    (iblk1 V c 3 t : Vec Ideal S128 .f32) = (V c main_arg16 : S128.Idx → EReal) := by
  obtain ⟨-, -, -, e0, -⟩ := idx_facts1 t
  funext y
  unfold iblk1
  rw [View.read_apply]
  show V c main_arg16 _ = V c main_arg16 y
  congr 1
  funext a
  apply Fin.ext
  match a with
  | ⟨0, _⟩ => show win1_3.index t 0 * 128 + 1 * (y 0).val = (y 0).val; rw [e0]; omega

/-- Window 4's block at point t is rows 4000 t … of the aggregate. -/
theorem blk1_4 (c : Dev nD) (t : Fin cfg1.N) (p : Fin 4000) (k : Fin 256) :
    (iblk1 V c 4 t : Vec Ideal S4000x256 .f32) (ix2 p k)
      = (V c main_v23 : S100000x256.Idx → EReal) (ix2 ⟨4000 * t.val + p.val, by have := p.isLt; have := lt25_1 t; omega⟩ k) := by
  obtain ⟨-, -, -, -, ⟨e0, e1⟩, -⟩ := idx_facts1 t
  unfold iblk1
  rw [View.read_apply]
  show V c main_v23 _ = V c main_v23 _
  congr 1
  funext a
  apply Fin.ext
  match a with
  | ⟨0, _⟩ => show win1_4.index t 0 * 4000 + 1 * p.val = 4000 * t.val + p.val; rw [e0]; omega
  | ⟨1, _⟩ => show win1_4.index t 1 * 256 + 1 * k.val = k.val; rw [e1]; omega

/-- Window 5's block at point t is rows 4000 t … of the counts. -/
theorem blk1_5 (c : Dev nD) (t : Fin cfg1.N) (p : Fin 4000) (k : Fin 2) :
    (iblk1 V c 5 t : Vec Ideal S4000x2 .f32) (ix2 p k)
      = (V c main_v12 : S100000x2.Idx → EReal) (ix2 ⟨4000 * t.val + p.val, by have := p.isLt; have := lt25_1 t; omega⟩ k) := by
  obtain ⟨-, -, -, -, -, ⟨e0, e1⟩, -⟩ := idx_facts1 t
  unfold iblk1
  rw [View.read_apply]
  show V c main_v12 _ = V c main_v12 _
  congr 1
  funext a
  apply Fin.ext
  match a with
  | ⟨0, _⟩ => show win1_5.index t 0 * 4000 + 1 * p.val = 4000 * t.val + p.val; rw [e0]; omega
  | ⟨1, _⟩ => show win1_5.index t 1 * 2 + 1 * k.val = k.val; rw [e1]; omega

/-- WHAT POINT t WRITES BACK is block t of the combine of the arrays the region found. -/
theorem flushed1_eq (c : Dev nD) (t : Fin cfg1.N) :
    (dat1 (F := Ideal) V c).flushed 6 t = ((cfg1.win 6).blk t).view.read (Elt Ideal)
      (Spec.combineA (V c main_v0) (V c main_arg14) (V c main_arg15) (V c main_arg16) (V c main_v23) (V c main_v12)) := by
  show (cfg1.win 6).cut (grid1.coords t) ((dat1 (F := Ideal) V c).after 6 t) = _
  rw [after1_6]
  unfold out1_6
  rw [View.canon_unit_zero hz2]
  simp only [View.ld_unit_zero (S := S4000x128) hz2, View.ld_unit_zero (S := S128x128) hz2, View.ld_unit_zero (S := S2x128x128) hz3,
    View.ld_unit_zero (S := S128) hz1, View.ld_unit_zero (S := S4000x256) hz2, View.ld_unit_zero (S := S4000x2) hz2]
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = Spec.combineA (V c main_v0) (V c main_arg14) (V c main_arg15) (V c main_arg16) (V c main_v23) (V c main_v12)
        (((cfg1.win 6).blk t).view.emb (ix2 p q))
  refine (pay_apply _ _ _ _ _ _ p q).trans ?_
  obtain ⟨-, -, -, -, -, -, e0, e1⟩ := idx_facts1 t
  refine combineR_rows (V c main_v0) (V c main_arg14) (V c main_arg15) (V c main_arg16) (V c main_v23) (V c main_v12) _ _ _ _ _ _
    t.val (lt25_1 t) (blk1_0 V c t) (blk1_1 V c t) (blk1_2 V c t) (blk1_3 V c t) (blk1_4 V c t) (blk1_5 V c t) p q _ _ ?_ ?_
  · show win1_6.index t 0 * 4000 + 1 * p.val = 4000 * t.val + p.val; rw [e0]; omega
  · show win1_6.index t 1 * 128 + 1 * q.val = q.val; rw [e1]; omega

/-- An index of the array is in point t's block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v24).slice (win1_6.rect t)).set ↔ _
  rw [View.set_slice_whole, Rect.mem_set_unit]
  exact Iff.rfl

/-- Row r is in the block of point r / 4000: the 25 blocks tile the array. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by omega⟩, rfl⟩
  obtain ⟨-, -, -, -, -, -, e0, e1⟩ := idx_facts1 t
  refine ⟨t, flush1_6 t, ?_⟩
  rw [mem_blk1]
  intro a
  match a with
  | ⟨0, _⟩ => show win1_6.index t 0 * 4000 ≤ (i 0).val ∧ (i 0).val < win1_6.index t 0 * 4000 + 4000; rw [e0]; omega
  | ⟨1, _⟩ => show win1_6.index t 1 * 128 ≤ (i 1).val ∧ (i 1).val < win1_6.index t 1 * 128 + 128; rw [e1]; omega

/-- The first combine region's output array is the combine of the arrays the region found. -/
theorem combine_arr (c : Dev nD) :
    (dat1 (F := Ideal) V c).arrAt 6 cfg1.N
      = Cert.Spec.combineA (V c main_v0) (V c main_arg14) (V c main_arg15) (V c main_arg16) (V c main_v23) (V c main_v12) :=
  (dat1 (F := Ideal) V c).arrAt_eq_of_cover 6 _ (fun t _ => flushed1_eq V c t) cover1

/-! ## The second region: the classifier on top -/

/-- The second region's inner arithmetic is the first's, word for word. -/
theorem k2_pay2_eq (x0 : Vec Ideal S4000x128 .f32) (x1 : Vec Ideal S128x128 .f32) (x2 : Vec Ideal S2x128x128 .f32)
    (x3 : Vec Ideal S128 .f32) (x4 : Vec Ideal S4000x256 .f32) (x5 : Vec Ideal S4000x2 .f32) :
    k2_pay2 (F := Ideal) x0 x1 x2 x3 x4 x5 = k1_pay1 (F := Ideal) x0 x1 x2 x3 x4 x5 := rfl

/-- THE CLASSIFIER'S PAYLOAD AT AN INDEX: entry (p, q) is row p of the block it is given times column q of W, plus b(q). -/
theorem cls_pay_apply (y : FVec Ideal S4000x128 .f32) (x6 : Vec Ideal S128x128 .f32) (x7 : Vec Ideal S128 .f32)
    (p : Fin 4000) (q : Fin 128) :
    k2_pay1 (F := Ideal) y x6 x7 (ix2 p q) = clsR (R := 4000) y x6 x7 p q := by
  unfold k2_pay1 clsR
  rw [addf_apply, mm_apply, bias_row_apply]
  rfl

/-- A block of 4000 rows that is rows 4000 t … of an array, beside the whole weight arrays, classifies to the
    specification's classifier at row 4000 t + p. -/
theorem clsR_rows (Hc : (Spec.Sh2 100000 128).Idx → EReal) (W : (Spec.Sh2 128 128).Idx → EReal) (b : (Spec.Sh1 128).Idx → EReal)
    (y : FVec Ideal S4000x128 .f32) (x6 : Vec Ideal S128x128 .f32) (x7 : Vec Ideal S128 .f32)
    (t : Nat) (ht : t < 25)
    (hy : ∀ (p : Fin 4000) (k : Fin 128), y (ix2 p k) = Hc (ix2 ⟨4000 * t + p.val, by have := p.isLt; omega⟩ k))
    (h6 : x6 = W) (h7 : x7 = b)
    (p : Fin 4000) (q : Fin 128) (n : Fin 100000) (j : Fin 128) (hn : n.val = 4000 * t + p.val) (hj : j.val = q.val) :
    clsR y x6 x7 p q = Spec.cls Hc W b n j := by
  rw [show n = ⟨4000 * t + p.val, by have := p.isLt; omega⟩ from Fin.ext hn, show j = q from Fin.ext hj]
  subst h6 h7
  unfold clsR Spec.cls Spec.aff Spec.rowOf
  simp only [hy]

/-- The index maps of region 2, decided over the grid: the row-blocked windows are at block t, the weights at block 0. -/
theorem idx_facts2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 3) = 0 ∧ win2_2.index t (1 : Fin 3) = 0 ∧ win2_2.index t (2 : Fin 3) = 0)
    ∧ (win2_3.index t (0 : Fin 1) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 1) = 0)
    ∧ (win2_8.index t (0 : Fin 2) = t.val ∧ win2_8.index t (1 : Fin 2) = 0) :=
  (by decide +kernel : ∀ t : Fin grid2.N, _)

theorem lt25_2 (t : Fin cfg2.N) : t.val < 25 := by have h := t.isLt; have e : cfg2.N = 25 := N_2; omega

/-- Window 0's block at point t is rows 4000 t … of h. -/
theorem blk2_0 (c : Dev nD) (t : Fin cfg2.N) (p : Fin 4000) (k : Fin 128) :
    (iblk2 V c 0 t : Vec Ideal S4000x128 .f32) (ix2 p k)
      = (V c main_v24 : S100000x128.Idx → EReal) (ix2 ⟨4000 * t.val + p.val, by have := p.isLt; have := lt25_2 t; omega⟩ k) := by
  obtain ⟨⟨e0, e1⟩, -⟩ := idx_facts2 t
  unfold iblk2
  rw [View.read_apply]
  show V c main_v24 _ = V c main_v24 _
  congr 1
  funext a
  apply Fin.ext
  match a with
  | ⟨0, _⟩ => show win2_0.index t 0 * 4000 + 1 * p.val = 4000 * t.val + p.val; rw [e0]; omega
  | ⟨1, _⟩ => show win2_0.index t 1 * 128 + 1 * k.val = k.val; rw [e1]; omega

/-- Window 1's block at every point is the whole array. -/
theorem blk2_1 (c : Dev nD) (t : Fin cfg2.N) :
    (iblk2 V c 1 t : Vec Ideal S128x128 .f32) = (V c main_arg17 : S128x128.Idx → EReal) := by
  obtain ⟨-, ⟨e0, e1⟩, -⟩ := idx_facts2 t
  funext y
  unfold iblk2
  rw [View.read_apply]
  show V c main_arg17 _ = V c main_arg17 y
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- Window 2's block at every point is the whole array. -/
theorem blk2_2 (c : Dev nD) (t : Fin cfg2.N) :
    (iblk2 V c 2 t : Vec Ideal S2x128x128 .f32) = (V c main_arg18 : S2x128x128.Idx → EReal) := by
  obtain ⟨-, -, ⟨e0, e1, e2⟩, -⟩ := idx_facts2 t
  funext y
  unfold iblk2
  rw [View.read_apply]
  show V c main_arg18 _ = V c main_arg18 y
  congr 1
  funext a
  apply Fin.ext
  match a with
  | ⟨0, _⟩ => show win2_2.index t 0 * 2 + 1 * (y 0).val = (y 0).val; rw [e0]; omega
  | ⟨1, _⟩ => show win2_2.index t 1 * 128 + 1 * (y 1).val = (y 1).val; rw [e1]; omega
  | ⟨2, _⟩ => show win2_2.index t 2 * 128 + 1 * (y 2).val = (y 2).val; rw [e2]; omega

/-- Window 3's block at every point is the whole array. -/
theorem blk2_3 (c : Dev nD) (t : Fin cfg2.N) :
    (iblk2 V c 3 t : Vec Ideal S128 .f32) = (V c main_arg19 : S128.Idx → EReal) := by
  obtain ⟨-, -, -, e0, -⟩ := idx_facts2 t
  funext y
  unfold iblk2
  rw [View.read_apply]
  show V c main_arg19 _ = V c main_arg19 y
  congr 1
  funext a
  apply Fin.ext
  match a with
  | ⟨0, _⟩ => show win2_3.index t 0 * 128 + 1 * (y 0).val = (y 0).val; rw [e0]; omega

/-- Window 4's block at point t is rows 4000 t … of the aggregate. -/
theorem blk2_4 (c : Dev nD) (t : Fin cfg2.N) (p : Fin 4000) (k : Fin 256) :
    (iblk2 V c 4 t : Vec Ideal S4000x256 .f32) (ix2 p k)
      = (V c main_v35 : S100000x256.Idx → EReal) (ix2 ⟨4000 * t.val + p.val, by have := p.isLt; have := lt25_2 t; omega⟩ k) := by
  obtain ⟨-, -, -, -, ⟨e0, e1⟩, -⟩ := idx_facts2 t
  unfold iblk2
  rw [View.read_apply]
  show V c main_v35 _ = V c main_v35 _
  congr 1
  funext a
  apply Fin.ext
  match a with
  | ⟨0, _⟩ => show win2_4.index t 0 * 4000 + 1 * p.val = 4000 * t.val + p.val; rw [e0]; omega
  | ⟨1, _⟩ => show win2_4.index t 1 * 256 + 1 * k.val = k.val; rw [e1]; omega

/-- Window 5's block at point t is rows 4000 t … of the counts. -/
theorem blk2_5 (c : Dev nD) (t : Fin cfg2.N) (p : Fin 4000) (k : Fin 2) :
    (iblk2 V c 5 t : Vec Ideal S4000x2 .f32) (ix2 p k)
      = (V c main_v12 : S100000x2.Idx → EReal) (ix2 ⟨4000 * t.val + p.val, by have := p.isLt; have := lt25_2 t; omega⟩ k) := by
  obtain ⟨-, -, -, -, -, ⟨e0, e1⟩, -⟩ := idx_facts2 t
  unfold iblk2
  rw [View.read_apply]
  show V c main_v12 _ = V c main_v12 _
  congr 1
  funext a
  apply Fin.ext
  match a with
  | ⟨0, _⟩ => show win2_5.index t 0 * 4000 + 1 * p.val = 4000 * t.val + p.val; rw [e0]; omega
  | ⟨1, _⟩ => show win2_5.index t 1 * 2 + 1 * k.val = k.val; rw [e1]; omega

/-- Window 6's block at every point is the whole array. -/
theorem blk2_6 (c : Dev nD) (t : Fin cfg2.N) :
    (iblk2 V c 6 t : Vec Ideal S128x128 .f32) = (V c main_arg20 : S128x128.Idx → EReal) := by
  obtain ⟨-, -, -, -, -, -, ⟨e0, e1⟩, -⟩ := idx_facts2 t
  funext y
  unfold iblk2
  rw [View.read_apply]
  show V c main_arg20 _ = V c main_arg20 y
  congr 1
  funext a
  apply Fin.ext
  match a with
  | ⟨0, _⟩ => show win2_6.index t 0 * 128 + 1 * (y 0).val = (y 0).val; rw [e0]; omega
  | ⟨1, _⟩ => show win2_6.index t 1 * 128 + 1 * (y 1).val = (y 1).val; rw [e1]; omega

/-- Window 7's block at every point is the whole array. -/
theorem blk2_7 (c : Dev nD) (t : Fin cfg2.N) :
    (iblk2 V c 7 t : Vec Ideal S128 .f32) = (V c main_arg21 : S128.Idx → EReal) := by
  obtain ⟨-, -, -, -, -, -, -, e0, -⟩ := idx_facts2 t
  funext y
  unfold iblk2
  rw [View.read_apply]
  show V c main_arg21 _ = V c main_arg21 y
  congr 1
  funext a
  apply Fin.ext
  match a with
  | ⟨0, _⟩ => show win2_7.index t 0 * 128 + 1 * (y 0).val = (y 0).val; rw [e0]; omega

/-- WHAT POINT t WRITES BACK is block t of the classifier of the combine of the arrays the region found. -/
theorem flushed2_eq (c : Dev nD) (t : Fin cfg2.N) :
    (dat2 (F := Ideal) V c).flushed 8 t = ((cfg2.win 8).blk t).view.read (Elt Ideal)
      (Spec.clsA (Spec.combineA (V c main_v24) (V c main_arg17) (V c main_arg18) (V c main_arg19) (V c main_v35) (V c main_v12))
        (V c main_arg20) (V c main_arg21)) := by
  show (cfg2.win 8).cut (grid2.coords t) ((dat2 (F := Ideal) V c).after 8 t) = _
  rw [after2_8]
  unfold out2_8
  rw [View.canon_unit_zero hz2]
  simp only [View.ld_unit_zero (S := S4000x128) hz2, View.ld_unit_zero (S := S128x128) hz2, View.ld_unit_zero (S := S2x128x128) hz3,
    View.ld_unit_zero (S := S128) hz1, View.ld_unit_zero (S := S4000x256) hz2, View.ld_unit_zero (S := S4000x2) hz2]
  funext j
  obtain ⟨p, q, rfl⟩ : ∃ (p : Fin 4000) (q : Fin 128), j = ix2 p q := ⟨j 0, j 1, eq_ix2 j⟩
  show k2_pay1 (F := Ideal) (k2_pay2 (F := Ideal) (iblk2 V c 0 t) (iblk2 V c 1 t) (iblk2 V c 2 t) (iblk2 V c 3 t) (iblk2 V c 4 t) (iblk2 V c 5 t))
      (iblk2 V c 6 t) (iblk2 V c 7 t) (ix2 p q)
    = Spec.clsA (Spec.combineA (V c main_v24) (V c main_arg17) (V c main_arg18) (V c main_arg19) (V c main_v35) (V c main_v12))
        (V c main_arg20) (V c main_arg21) (((cfg2.win 8).blk t).view.emb (ix2 p q))
  refine (cls_pay_apply _ _ _ p q).trans ?_
  obtain ⟨-, -, -, -, -, -, -, -, e0, e1⟩ := idx_facts2 t
  refine clsR_rows (Spec.combineA (V c main_v24) (V c main_arg17) (V c main_arg18) (V c main_arg19) (V c main_v35) (V c main_v12))
    (V c main_arg20) (V c main_arg21) _ _ _ t.val (lt25_2 t) (fun p' k => ?_) (blk2_6 V c t) (blk2_7 V c t) p q _ _ ?_ ?_
  · rw [k2_pay2_eq]
    refine (pay_apply _ _ _ _ _ _ p' k).trans ?_
    exact combineR_rows (V c main_v24) (V c main_arg17) (V c main_arg18) (V c main_arg19) (V c main_v35) (V c main_v12) _ _ _ _ _ _
      t.val (lt25_2 t) (blk2_0 V c t) (blk2_1 V c t) (blk2_2 V c t) (blk2_3 V c t) (blk2_4 V c t) (blk2_5 V c t) p' k _ _ rfl rfl
  · show win2_8.index t 0 * 4000 + 1 * p.val = 4000 * t.val + p.val; rw [e0]; omega
  · show win2_8.index t 1 * 128 + 1 * q.val = q.val; rw [e1]; omega

/-- An index of the array is in point t's block iff each coordinate is in the block's range on its axis. -/
theorem mem_blk2 (t : Fin cfg2.N) (i : S100000x128.Idx) :
    i ∈ ((cfg2.win 8).blk t).view.set ↔ ∀ a : Fin 2, win2_8.index t a * S4000x128.size a ≤ (i a).val ∧ (i a).val < win2_8.index t a * S4000x128.size a + S4000x128.size a := by
  show i ∈ ((View.whole main_v36).slice (win2_8.rect t)).set ↔ _
  rw [View.set_slice_whole, Rect.mem_set_unit]
  exact Iff.rfl

/-- Row r is in the block of point r / 4000: the 25 blocks tile the array. -/
theorem cover2 (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by omega⟩, rfl⟩
  obtain ⟨-, -, -, -, -, -, -, -, e0, e1⟩ := idx_facts2 t
  refine ⟨t, flush2_8 t, ?_⟩
  rw [mem_blk2]
  intro a
  match a with
  | ⟨0, _⟩ => show win2_8.index t 0 * 4000 ≤ (i 0).val ∧ (i 0).val < win2_8.index t 0 * 4000 + 4000; rw [e0]; omega
  | ⟨1, _⟩ => show win2_8.index t 1 * 128 ≤ (i 1).val ∧ (i 1).val < win2_8.index t 1 * 128 + 128; rw [e1]; omega

/-- The second combine region's output array is the classifier of the combine of the arrays the region found. -/
theorem combine_cls_arr (c : Dev nD) :
    (dat2 (F := Ideal) V c).arrAt 8 cfg2.N
      = Cert.Spec.clsA (Cert.Spec.combineA (V c main_v24) (V c main_arg17) (V c main_arg18) (V c main_arg19) (V c main_v35) (V c main_v12))
          (V c main_arg20) (V c main_arg21) :=
  (dat2 (F := Ideal) V c).arrAt_eq_of_cover 8 _ (fun t _ => flushed2_eq V c t) cover2

end Cert.KernelIdeal.CombineValue

end
-- ==== Proof.HostAgg.lean ====
/-
  The two host stretches between the regions: the edge words (source row, destination row, the bucket word
  2·dst + relation), the edge count per bucket, and the gather of the source rows of h scattered by bucket,
  each result reshaped so that bucket 2 n + r is row n, column block r.
-/
import proofs.«426800_j14224931684700_3_alg».proof.Proof.Gen.KernelIdeal.Frame
import proofs.«426800_j14224931684700_3_alg».proof.Proof.Spec
import proofs.«426800_j14224931684700_3_alg».proof.Proof.LibGather
import proofs.«426800_j14224931684700_3_alg».proof.Proof.LibScatter
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostAgg

open Cert.KernelIdeal Cert.KernelIdeal.Gen Idealize.ShloMosaic Idealize.ShloMosaic.TcCoe Idealize.ShloMosaic.ValueIdx Idealize.SL.Sem

/-- The aggregate with the bucket words given as an array: entry (n, 128 r + k) is the sum of the source rows' entry k
    over the edges whose bucket word, read signed, is 2 n + r. -/
def aggS (h : (Cert.Spec.Sh2 100000 128).Idx → EReal) (srcN : IVec (Cert.Spec.Sh2 1600000 1) 32) (seg : IVec (Cert.Spec.Sh1 1600000) 32) :
    (Cert.Spec.Sh2 100000 256).Idx → EReal :=
  fun i => Cert.Spec.zeroF + ∑ e ∈ Finset.univ.filter (fun e : Fin 1600000 => (seg (ix1 e)).toInt = ((2 * (i 0).val + (i 1).val / 128 : Nat) : Int)),
    h (ix2 (Cert.Spec.srow srcN e) ⟨(i 1).val % 128, Nat.mod_lt _ (by decide)⟩)

/-- With the bucket words computed from the destinations and the relations it is the specification's aggregate. -/
theorem aggS_seg (h : (Cert.Spec.Sh2 100000 128).Idx → EReal) (srcN : IVec (Cert.Spec.Sh2 1600000 1) 32)
    (a1 : IVec (Cert.Spec.Sh2 2 1600000) 32) (a2 : IVec (Cert.Spec.Sh1 1600000) 32) :
    aggS h srcN (addi (muli (shapeCast (Cert.Spec.Sh1 1600000) (extractStridedSlice (Cert.Spec.Sh2 1 1600000) ![1, 0] a1 (by decide)) (by decide)) (broadcastInDim (Cert.Spec.Sh1 1600000) ![] (by decide) (constantI (⟨0, ![]⟩ : Shape) 32 2#32))) a2) = Cert.Spec.aggK h srcN (shapeCast (Cert.Spec.Sh1 1600000) (extractStridedSlice (Cert.Spec.Sh2 1 1600000) ![1, 0] a1 (by decide)) (by decide)) a2 := by
  funext i
  rfl

/-- The index column made of a vector of words reads, at (e, 0), the vector's word e. -/
theorem col_apply {R w : Nat} (hb : (⟨1, ![R]⟩ : Shape).BroadcastsInDim ⟨2, ![R, 1]⟩ ![0]) (seg : IVec ⟨1, ![R]⟩ w) (e : Fin R) :
    broadcastInDim (⟨2, ![R, 1]⟩ : Shape) ![0] hb seg (ix2 e (0 : Fin 1)) = seg (ix1 e) := by
  refine broadcastInDim_apply ![0] hb seg (ix2 e (0 : Fin 1)) (ix1 e) fun a => ?_
  match a with
  | ⟨0, _⟩ =>
    show e.val = if R = 1 then 0 else e.val
    split
    · have := e.isLt
      omega
    · rfl

/-- The count: ones scattered by bucket into zeros, the 200000 buckets laid out as 100000 rows of two. -/
theorem cnt_core (ds : ScatterDims (Cert.Spec.Sh1 200000) (Cert.Spec.Sh2 1600000 1) (Cert.Spec.Sh1 1600000))
    (hu : ds.updateWindowDims = []) (hi : ds.insertedWindowDims = [0]) (hs : ds.scatterDimsToOperandDims = [0])
    (hv : ds.indexVectorDim = 1)
    (seg : IVec (Cert.Spec.Sh1 1600000) 32)
    (hc : (Cert.Spec.Sh1 200000).ShapeCasts (Cert.Spec.Sh2 100000 2))
    (hb0 : (⟨0, ![]⟩ : Shape).BroadcastsInDim (Cert.Spec.Sh1 200000) ![])
    (hb1 : (⟨0, ![]⟩ : Shape).BroadcastsInDim (Cert.Spec.Sh1 1600000) ![])
    (hbi : (Cert.Spec.Sh1 1600000).BroadcastsInDim (Cert.Spec.Sh2 1600000 1) ![0]) :
    shapeCast (Cert.Spec.Sh2 100000 2)
      (Host.scatterAdd (F := Ideal) (φ := .f32) ds
        (broadcastInDim (Cert.Spec.Sh1 200000) ![] hb0 (constant (F := Ideal) (⟨0, ![]⟩ : Shape) .f32 0x00000000#32))
        (broadcastInDim (Cert.Spec.Sh2 1600000 1) ![0] hbi seg)
        (broadcastInDim (Cert.Spec.Sh1 1600000) ![] hb1 (constant (F := Ideal) (⟨0, ![]⟩ : Shape) .f32 0x3F800000#32))) hc
    = fun i => Cert.Spec.zeroF + ∑ _e ∈ Finset.univ.filter (fun e : Fin 1600000 => (seg (ix1 e)).toInt = ((2 * (i 0).val + (i 1).val : Nat) : Int)), Cert.Spec.oneF := by
  funext i
  have h0 : (i 0).val < 100000 := idx2_lt0 i
  have h1 : (i 1).val < 2 := idx2_lt1 i
  have hn : 2 * (i 0).val + (i 1).val < 200000 := by omega
  rw [shapeCast_apply _ hc i (ix1 (⟨2 * (i 0).val + (i 1).val, hn⟩ : Fin 200000)) (by
    rw [Shape.rowMajor_val_two, Shape.rowMajor_val_one]
    show 2 * (i 0).val + (i 1).val = (i 0).val * 2 + (i 1).val
    omega)]
  rw [Cert.LibScatter.scatterAdd_vec_apply ds hu hi hs hv]
  refine congrArg₂ (· + ·) rfl ?_
  refine Finset.sum_congr ?_ (fun e _ => rfl)
  refine Finset.filter_congr (fun e _ => ?_)
  rw [col_apply]

/-- The aggregate: the gathered source rows scattered by bucket into zeros, the 200000 bucket rows of 128 laid out
    as 100000 rows of 256: entry (n, c) of the result is entry (2 n + c / 128, c % 128) of the scattered array, since
    256 n + c = 128 (2 n + c / 128) + c % 128. -/
theorem agg_core (ds : ScatterDims (Cert.Spec.Sh2 200000 128) (Cert.Spec.Sh2 1600000 1) (Cert.Spec.Sh2 1600000 128))
    (hu : ds.updateWindowDims = [1]) (hi : ds.insertedWindowDims = [0]) (hs : ds.scatterDimsToOperandDims = [0])
    (hv : ds.indexVectorDim = 1)
    (dg : GatherDims (Cert.Spec.Sh2 100000 128) (Cert.Spec.Sh2 1600000 1) (Cert.Spec.Sh2 1600000 128))
    (hoff : dg.offsetDims = [1]) (hcoll : dg.collapsedSliceDims = [0]) (hob : dg.operandBatchingDims = [])
    (hsim : dg.startIndexMap = [0]) (hivd : dg.indexVectorDim = 1) (hss : dg.sliceSizes = ![1, 128])
    (h : (Cert.Spec.Sh2 100000 128).Idx → EReal) (srcN : IVec (Cert.Spec.Sh2 1600000 1) 32) (seg : IVec (Cert.Spec.Sh1 1600000) 32)
    (hc : (Cert.Spec.Sh2 200000 128).ShapeCasts (Cert.Spec.Sh2 100000 256))
    (hb0 : (⟨0, ![]⟩ : Shape).BroadcastsInDim (Cert.Spec.Sh2 200000 128) ![])
    (hbi : (Cert.Spec.Sh1 1600000).BroadcastsInDim (Cert.Spec.Sh2 1600000 1) ![0]) :
    shapeCast (Cert.Spec.Sh2 100000 256)
      (Host.scatterAdd (F := Ideal) (φ := .f32) ds
        (broadcastInDim (Cert.Spec.Sh2 200000 128) ![] hb0 (constant (F := Ideal) (⟨0, ![]⟩ : Shape) .f32 0x00000000#32))
        (broadcastInDim (Cert.Spec.Sh2 1600000 1) ![0] hbi seg)
        (Host.gather dg h srcN)) hc
    = aggS h srcN seg := by
  funext i
  have h0 : (i 0).val < 100000 := idx2_lt0 i
  have h1 : (i 1).val < 256 := idx2_lt1 i
  have hn : 2 * (i 0).val + (i 1).val / 128 < 200000 := by omega
  have hk : (i 1).val % 128 < 128 := Nat.mod_lt _ (by decide)
  rw [shapeCast_apply _ hc i (ix2 (⟨2 * (i 0).val + (i 1).val / 128, hn⟩ : Fin 200000) (⟨(i 1).val % 128, hk⟩ : Fin 128)) (by
    rw [Shape.rowMajor_val_two, Shape.rowMajor_val_two]
    show (2 * (i 0).val + (i 1).val / 128) * 128 + (i 1).val % 128 = (i 0).val * 256 + (i 1).val
    omega)]
  rw [Cert.LibScatter.scatterAdd_rows_apply ds hu hi hs hv]
  refine congrArg₂ (· + ·) rfl ?_
  refine Finset.sum_congr ?_ (fun e _ => ?_)
  · refine Finset.filter_congr (fun e _ => ?_)
    rw [col_apply]
  · exact Cert.LibGather.gather_rows_col_apply (by decide : 0 < 100000) dg hoff hcoll hob hsim hivd hss h srcN e _

variable (W : Valuation τ sig (Elt Ideal))

/-- After the first stretch the source words are row 0 of the edge array. -/
theorem stretch1_src : StableHlo.after (hostOps1 (F := Ideal)) W (Proc.devRef .tc main_v2) = (shapeCast (Cert.Spec.Sh1 1600000) (extractStridedSlice (Cert.Spec.Sh2 1 1600000) ![0, 0] (W (Proc.devRef .tc main_arg1)) (by decide)) (by decide)) := by
  simp only [hostOps1]
  after_results
  rfl

/-- After the first stretch the bucket words are 2·dst + relation. -/
theorem stretch1_seg : StableHlo.after (hostOps1 (F := Ideal)) W (Proc.devRef .tc main_v7)
    = (addi (muli (shapeCast (Cert.Spec.Sh1 1600000) (extractStridedSlice (Cert.Spec.Sh2 1 1600000) ![1, 0] (W (Proc.devRef .tc main_arg1)) (by decide)) (by decide)) (broadcastInDim (Cert.Spec.Sh1 1600000) ![] (by decide) (constantI (⟨0, ![]⟩ : Shape) 32 2#32))) (W (Proc.devRef .tc main_arg2))) := by
  simp only [hostOps1]
  after_results
  rfl

/-- After the first stretch the count array is the specification's. -/
theorem stretch1_cnt : StableHlo.after (hostOps1 (F := Ideal)) W (Proc.devRef .tc main_v12)
    = Cert.Spec.cntK (shapeCast (Cert.Spec.Sh1 1600000) (extractStridedSlice (Cert.Spec.Sh2 1 1600000) ![1, 0] (W (Proc.devRef .tc main_arg1)) (by decide)) (by decide)) (W (Proc.devRef .tc main_arg2)) := by
  simp only [hostOps1]
  after_results
  exact cnt_core _ rfl rfl rfl rfl _ _ _ _ _

/-- After the first stretch the aggregate array is the specification's, of the stem's output as the stretch found it. -/
theorem stretch1_agg : StableHlo.after (hostOps1 (F := Ideal)) W (Proc.devRef .tc main_v23)
    = Cert.Spec.aggK (W (Proc.devRef .tc main_v0)) (broadcastInDim (Cert.Spec.Sh2 1600000 1) ![0] (by decide) (select (cmpi .slt (shapeCast (Cert.Spec.Sh1 1600000) (extractStridedSlice (Cert.Spec.Sh2 1 1600000) ![0, 0] (W (Proc.devRef .tc main_arg1)) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (W (Proc.devRef .tc main_arg1)) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (W (Proc.devRef .tc main_arg1)) (by decide)) (by decide))))
        (shapeCast (Cert.Spec.Sh1 1600000) (extractStridedSlice (Cert.Spec.Sh2 1 1600000) ![1, 0] (W (Proc.devRef .tc main_arg1)) (by decide)) (by decide)) (W (Proc.devRef .tc main_arg2)) := by
  simp only [hostOps1]
  after_results_simp
  refine Eq.trans ?_ (aggS_seg _ _ _ _)
  exact agg_core _ rfl rfl rfl rfl _ rfl rfl rfl rfl rfl rfl _ _ _ _ _ _

/-- After the second stretch the aggregate array is the aggregate of the first combine's output as the stretch found
    it, over the source and bucket words the first stretch left. -/
theorem stretch2_agg : StableHlo.after (hostOps2 (F := Ideal)) W (Proc.devRef .tc main_v35)
    = aggS (W (Proc.devRef .tc main_v24)) (broadcastInDim (Cert.Spec.Sh2 1600000 1) ![0] (by decide) (select (cmpi .slt (W (Proc.devRef .tc main_v2)) (broadcastInDim (Cert.Spec.Sh1 1600000) ![] (by decide) (constantI (⟨0, ![]⟩ : Shape) 32 0#32))) (addi (W (Proc.devRef .tc main_v2)) (broadcastInDim (Cert.Spec.Sh1 1600000) ![] (by decide) (constantI (⟨0, ![]⟩ : Shape) 32 100000#32))) (W (Proc.devRef .tc main_v2)))) (W (Proc.devRef .tc main_v7)) := by
  simp only [hostOps2]
  after_results_simp
  exact agg_core _ rfl rfl rfl rfl _ rfl rfl rfl rfl rfl rfl _ _ _ _ _ _

end Cert.KernelIdeal.HostAgg

end
-- ==== Proof.KernelValue.lean ====
/-
  The kernel's result as one function of the argument arrays: the buffer contents are followed through @main's five
  segments — the stem region, the first host stretch (edge words, counts, the first aggregate), the first combine,
  the second stretch (the second aggregate), the second combine with the classifier — each buffer a later segment
  reads being either written by an earlier one, whose value is known, or untouched since the launch.
-/
import proofs.«426800_j14224931684700_3_alg».proof.Proof.Gen.KernelIdeal.Frame
import proofs.«426800_j14224931684700_3_alg».proof.Proof.Spec
import proofs.«426800_j14224931684700_3_alg».proof.Proof.StemValue
import proofs.«426800_j14224931684700_3_alg».proof.Proof.CombineValue
import proofs.«426800_j14224931684700_3_alg».proof.Proof.HostAgg
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The edge array as launched, at its literal type. -/
abbrev ei (c : Dev nD) : IVec (Cert.Spec.Sh2 2 1600000) 32 := m ((c : Thread nD τ).loc main_arg1)

/-- A buffer no operation of the first stretch writes reads the same after it. -/
macro "keep_stretch1" : tactic => `(tactic| exact StableHlo.after_of_forall_not_mem _ _ (List.forall_iff_forall_mem.mp (by
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))
/-- The same for the second stretch. -/
macro "keep_stretch2" : tactic => `(tactic| exact StableHlo.after_of_forall_not_mem _ _ (List.forall_iff_forall_mem.mp (by
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The first region's exit -/

theorem W1_v0 (c : Dev nD) : W1 m ρ c (Proc.devRef .tc main_v0) = (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) :=
  (W1_arr m ρ c 12).trans (Cert.KernelIdeal.StemValue.stem_arr (V0 m ρ) c)
theorem W1_arg1 (c : Dev nD) : W1 m ρ c (Proc.devRef .tc main_arg1) = ei m c := W1_of_ne m ρ c main_arg1 (by decide)
theorem W1_arg2 (c : Dev nD) : W1 m ρ c (Proc.devRef .tc main_arg2) = (m ((c : Thread nD τ).loc main_arg2)) := W1_of_ne m ρ c main_arg2 (by decide)
theorem W1_arg14 (c : Dev nD) : W1 m ρ c (Proc.devRef .tc main_arg14) = (m ((c : Thread nD τ).loc main_arg14)) := W1_of_ne m ρ c main_arg14 (by decide)
theorem W1_arg15 (c : Dev nD) : W1 m ρ c (Proc.devRef .tc main_arg15) = (m ((c : Thread nD τ).loc main_arg15)) := W1_of_ne m ρ c main_arg15 (by decide)
theorem W1_arg16 (c : Dev nD) : W1 m ρ c (Proc.devRef .tc main_arg16) = (m ((c : Thread nD τ).loc main_arg16)) := W1_of_ne m ρ c main_arg16 (by decide)
theorem W1_arg17 (c : Dev nD) : W1 m ρ c (Proc.devRef .tc main_arg17) = (m ((c : Thread nD τ).loc main_arg17)) := W1_of_ne m ρ c main_arg17 (by decide)
theorem W1_arg18 (c : Dev nD) : W1 m ρ c (Proc.devRef .tc main_arg18) = (m ((c : Thread nD τ).loc main_arg18)) := W1_of_ne m ρ c main_arg18 (by decide)
theorem W1_arg19 (c : Dev nD) : W1 m ρ c (Proc.devRef .tc main_arg19) = (m ((c : Thread nD τ).loc main_arg19)) := W1_of_ne m ρ c main_arg19 (by decide)
theorem W1_arg20 (c : Dev nD) : W1 m ρ c (Proc.devRef .tc main_arg20) = (m ((c : Thread nD τ).loc main_arg20)) := W1_of_ne m ρ c main_arg20 (by decide)
theorem W1_arg21 (c : Dev nD) : W1 m ρ c (Proc.devRef .tc main_arg21) = (m ((c : Thread nD τ).loc main_arg21)) := W1_of_ne m ρ c main_arg21 (by decide)

/-! ## The first stretch -/

theorem W2_arg14 (c : Dev nD) : W2 m ρ c (Proc.devRef .tc main_arg14) = (m ((c : Thread nD τ).loc main_arg14)) :=
  (show StableHlo.after hostOps1 (W1 m ρ c) (Proc.devRef .tc main_arg14) = W1 m ρ c (Proc.devRef .tc main_arg14) by keep_stretch1).trans (W1_arg14 m ρ c)
theorem W2_arg15 (c : Dev nD) : W2 m ρ c (Proc.devRef .tc main_arg15) = (m ((c : Thread nD τ).loc main_arg15)) :=
  (show StableHlo.after hostOps1 (W1 m ρ c) (Proc.devRef .tc main_arg15) = W1 m ρ c (Proc.devRef .tc main_arg15) by keep_stretch1).trans (W1_arg15 m ρ c)
theorem W2_arg16 (c : Dev nD) : W2 m ρ c (Proc.devRef .tc main_arg16) = (m ((c : Thread nD τ).loc main_arg16)) :=
  (show StableHlo.after hostOps1 (W1 m ρ c) (Proc.devRef .tc main_arg16) = W1 m ρ c (Proc.devRef .tc main_arg16) by keep_stretch1).trans (W1_arg16 m ρ c)
theorem W2_arg17 (c : Dev nD) : W2 m ρ c (Proc.devRef .tc main_arg17) = (m ((c : Thread nD τ).loc main_arg17)) :=
  (show StableHlo.after hostOps1 (W1 m ρ c) (Proc.devRef .tc main_arg17) = W1 m ρ c (Proc.devRef .tc main_arg17) by keep_stretch1).trans (W1_arg17 m ρ c)
theorem W2_arg18 (c : Dev nD) : W2 m ρ c (Proc.devRef .tc main_arg18) = (m ((c : Thread nD τ).loc main_arg18)) :=
  (show StableHlo.after hostOps1 (W1 m ρ c) (Proc.devRef .tc main_arg18) = W1 m ρ c (Proc.devRef .tc main_arg18) by keep_stretch1).trans (W1_arg18 m ρ c)
theorem W2_arg19 (c : Dev nD) : W2 m ρ c (Proc.devRef .tc main_arg19) = (m ((c : Thread nD τ).loc main_arg19)) :=
  (show StableHlo.after hostOps1 (W1 m ρ c) (Proc.devRef .tc main_arg19) = W1 m ρ c (Proc.devRef .tc main_arg19) by keep_stretch1).trans (W1_arg19 m ρ c)
theorem W2_arg20 (c : Dev nD) : W2 m ρ c (Proc.devRef .tc main_arg20) = (m ((c : Thread nD τ).loc main_arg20)) :=
  (show StableHlo.after hostOps1 (W1 m ρ c) (Proc.devRef .tc main_arg20) = W1 m ρ c (Proc.devRef .tc main_arg20) by keep_stretch1).trans (W1_arg20 m ρ c)
theorem W2_arg21 (c : Dev nD) : W2 m ρ c (Proc.devRef .tc main_arg21) = (m ((c : Thread nD τ).loc main_arg21)) :=
  (show StableHlo.after hostOps1 (W1 m ρ c) (Proc.devRef .tc main_arg21) = W1 m ρ c (Proc.devRef .tc main_arg21) by keep_stretch1).trans (W1_arg21 m ρ c)
theorem W2_v0 (c : Dev nD) : W2 m ρ c (Proc.devRef .tc main_v0) = (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) :=
  (show StableHlo.after hostOps1 (W1 m ρ c) (Proc.devRef .tc main_v0) = W1 m ρ c (Proc.devRef .tc main_v0) by keep_stretch1).trans (W1_v0 m ρ c)
theorem W2_v2 (c : Dev nD) : W2 m ρ c (Proc.devRef .tc main_v2) = (shapeCast (Cert.Spec.Sh1 1600000) (extractStridedSlice (Cert.Spec.Sh2 1 1600000) ![0, 0] (ei m c) (by decide)) (by decide)) := by
  rw [show W2 m ρ c (Proc.devRef .tc main_v2) = _ from Cert.KernelIdeal.HostAgg.stretch1_src (W1 m ρ c), W1_arg1]; all_goals rfl
theorem W2_v7 (c : Dev nD) : W2 m ρ c (Proc.devRef .tc main_v7) = (addi (muli (shapeCast (Cert.Spec.Sh1 1600000) (extractStridedSlice (Cert.Spec.Sh2 1 1600000) ![1, 0] (ei m c) (by decide)) (by decide)) (broadcastInDim (Cert.Spec.Sh1 1600000) ![] (by decide) (constantI (⟨0, ![]⟩ : Shape) 32 2#32))) (m ((c : Thread nD τ).loc main_arg2))) := by
  rw [show W2 m ρ c (Proc.devRef .tc main_v7) = _ from Cert.KernelIdeal.HostAgg.stretch1_seg (W1 m ρ c), W1_arg1, W1_arg2]; all_goals rfl
theorem W2_v12 (c : Dev nD) : W2 m ρ c (Proc.devRef .tc main_v12) = (Cert.Spec.cntK (shapeCast (Cert.Spec.Sh1 1600000) (extractStridedSlice (Cert.Spec.Sh2 1 1600000) ![1, 0] (ei m c) (by decide)) (by decide)) (m ((c : Thread nD τ).loc main_arg2))) := by
  rw [show W2 m ρ c (Proc.devRef .tc main_v12) = _ from Cert.KernelIdeal.HostAgg.stretch1_cnt (W1 m ρ c), W1_arg1, W1_arg2]; all_goals rfl
theorem W2_v23 (c : Dev nD) : W2 m ρ c (Proc.devRef .tc main_v23) = (Cert.Spec.aggK (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) := by
  rw [show W2 m ρ c (Proc.devRef .tc main_v23) = _ from Cert.KernelIdeal.HostAgg.stretch1_agg (W1 m ρ c), W1_arg1, W1_arg2, W1_v0]; all_goals rfl

/-! ## The second region's exit -/

theorem W3_v24 (c : Dev nD) : W3 m ρ c (Proc.devRef .tc main_v24) = (Cert.Spec.combineA (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg16)) (Cert.Spec.aggK (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) (Cert.Spec.cntK (shapeCast (Cert.Spec.Sh1 1600000) (extractStridedSlice (Cert.Spec.Sh2 1 1600000) ![1, 0] (ei m c) (by decide)) (by decide)) (m ((c : Thread nD τ).loc main_arg2)))) := by
  rw [show W3 m ρ c (Proc.devRef .tc main_v24) = _ from W3_arr m ρ c 6, Cert.KernelIdeal.CombineValue.combine_arr (V2 m ρ) c]
  rw [show V2 m ρ c main_v0 = _ from W2_v0 m ρ c, show V2 m ρ c main_arg14 = _ from W2_arg14 m ρ c, show V2 m ρ c main_arg15 = _ from W2_arg15 m ρ c,
    show V2 m ρ c main_arg16 = _ from W2_arg16 m ρ c, show V2 m ρ c main_v23 = _ from W2_v23 m ρ c, show V2 m ρ c main_v12 = _ from W2_v12 m ρ c]
theorem W3_v12 (c : Dev nD) : W3 m ρ c (Proc.devRef .tc main_v12) = (Cert.Spec.cntK (shapeCast (Cert.Spec.Sh1 1600000) (extractStridedSlice (Cert.Spec.Sh2 1 1600000) ![1, 0] (ei m c) (by decide)) (by decide)) (m ((c : Thread nD τ).loc main_arg2))) :=
  ((W3_arr m ρ c 5).trans (((dat1 (V2 m ρ) c).arrAt_in 5 rfl _).trans (A_eq1 (V2 m ρ) c 5))).trans (W2_v12 m ρ c)
theorem W3_v2 (c : Dev nD) : W3 m ρ c (Proc.devRef .tc main_v2) = (shapeCast (Cert.Spec.Sh1 1600000) (extractStridedSlice (Cert.Spec.Sh2 1 1600000) ![0, 0] (ei m c) (by decide)) (by decide)) :=
  (W3_of_ne m ρ c main_v2 (by decide)).trans (W2_v2 m ρ c)
theorem W3_v7 (c : Dev nD) : W3 m ρ c (Proc.devRef .tc main_v7) = (addi (muli (shapeCast (Cert.Spec.Sh1 1600000) (extractStridedSlice (Cert.Spec.Sh2 1 1600000) ![1, 0] (ei m c) (by decide)) (by decide)) (broadcastInDim (Cert.Spec.Sh1 1600000) ![] (by decide) (constantI (⟨0, ![]⟩ : Shape) 32 2#32))) (m ((c : Thread nD τ).loc main_arg2))) :=
  (W3_of_ne m ρ c main_v7 (by decide)).trans (W2_v7 m ρ c)
theorem W3_arg17 (c : Dev nD) : W3 m ρ c (Proc.devRef .tc main_arg17) = (m ((c : Thread nD τ).loc main_arg17)) :=
  (W3_of_ne m ρ c main_arg17 (by decide)).trans (W2_arg17 m ρ c)
theorem W3_arg18 (c : Dev nD) : W3 m ρ c (Proc.devRef .tc main_arg18) = (m ((c : Thread nD τ).loc main_arg18)) :=
  (W3_of_ne m ρ c main_arg18 (by decide)).trans (W2_arg18 m ρ c)
theorem W3_arg19 (c : Dev nD) : W3 m ρ c (Proc.devRef .tc main_arg19) = (m ((c : Thread nD τ).loc main_arg19)) :=
  (W3_of_ne m ρ c main_arg19 (by decide)).trans (W2_arg19 m ρ c)
theorem W3_arg20 (c : Dev nD) : W3 m ρ c (Proc.devRef .tc main_arg20) = (m ((c : Thread nD τ).loc main_arg20)) :=
  (W3_of_ne m ρ c main_arg20 (by decide)).trans (W2_arg20 m ρ c)
theorem W3_arg21 (c : Dev nD) : W3 m ρ c (Proc.devRef .tc main_arg21) = (m ((c : Thread nD τ).loc main_arg21)) :=
  (W3_of_ne m ρ c main_arg21 (by decide)).trans (W2_arg21 m ρ c)

/-! ## The second stretch -/

theorem W4_arg17 (c : Dev nD) : W4 m ρ c (Proc.devRef .tc main_arg17) = (m ((c : Thread nD τ).loc main_arg17)) :=
  (show StableHlo.after hostOps2 (W3 m ρ c) (Proc.devRef .tc main_arg17) = W3 m ρ c (Proc.devRef .tc main_arg17) by keep_stretch2).trans (W3_arg17 m ρ c)
theorem W4_arg18 (c : Dev nD) : W4 m ρ c (Proc.devRef .tc main_arg18) = (m ((c : Thread nD τ).loc main_arg18)) :=
  (show StableHlo.after hostOps2 (W3 m ρ c) (Proc.devRef .tc main_arg18) = W3 m ρ c (Proc.devRef .tc main_arg18) by keep_stretch2).trans (W3_arg18 m ρ c)
theorem W4_arg19 (c : Dev nD) : W4 m ρ c (Proc.devRef .tc main_arg19) = (m ((c : Thread nD τ).loc main_arg19)) :=
  (show StableHlo.after hostOps2 (W3 m ρ c) (Proc.devRef .tc main_arg19) = W3 m ρ c (Proc.devRef .tc main_arg19) by keep_stretch2).trans (W3_arg19 m ρ c)
theorem W4_arg20 (c : Dev nD) : W4 m ρ c (Proc.devRef .tc main_arg20) = (m ((c : Thread nD τ).loc main_arg20)) :=
  (show StableHlo.after hostOps2 (W3 m ρ c) (Proc.devRef .tc main_arg20) = W3 m ρ c (Proc.devRef .tc main_arg20) by keep_stretch2).trans (W3_arg20 m ρ c)
theorem W4_arg21 (c : Dev nD) : W4 m ρ c (Proc.devRef .tc main_arg21) = (m ((c : Thread nD τ).loc main_arg21)) :=
  (show StableHlo.after hostOps2 (W3 m ρ c) (Proc.devRef .tc main_arg21) = W3 m ρ c (Proc.devRef .tc main_arg21) by keep_stretch2).trans (W3_arg21 m ρ c)
theorem W4_v24 (c : Dev nD) : W4 m ρ c (Proc.devRef .tc main_v24) = (Cert.Spec.combineA (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg16)) (Cert.Spec.aggK (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) (Cert.Spec.cntK (shapeCast (Cert.Spec.Sh1 1600000) (extractStridedSlice (Cert.Spec.Sh2 1 1600000) ![1, 0] (ei m c) (by decide)) (by decide)) (m ((c : Thread nD τ).loc main_arg2)))) :=
  (show StableHlo.after hostOps2 (W3 m ρ c) (Proc.devRef .tc main_v24) = W3 m ρ c (Proc.devRef .tc main_v24) by keep_stretch2).trans (W3_v24 m ρ c)
theorem W4_v12 (c : Dev nD) : W4 m ρ c (Proc.devRef .tc main_v12) = (Cert.Spec.cntK (shapeCast (Cert.Spec.Sh1 1600000) (extractStridedSlice (Cert.Spec.Sh2 1 1600000) ![1, 0] (ei m c) (by decide)) (by decide)) (m ((c : Thread nD τ).loc main_arg2))) :=
  (show StableHlo.after hostOps2 (W3 m ρ c) (Proc.devRef .tc main_v12) = W3 m ρ c (Proc.devRef .tc main_v12) by keep_stretch2).trans (W3_v12 m ρ c)
theorem W4_v35 (c : Dev nD) : W4 m ρ c (Proc.devRef .tc main_v35) = (Cert.Spec.aggK (Cert.Spec.combineA (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg16)) (Cert.Spec.aggK (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) (Cert.Spec.cntK (shapeCast (Cert.Spec.Sh1 1600000) (extractStridedSlice (Cert.Spec.Sh2 1 1600000) ![1, 0] (ei m c) (by decide)) (by decide)) (m ((c : Thread nD τ).loc main_arg2)))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) := by
  rw [show W4 m ρ c (Proc.devRef .tc main_v35) = _ from Cert.KernelIdeal.HostAgg.stretch2_agg (W3 m ρ c), W3_v24, W3_v2, W3_v7]
  exact Cert.KernelIdeal.HostAgg.aggS_seg _ _ _ _

/-! ## The result -/

/-- The kernel's result as a function of the argument arrays: the classifier of the second combine of the first
    combine of the stem, each combine over the aggregate and the count of its own input. -/
abbrev outK (c : Dev nD) : (Cert.Spec.Sh2 100000 128).Idx → EReal := (Cert.Spec.clsA (Cert.Spec.combineA (Cert.Spec.combineA (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg16)) (Cert.Spec.aggK (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) (Cert.Spec.cntK (shapeCast (Cert.Spec.Sh1 1600000) (extractStridedSlice (Cert.Spec.Sh2 1 1600000) ![1, 0] (ei m c) (by decide)) (by decide)) (m ((c : Thread nD τ).loc main_arg2)))) (m ((c : Thread nD τ).loc main_arg17)) (m ((c : Thread nD τ).loc main_arg18)) (m ((c : Thread nD τ).loc main_arg19)) (Cert.Spec.aggK (Cert.Spec.combineA (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (m ((c : Thread nD τ).loc main_arg14)) (m ((c : Thread nD τ).loc main_arg15)) (m ((c : Thread nD τ).loc main_arg16)) (Cert.Spec.aggK (Cert.Spec.stemA (m ((c : Thread nD τ).loc main_arg0)) (m ((c : Thread nD τ).loc main_arg7)) (m ((c : Thread nD τ).loc main_arg8)) (m ((c : Thread nD τ).loc main_arg5)) (m ((c : Thread nD τ).loc main_arg6)) (m ((c : Thread nD τ).loc main_arg9)) (m ((c : Thread nD τ).loc main_arg10)) (m ((c : Thread nD τ).loc main_arg3)) (m ((c : Thread nD τ).loc main_arg4)) (m ((c : Thread nD τ).loc main_arg11)) (m ((c : Thread nD τ).loc main_arg12)) (m ((c : Thread nD τ).loc main_arg13))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) (Cert.Spec.cntK (shapeCast (Cert.Spec.Sh1 1600000) (extractStridedSlice (Cert.Spec.Sh2 1 1600000) ![1, 0] (ei m c) (by decide)) (by decide)) (m ((c : Thread nD τ).loc main_arg2)))) (broadcastInDim (Cert.Spec.Sh2 1600000 1) ![0] (by decide) (select (cmpi .slt (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (ei m c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (ei m c) (by decide)) (by decide)))) (shapeCast (Cert.Spec.Sh1 1600000) (extractStridedSlice (Cert.Spec.Sh2 1 1600000) ![1, 0] (ei m c) (by decide)) (by decide)) (m ((c : Thread nD τ).loc main_arg2))) (Cert.Spec.cntK (shapeCast (Cert.Spec.Sh1 1600000) (extractStridedSlice (Cert.Spec.Sh2 1 1600000) ![1, 0] (ei m c) (by decide)) (by decide)) (m ((c : Thread nD τ).loc main_arg2)))) (m ((c : Thread nD τ).loc main_arg20)) (m ((c : Thread nD τ).loc main_arg21)))

/-- The result buffer at the last boundary is the classifier of the second combine of the first combine of the stem. -/
theorem result_eq (c : Dev nD) : W5 m ρ c (Proc.devRef .tc main_v36) = outK m c := by
  rw [show W5 m ρ c (Proc.devRef .tc main_v36) = _ from W5_arr m ρ c 8, Cert.KernelIdeal.CombineValue.combine_cls_arr (V4 m ρ) c]
  rw [show V4 m ρ c main_v24 = _ from W4_v24 m ρ c, show V4 m ρ c main_arg17 = _ from W4_arg17 m ρ c, show V4 m ρ c main_arg18 = _ from W4_arg18 m ρ c,
    show V4 m ρ c main_arg19 = _ from W4_arg19 m ρ c, show V4 m ρ c main_v35 = _ from W4_v35 m ρ c, show V4 m ρ c main_v12 = _ from W4_v12 m ρ c,
    show V4 m ρ c main_arg20 = _ from W4_arg20 m ρ c, show V4 m ρ c main_arg21 = _ from W4_arg21 m ρ c]

end Cert.KernelIdeal.KernelValue

end
-- ==== Proof.lean ====
/-
  The certificate that a three-region graph network kernel and its reference compute one function over the
  extended reals, on finite float inputs, destinations that are nodes and relations that are 0 or 1.

  Both programs apply a dense stem to the node features (four column ranges through an affine map and a leaky
  rectifier, joined, one more affine map, a per-channel rectifier), then two relational layers, then a classifier.
  In a layer the reference transforms every source row by the relation's matrix, masks the edges of the other
  relation, sums into the destination node and divides by max(masked count, 1); the kernel sums the raw source rows
  into the bucket 2·dst + relation, divides by max(bucket count, 1) and transforms the mean. With destinations in
  range the bucket word does not wrap and determines (dst, relation); the mask is 1 on the bucket's edges and 0 on
  the node's other edges; and on finite values a finite sum distributes over the product with a matrix entry and
  with the reciprocal of the count. Finiteness travels from the inputs through the stem and through the first layer,
  which is where the second layer needs it.

  The kernel's result is followed through its three regions and two host stretches as one function of the
  arguments; the reference's result is read stage by stage; the two functions are joined by the layer law.
-/
import proofs.«426800_j14224931684700_3_alg».proof.Defs
import proofs.«426800_j14224931684700_3_alg».proof.Proof.Gen.Kernel
import proofs.«426800_j14224931684700_3_alg».proof.Proof.Gen.Kernel.Frame
import proofs.«426800_j14224931684700_3_alg».proof.Proof.Gen.KernelIdeal
import proofs.«426800_j14224931684700_3_alg».proof.Proof.Gen.KernelIdeal.Frame
import proofs.«426800_j14224931684700_3_alg».proof.Proof.Gen.ReferenceIdeal
import proofs.«426800_j14224931684700_3_alg».proof.Proof.Gen.ReferenceIdeal.Run
import proofs.«426800_j14224931684700_3_alg».proof.Proof.Gen.ReferenceIdeal.Read
import proofs.«426800_j14224931684700_3_alg».proof.Proof.Gen.Pre_finite_inputs
import proofs.«426800_j14224931684700_3_alg».proof.Proof.Spec
import proofs.«426800_j14224931684700_3_alg».proof.Proof.PreDecode
import proofs.«426800_j14224931684700_3_alg».proof.Proof.Bridge
import proofs.«426800_j14224931684700_3_alg».proof.Proof.ValueRun
import proofs.«426800_j14224931684700_3_alg».proof.Proof.RefStem
import proofs.«426800_j14224931684700_3_alg».proof.Proof.RefLayers
import proofs.«426800_j14224931684700_3_alg».proof.Proof.KernelValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The reference's edge array as launched, at its literal type. -/
abbrev eir (m' : (ℓ : Loc Cert.ReferenceIdeal.nD Cert.ReferenceIdeal.τ Cert.ReferenceIdeal.sig) → Buf (Elt Ideal) ℓ)
    (c : Dev Cert.ReferenceIdeal.nD) : IVec (Cert.Spec.Sh2 2 1600000) 32 :=
  m' ((c.tc : Thread Cert.ReferenceIdeal.nD Cert.ReferenceIdeal.τ).loc Cert.ReferenceIdeal.main_arg1)

/-- The word-level kernel runs and keeps its arguments: the generated frame. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The reference's result term is the specification's network in the reference's form. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v178 m' c
      = Cert.Spec.clsA (Cert.Spec.layerRefA (Cert.Spec.layerRefA
          (Cert.Spec.stemA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)))
          (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (broadcastInDim (Cert.Spec.Sh2 1600000 1) ![0] (by decide) (select (cmpi .slt (shapeCast (Cert.Spec.Sh1 1600000) (extractStridedSlice (Cert.Spec.Sh2 1 1600000) ![0, 0] (eir m' c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (eir m' c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (eir m' c) (by decide)) (by decide)))) (shapeCast (Cert.Spec.Sh1 1600000) (extractStridedSlice (Cert.Spec.Sh2 1 1600000) ![1, 0] (eir m' c) (by decide)) (by decide)) (m' ((c.tc : Thread Cert.ReferenceIdeal.nD Cert.ReferenceIdeal.τ).loc Cert.ReferenceIdeal.main_arg2)))
          (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (broadcastInDim (Cert.Spec.Sh2 1600000 1) ![0] (by decide) (select (cmpi .slt (shapeCast (Cert.Spec.Sh1 1600000) (extractStridedSlice (Cert.Spec.Sh2 1 1600000) ![0, 0] (eir m' c) (by decide)) (by decide)) (broadcastInDim (Cert.Spec.Sh1 1600000) ![] (by decide) (constantI (⟨0, ![]⟩ : Shape) 32 0#32))) (addi (shapeCast (Cert.Spec.Sh1 1600000) (extractStridedSlice (Cert.Spec.Sh2 1 1600000) ![0, 0] (eir m' c) (by decide)) (by decide)) (broadcastInDim (Cert.Spec.Sh1 1600000) ![] (by decide) (constantI (⟨0, ![]⟩ : Shape) 32 100000#32))) (shapeCast (Cert.Spec.Sh1 1600000) (extractStridedSlice (Cert.Spec.Sh2 1 1600000) ![0, 0] (eir m' c) (by decide)) (by decide)))) (shapeCast (Cert.Spec.Sh1 1600000) (extractStridedSlice (Cert.Spec.Sh2 1 1600000) ![1, 0] (eir m' c) (by decide)) (by decide)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) := by
  rw [Cert.ReferenceIdeal.Read.val_main_v178_eq m' c, Cert.ReferenceIdeal.RefLayers.cls_eq, Cert.ReferenceIdeal.RefLayers.layer2_eq,
    Cert.ReferenceIdeal.RefLayers.layer1_eq, Cert.ReferenceIdeal.RefStem.stem_eq]
  all_goals rfl

/-- Kernel and reference, run from memories that agree on the arguments, end with equal results. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.KernelValue.outK m c, ?_, ?_⟩
  · exact (θ_run Cert.KernelIdeal.defs _ _).mono (fun _ h c => ⟨(h c).1.trans (Cert.KernelIdeal.KernelValue.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    obtain ⟨⟨f0, f3, f4, f5, f6, f7, f8, f9, f10, f11, f12, f13, f14, f15, f16, f17, f18, f19, f20, f21⟩, hr⟩ :=
      Cert.PreDecode.decode _ _ _ _ _ _ _ _ _ _ _ _ _ _ _ _ _ _ _ _ _ _ (hpre c)
    rw [ref_result m' c]
    unfold eir
    rw [e0, e1, e2, e3, e4, e5, e6, e7, e8, e9, e10, e11, e12, e13, e14, e15, e16, e17, e18, e19, e20, e21]
    exact (Cert.Spec.network_eq _ _ _ _ _ _ _ _ _ _ _ _ _ _ _ _ _ _ _ _ _ _ _
      f0 f7 f8 f5 f6 f9 f10 f3 f4 f11 f12 f13 f14 f15 f16 f18 hr).symm

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
